-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S1024 : Shape := ⟨1, ![1024]⟩
abbrev S128x128 : Shape := ⟨2, ![128, 128]⟩
abbrev S128 : Shape := ⟨1, ![128]⟩
abbrev S8x128 : Shape := ⟨2, ![8, 128]⟩
abbrev S128x8 : Shape := ⟨2, ![128, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg3 : IVec S1024 32) (main_v48 : IVec S_ 1) (main_v50 : IVec S1024 1) : IVec S_ 1 :=
  let main_c_19 : IVec S_ 32 := constantI S_ 32 1032#32
  let main_v51 : IVec S1024 32 := broadcastInDim S1024 ![] bcast_S_S1024 main_c_19
  let main_v52 : IVec S1024 1 := cmpi .slt main_arg3 main_v51
  let main_v53 : IVec S1024 1 := andi main_v50 main_v52
  let main_c_20 : IVec S_ 1 := constantI S_ 1 1#1
  let main_v54 : IVec S_ 1 := (fun x v => Host.reduce IntOp.andi x v reducesTo_S1024_S_d0 h_S_) main_v53 main_c_20
  let main_v55 : IVec S_ 1 := andi main_v48 main_v54
  main_v55

def fn_part2 {F : FTy → Type} [FloatOps F] (main_arg3 : IVec S1024 32) (main_arg10 : FVec F S8x128 .f32) (main_arg11 : FVec F S128x8 .f32) (main_arg12 : FVec F S8 .f32) (main_v33 : IVec S_ 1) : IVec S_ 1 :=
  let main_v34 : FVec F S8x128 .f32 := Host.absf main_arg10
  let main_cst_12 : FVec F S_ .f32 := constant S_ .f32 0x7F800000#32
  let main_v35 : FVec F S8x128 .f32 := broadcastInDim S8x128 ![] bcast_S_S8x128 main_cst_12
  let main_v36 : IVec S8x128 1 := cmpf .olt main_v34 main_v35
  let main_c_13 : IVec S_ 1 := constantI S_ 1 1#1
  let main_v37 : IVec S_ 1 := (fun x v => Host.reduce IntOp.andi x v reducesTo_S8x128_S_d0_1 h_S_) main_v36 main_c_13
  let main_v38 : IVec S_ 1 := andi main_v33 main_v37
  let main_v39 : FVec F S128x8 .f32 := Host.absf main_arg11
  let main_cst_14 : FVec F S_ .f32 := constant S_ .f32 0x7F800000#32
  let main_v40 : FVec F S128x8 .f32 := broadcastInDim S128x8 ![] bcast_S_S128x8 main_cst_14
  let main_v41 : IVec S128x8 1 := cmpf .olt main_v39 main_v40
  let main_c_15 : IVec S_ 1 := constantI S_ 1 1#1
  let main_v42 : IVec S_ 1 := (fun x v => Host.reduce IntOp.andi x v reducesTo_S128x8_S_d0_1 h_S_) main_v41 main_c_15
  let main_v43 : IVec S_ 1 := andi main_v38 main_v42
  let main_v44 : FVec F S8 .f32 := Host.absf main_arg12
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_c_18 : IVec S_ 32 := constantI S_ 32 0#32
  let main_v49 : IVec S1024 32 := broadcastInDim S1024 ![] bcast_S_S1024 main_c_18
  let main_v50 : IVec S1024 1 := cmpi .sge main_arg3 main_v49
  fn_part3 (F := F) main_arg3 main_v48 main_v50

def fn_part1 {F : FTy → Type} [FloatOps F] (main_arg3 : IVec S1024 32) (main_arg7 : FVec F S128 .f32) (main_arg8 : FVec F S128x128 .f32) (main_arg9 : FVec F S128 .f32) (main_arg10 : FVec F S8x128 .f32) (main_arg11 : FVec F S128x8 .f32) (main_arg12 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg10 main_arg11 main_arg12 main_v33

def fn {F : FTy → Type} [FloatOps F] (main_arg0 : FVec F S50000x128 .f32) (main_arg1 : IVec S2x600000 32) (main_arg2 : IVec S50000 32) (main_arg3 : IVec S1024 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S8x128 .f32) (main_arg11 : FVec F S128x8 .f32) (main_arg12 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S1024 : Shape := ⟨1, ![1024]⟩
abbrev S128x128 : Shape := ⟨2, ![128, 128]⟩
abbrev S128 : Shape := ⟨1, ![128]⟩
abbrev S8x128 : Shape := ⟨2, ![8, 128]⟩
abbrev S128x8 : Shape := ⟨2, ![128, 8]⟩
abbrev S8 : Shape := ⟨1, ![8]⟩
abbrev S1x600000 : Shape := ⟨2, ![1, 600000]⟩
abbrev S600000 : Shape := ⟨1, ![600000]⟩
abbrev S1200000 : Shape := ⟨1, ![1200000]⟩
abbrev S1250000 : Shape := ⟨1, ![1250000]⟩
abbrev S_ : Shape := ⟨0, ![]⟩
abbrev S1250000x1 : Shape := ⟨2, ![1250000, 1]⟩
abbrev S5000x128 : Shape := ⟨2, ![5000, 128]⟩
abbrev S1250000x128 : Shape := ⟨2, ![1250000, 128]⟩
abbrev S1x128 : Shape := ⟨2, ![1, 128]⟩
abbrev S50000x1 : Shape := ⟨2, ![50000, 1]⟩
abbrev S1024x128 : Shape := ⟨2, ![1024, 128]⟩
abbrev S2000x128 : Shape := ⟨2, ![2000, 128]⟩
abbrev S2000x1 : Shape := ⟨2, ![2000, 1]⟩
abbrev S2000x1024 : Shape := ⟨2, ![2000, 1024]⟩
abbrev S1032x128 : Shape := ⟨2, ![1032, 128]⟩
abbrev S2048 : Shape := ⟨1, ![2048]⟩
abbrev S1032 : Shape := ⟨1, ![1032]⟩
abbrev S3080 : Shape := ⟨1, ![3080]⟩
abbrev S3080x1 : Shape := ⟨2, ![3080, 1]⟩
abbrev S1032x1032 : Shape := ⟨2, ![1032, 1032]⟩
abbrev S3080x2 : Shape := ⟨2, ![3080, 2]⟩
abbrev S1x8 : Shape := ⟨2, ![1, 8]⟩
abbrev S1024x8 : Shape := ⟨2, ![1024, 8]⟩
abbrev S1024x1 : Shape := ⟨2, ![1024, 1]⟩

abbrev nBuf : Space → Nat
  | .hbm => 159
  | .vmem => 22
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S1024, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S8x128, .f32⟩
  | 11 => ⟨S128x8, .f32⟩
  | 12 => ⟨S8, .f32⟩
  | 13 => ⟨S1x600000, .i32⟩
  | 14 => ⟨S600000, .i32⟩
  | 15 => ⟨S1x600000, .i32⟩
  | 16 => ⟨S600000, .i32⟩
  | 17 => ⟨S1200000, .i32⟩
  | 18 => ⟨S1200000, .i32⟩
  | 19 => ⟨S50000, .i32⟩
  | 20 => ⟨S1250000, .i32⟩
  | 21 => ⟨S1250000, .i32⟩
  | 22 => ⟨S_, .f32⟩
  | 23 => ⟨S1250000, .f32⟩
  | 24 => ⟨S_, .f32⟩
  | 25 => ⟨S50000, .f32⟩
  | 26 => ⟨S1250000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S1250000, .i32⟩
  | 38 => ⟨S1250000, .i1⟩
  | 39 => ⟨S_, .i32⟩
  | 40 => ⟨S1250000, .i32⟩
  | 41 => ⟨S1250000, .i32⟩
  | 42 => ⟨S1250000, .i32⟩
  | 43 => ⟨S1250000x1, .i32⟩
  | 44 => ⟨S1250000, .f32⟩
  | 45 => ⟨S_, .i32⟩
  | 46 => ⟨S1250000, .i32⟩
  | 47 => ⟨S1250000, .i1⟩
  | 48 => ⟨S_, .i32⟩
  | 49 => ⟨S1250000, .i32⟩
  | 50 => ⟨S1250000, .i32⟩
  | 51 => ⟨S1250000, .i32⟩
  | 52 => ⟨S1250000x1, .i32⟩
  | 53 => ⟨S1250000, .f32⟩
  | 54 => ⟨S1250000, .f32⟩
  | 55 => ⟨S1250000x1, .f32⟩
  | 56 => ⟨S50000x128, .f32⟩
  | 57 => ⟨S_, .i32⟩
  | 58 => ⟨S1250000, .i32⟩
  | 59 => ⟨S1250000, .i1⟩
  | 60 => ⟨S_, .i32⟩
  | 61 => ⟨S1250000, .i32⟩
  | 62 => ⟨S1250000, .i32⟩
  | 63 => ⟨S1250000, .i32⟩
  | 64 => ⟨S1250000x1, .i32⟩
  | 65 => ⟨S1250000x128, .f32⟩
  | 66 => ⟨S1250000x128, .f32⟩
  | 67 => ⟨S1250000x128, .f32⟩
  | 68 => ⟨S_, .f32⟩
  | 69 => ⟨S50000x128, .f32⟩
  | 70 => ⟨S1250000x1, .i32⟩
  | 71 => ⟨S50000x128, .f32⟩
  | 72 => ⟨S1x128, .f32⟩
  | 73 => ⟨S50000x128, .f32⟩
  | 74 => ⟨S50000x128, .f32⟩
  | 75 => ⟨S50000x128, .f32⟩
  | 76 => ⟨S_, .i32⟩
  | 77 => ⟨S1250000, .i32⟩
  | 78 => ⟨S1250000, .i1⟩
  | 79 => ⟨S_, .i32⟩
  | 80 => ⟨S1250000, .i32⟩
  | 81 => ⟨S1250000, .i32⟩
  | 82 => ⟨S1250000, .i32⟩
  | 83 => ⟨S1250000x1, .i32⟩
  | 84 => ⟨S1250000x128, .f32⟩
  | 85 => ⟨S1250000x128, .f32⟩
  | 86 => ⟨S1250000x128, .f32⟩
  | 87 => ⟨S_, .f32⟩
  | 88 => ⟨S50000x128, .f32⟩
  | 89 => ⟨S1250000x1, .i32⟩
  | 90 => ⟨S50000x128, .f32⟩
  | 91 => ⟨S1x128, .f32⟩
  | 92 => ⟨S50000x128, .f32⟩
  | 93 => ⟨S50000x128, .f32⟩
  | 94 => ⟨S50000x1, .i32⟩
  | 95 => ⟨S1024x128, .f32⟩
  | 96 => ⟨S1032x128, .f32⟩
  | 97 => ⟨S1024, .i32⟩
  | 98 => ⟨S2048, .i32⟩
  | 99 => ⟨S2048, .i32⟩
  | 100 => ⟨S1032, .i32⟩
  | 101 => ⟨S3080, .i32⟩
  | 102 => ⟨S3080, .i32⟩
  | 103 => ⟨S_, .f32⟩
  | 104 => ⟨S3080, .f32⟩
  | 105 => ⟨S_, .f32⟩
  | 106 => ⟨S1032, .f32⟩
  | 107 => ⟨S3080x1, .i32⟩
  | 108 => ⟨S1032, .f32⟩
  | 109 => ⟨S_, .f32⟩
  | 110 => ⟨S1032, .f32⟩
  | 111 => ⟨S1032, .i1⟩
  | 112 => ⟨S1032, .f32⟩
  | 113 => ⟨S_, .f32⟩
  | 114 => ⟨S_, .f32⟩
  | 115 => ⟨S1032, .f32⟩
  | 116 => ⟨S1032, .f32⟩
  | 117 => ⟨S_, .i32⟩
  | 118 => ⟨S3080, .i32⟩
  | 119 => ⟨S3080, .i1⟩
  | 120 => ⟨S_, .i32⟩
  | 121 => ⟨S3080, .i32⟩
  | 122 => ⟨S3080, .i32⟩
  | 123 => ⟨S3080, .i32⟩
  | 124 => ⟨S3080x1, .i32⟩
  | 125 => ⟨S3080, .f32⟩
  | 126 => ⟨S_, .i32⟩
  | 127 => ⟨S3080, .i32⟩
  | _ => ⟨S50000x128, .f32⟩

abbrev hbmTy0_1 (i : Nat) : BufTy := match i % 128 with
  | 0 => ⟨S3080, .i1⟩
  | 1 => ⟨S_, .i32⟩
  | 2 => ⟨S3080, .i32⟩
  | 3 => ⟨S3080, .i32⟩
  | 4 => ⟨S3080, .i32⟩
  | 5 => ⟨S3080x1, .i32⟩
  | 6 => ⟨S3080, .f32⟩
  | 7 => ⟨S3080, .f32⟩
  | 8 => ⟨S_, .f32⟩
  | 9 => ⟨S1032x1032, .f32⟩
  | 10 => ⟨S_, .i32⟩
  | 11 => ⟨S3080, .i32⟩
  | 12 => ⟨S3080, .i1⟩
  | 13 => ⟨S_, .i32⟩
  | 14 => ⟨S3080, .i32⟩
  | 15 => ⟨S3080, .i32⟩
  | 16 => ⟨S3080, .i32⟩
  | 17 => ⟨S_, .i32⟩
  | 18 => ⟨S3080, .i32⟩
  | 19 => ⟨S3080, .i1⟩
  | 20 => ⟨S_, .i32⟩
  | 21 => ⟨S3080, .i32⟩
  | 22 => ⟨S3080, .i32⟩
  | 23 => ⟨S3080, .i32⟩
  | 24 => ⟨S3080x1, .i32⟩
  | 25 => ⟨S3080x1, .i32⟩
  | 26 => ⟨S3080x2, .i32⟩
  | 27 => ⟨S1032x1032, .f32⟩
  | 28 => ⟨S1x128, .f32⟩
  | 29 => ⟨S1x8, .f32⟩
  | 30 => ⟨S1024x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .i32⟩
  | .local _ .vmem, ⟨13, _⟩ => ⟨S2000x1, .i32⟩
  | .local _ .vmem, ⟨14, _⟩ => ⟨S1024x128, .f32⟩
  | .local _ .vmem, ⟨15, _⟩ => ⟨S1032x128, .f32⟩
  | .local _ .vmem, ⟨16, _⟩ => ⟨S1032x1032, .f32⟩
  | .local _ .vmem, ⟨17, _⟩ => ⟨S128x128, .f32⟩
  | .local _ .vmem, ⟨18, _⟩ => ⟨S1x128, .f32⟩
  | .local _ .vmem, ⟨19, _⟩ => ⟨S128x8, .f32⟩
  | .local _ .vmem, ⟨20, _⟩ => ⟨S1x8, .f32⟩
  | .local _ .vmem, ⟨21, _⟩ => ⟨S1024x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_14 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_call1_v0 : Ref sig .tc := ⟨.hbm, 114, rfl⟩
abbrev main_call1_v1 : Ref sig .tc := ⟨.hbm, 115, rfl⟩
abbrev main_v81 : Ref sig .tc := ⟨.hbm, 116, rfl⟩
abbrev main_c_16 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_18 : Ref sig .tc := ⟨.hbm, 126, rfl⟩
abbrev main_v89 : Ref sig .tc := ⟨.hbm, 127, rfl⟩
abbrev main_v90 : Ref sig .tc := ⟨.hbm, 128, rfl⟩
abbrev main_c_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_20 : Ref sig .tc := ⟨.hbm, 136, rfl⟩
abbrev main_v97 : Ref sig .tc := ⟨.hbm, 137, rfl⟩
abbrev main_c_21 : Ref sig .tc := ⟨.hbm, 138, rfl⟩
abbrev main_v98 : Ref sig .tc := ⟨.hbm, 139, rfl⟩
abbrev main_v99 : Ref sig .tc := ⟨.hbm, 140, rfl⟩
abbrev main_c_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_23 : Ref sig .tc := ⟨.hbm, 145, rfl⟩
abbrev main_v103 : Ref sig .tc := ⟨.hbm, 146, rfl⟩
abbrev main_v104 : Ref sig .tc := ⟨.hbm, 147, rfl⟩
abbrev main_c_24 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem6_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1032x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1032x1032 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S600000_S1200000_d0 : Shape.Concatenates [S600000, S600000] S1200000 0
  concatenates_S1200000_S50000_S1250000_d0 : Shape.Concatenates [S1200000, S50000] S1250000 0
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1250000x1_S1250000x128_0_1 : S1250000x1.BroadcastsInDim S1250000x128 (![0, 1] : Fin 2 → Fin S1250000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  shapeCasts_S50000_S50000x1 : S50000.ShapeCasts S50000x1
  inb_S1024x128_S1024x128_0_0 : ∀ a, (![0, 0] : Fin 2 → Nat) a + S1024x128.size a ≤ S1024x128.size a
  h_S1024x128 : 0 < S1024x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1024_d1_w32 : S2000x1024.Iotas .tc 32 [1]
  broadcasts_S2000x1_S2000x1024 : S2000x1.Broadcasts S2000x1024
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S1024x128_S1024x128 : S1024x128.ShapeCasts S1024x128
  concatenates_S1024x128_S8x128_S1032x128_d0 : Shape.Concatenates [S1024x128, S8x128] S1032x128 0
  concatenates_S1024_S1024_S2048_d0 : Shape.Concatenates [S1024, S1024] S2048 0
  concatenates_S2048_S1032_S3080_d0 : Shape.Concatenates [S2048, S1032] S3080 0
  bcast_S_S3080 : S_.BroadcastsInDim S3080 (![] : Fin 0 → Fin S3080.rank)
  bcast_S_S1032 : S_.BroadcastsInDim S1032 (![] : Fin 0 → Fin S1032.rank)
  bcast_S3080_S3080x1_0 : S3080.BroadcastsInDim S3080x1 (![0] : Fin 1 → Fin S3080x1.rank)
  bcast_S_S1032x1032 : S_.BroadcastsInDim S1032x1032 (![] : Fin 0 → Fin S1032x1032.rank)
  concatenates_S3080x1_S3080x1_S3080x2_d1 : Shape.Concatenates [S3080x1, S3080x1] S3080x2 1
  shapeCasts_S128_S1x128 : S128.ShapeCasts S1x128
  shapeCasts_S8_S1x8 : S8.ShapeCasts S1x8
  inb_S1032x128_S1032x128_0_0 : ∀ a, (![0, 0] : Fin 2 → Nat) a + S1032x128.size a ≤ S1032x128.size a
  h_S1032x128 : 0 < S1032x128.numel
  shapeCasts_S1032x128_S1032x128 : S1032x128.ShapeCasts S1032x128
  inb_S1032x1032_S1032x1032_0_0 : ∀ a, (![0, 0] : Fin 2 → Nat) a + S1032x1032.size a ≤ S1032x1032.size a
  h_S1032x1032 : 0 < S1032x1032.numel
  shapeCasts_S1032x1032_S1032x1032 : S1032x1032.ShapeCasts S1032x1032
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1032x128 : S1x128.Broadcasts S1032x128
  slices_S1032x128_o0_0_S1024x128 : S1032x128.Slices ![0, 0] S1024x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  reduces_S1024x8_S1024 : S1024x8.Reduces [1] S1024
  shapeCasts_S1024_S1024x1 : S1024.ShapeCasts S1024x1
  broadcasts_S1024x1_S1024x8 : S1024x1.Broadcasts S1024x8
  inb_S1024x8_S1024x8_0_0 : ∀ a, (![0, 0] : Fin 2 → Nat) a + S1024x8.size a ≤ S1024x8.size a
  h_S1024x8 : 0 < S1024x8.numel
  scatter_S50000_S1250000x1_S1250000_n_0_0_1_wf : ScatterDims.WF S50000 S1250000x1 S1250000 [] [0] [0] 1
  gather_S50000_S1250000x1_S1250000_n_0_n_n_0_1_1_wf : GatherDims.WF S50000 S1250000x1 S1250000 [] [0] [] [0] [] 1 ![1]
  dot_S5000x128_S128x128_S5000x128_1_0_0_1_n_n_wf : DotDims.WF S5000x128 S128x128 S5000x128 [1] [0] [0] [1] [] []
  gather_S50000x128_S1250000x1_S1250000x128_1_0_n_n_0_1_1128_wf : GatherDims.WF S50000x128 S1250000x1 S1250000x128 [1] [0] [] [0] [] 1 ![1, 128]
  scatter_S50000x128_S1250000x1_S1250000x128_1_0_0_1_wf : ScatterDims.WF S50000x128 S1250000x1 S1250000x128 [1] [0] [0] 1
  dot_S2000x1024_S2000x128_S1024x128_0_0_1_1_n_n_wf : DotDims.WF S2000x1024 S2000x128 S1024x128 [0] [0] [1] [1] [] []
  scatter_S1032_S3080x1_S3080_n_0_0_1_wf : ScatterDims.WF S1032 S3080x1 S3080 [] [0] [0] 1
  gather_S1032_S3080x1_S3080_n_0_n_n_0_1_1_wf : GatherDims.WF S1032 S3080x1 S3080 [] [0] [] [0] [] 1 ![1]
  scatter_S1032x1032_S3080x2_S3080_n_01_01_1_wf : ScatterDims.WF S1032x1032 S3080x2 S3080 [] [0, 1] [0, 1] 1
  dot_S1032x128_S128x128_S1032x128_1_0_0_1_n_n_wf : DotDims.WF S1032x128 S128x128 S1032x128 [1] [0] [0] [1] [] []
  dot_S1032x1032_S1032x128_S1032x128_1_0_0_1_n_n_wf : DotDims.WF S1032x1032 S1032x128 S1032x128 [1] [0] [0] [1] [] []
  dot_S1024x128_S128x8_S1024x8_1_0_0_1_n_n_wf : DotDims.WF S1024x128 S128x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .i32 = 32 ∨ (Rect.block (s := S50000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S1024x128.size a
  hwx2_2 : ∀ i : grid2.Coords, EltTy.bits .f32 = 32 ∨ (Rect.block (s := S1024x128) S1024x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1032x128.size a ≤ S1032x128.size a
  hwx3_0 : ∀ i : grid3.Coords, EltTy.bits .f32 = 32 ∨ (Rect.block (s := S1032x128) S1032x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1032x1032.size a ≤ S1032x1032.size a
  hwx3_1 : ∀ i : grid3.Coords, EltTy.bits .f32 = 32 ∨ (Rect.block (s := S1032x1032) S1032x1032.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x8.size a ≤ S128x8.size a
  hwx3_4 : ∀ i : grid3.Coords, EltTy.bits .f32 = 32 ∨ (Rect.block (s := S128x8) S128x8.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x8.size a ≤ S1x8.size a
  hwx3_5 : ∀ i : grid3.Coords, EltTy.bits .f32 = 32 ∨ (Rect.block (s := S1x8) S1x8.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x8.size a ≤ S1024x8.size a
  hwx3_6 : ∀ i : grid3.Coords, EltTy.bits .f32 = 32 ∨ (Rect.block (s := S1024x8) S1024x8.size (cc3_transform_6 i) (hinb3_6 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000_S1250000x1_S1250000_n_0_n_n_0_1_1 : GatherDims S50000 S1250000x1 S1250000 where
  offsetDims := []
  collapsedSliceDims := [0]
  operandBatchingDims := []
  startIndicesBatchingDims := []
  startIndexMap := [0]
  indexVectorDim := 1
  sliceSizes := ![1]
  wf := gather_S50000_S1250000x1_S1250000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1250000x1_S1250000x128_1_0_n_n_0_1_1128 : GatherDims S50000x128 S1250000x1 S1250000x128 where
  offsetDims := [1]
  collapsedSliceDims := [0]
  operandBatchingDims := []
  startIndicesBatchingDims := []
  startIndexMap := [0]
  indexVectorDim := 1
  sliceSizes := ![1, 128]
  wf := gather_S50000x128_S1250000x1_S1250000x128_1_0_n_n_0_1_1128_wf
def scatter_S50000x128_S1250000x1_S1250000x128_1_0_0_1 : ScatterDims S50000x128 S1250000x1 S1250000x128 where
  updateWindowDims := [1]
  insertedWindowDims := [0]
  scatterDimsToOperandDims := [0]
  indexVectorDim := 1
  wf := scatter_S50000x128_S1250000x1_S1250000x128_1_0_0_1_wf
def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf
def scatter_S1032_S3080x1_S3080_n_0_0_1 : ScatterDims S1032 S3080x1 S3080 where
  updateWindowDims := []
  insertedWindowDims := [0]
  scatterDimsToOperandDims := [0]
  indexVectorDim := 1
  wf := scatter_S1032_S3080x1_S3080_n_0_0_1_wf
def gather_S1032_S3080x1_S3080_n_0_n_n_0_1_1 : GatherDims S1032 S3080x1 S3080 where
  offsetDims := []
  collapsedSliceDims := [0]
  operandBatchingDims := []
  startIndicesBatchingDims := []
  startIndexMap := [0]
  indexVectorDim := 1
  sliceSizes := ![1]
  wf := gather_S1032_S3080x1_S3080_n_0_n_n_0_1_1_wf
def scatter_S1032x1032_S3080x2_S3080_n_01_01_1 : ScatterDims S1032x1032 S3080x2 S3080 where
  updateWindowDims := []
  insertedWindowDims := [0, 1]
  scatterDimsToOperandDims := [0, 1]
  indexVectorDim := 1
  wf := scatter_S1032x1032_S3080x2_S3080_n_01_01_1_wf
def dot_S1032x128_S128x128_S1032x128_1_0_0_1_n_n : DotDims S1032x128 S128x128 S1032x128 where
  lhsContracting := [1]
  rhsContracting := [0]
  lhsNonContracting := [0]
  rhsNonContracting := [1]
  lhsBatch := []
  rhsBatch := []
  wf := dot_S1032x128_S128x128_S1032x128_1_0_0_1_n_n_wf
def dot_S1032x1032_S1032x128_S1032x128_1_0_0_1_n_n : DotDims S1032x1032 S1032x128 S1032x128 where
  lhsContracting := [1]
  rhsContracting := [0]
  lhsNonContracting := [0]
  rhsNonContracting := [1]
  lhsBatch := []
  rhsBatch := []
  wf := dot_S1032x1032_S1032x128_S1032x128_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1024x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S1032x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v111) S1032x1032.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v112) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128x8.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v113) S1x8.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v114) S1024x8.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S1024 : Shape := ⟨1, ![1024]⟩
abbrev S128x128 : Shape := ⟨2, ![128, 128]⟩
abbrev S128 : Shape := ⟨1, ![128]⟩
abbrev S8x128 : Shape := ⟨2, ![8, 128]⟩
abbrev S128x8 : Shape := ⟨2, ![128, 8]⟩
abbrev S8 : Shape := ⟨1, ![8]⟩
abbrev S1x600000 : Shape := ⟨2, ![1, 600000]⟩
abbrev S600000 : Shape := ⟨1, ![600000]⟩
abbrev S1200000 : Shape := ⟨1, ![1200000]⟩
abbrev S1250000 : Shape := ⟨1, ![1250000]⟩
abbrev S_ : Shape := ⟨0, ![]⟩
abbrev S1250000x1 : Shape := ⟨2, ![1250000, 1]⟩
abbrev S1250000x128 : Shape := ⟨2, ![1250000, 128]⟩
abbrev S1x128 : Shape := ⟨2, ![1, 128]⟩
abbrev S1024x128 : Shape := ⟨2, ![1024, 128]⟩
abbrev S50000x1 : Shape := ⟨2, ![50000, 1]⟩
abbrev S1032x128 : Shape := ⟨2, ![1032, 128]⟩
abbrev S2048 : Shape := ⟨1, ![2048]⟩
abbrev S1032 : Shape := ⟨1, ![1032]⟩
abbrev S3080 : Shape := ⟨1, ![3080]⟩
abbrev S3080x1 : Shape := ⟨2, ![3080, 1]⟩
abbrev S3080x128 : Shape := ⟨2, ![3080, 128]⟩
abbrev S1024x1 : Shape := ⟨2, ![1024, 1]⟩
abbrev S1024x8 : Shape := ⟨2, ![1024, 8]⟩
abbrev S1x8 : Shape := ⟨2, ![1, 8]⟩

abbrev nBuf : Space → Nat
  | .hbm => 226
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S1024, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S8x128, .f32⟩
  | 11 => ⟨S128x8, .f32⟩
  | 12 => ⟨S8, .f32⟩
  | 13 => ⟨S1x600000, .i32⟩
  | 14 => ⟨S600000, .i32⟩
  | 15 => ⟨S1x600000, .i32⟩
  | 16 => ⟨S600000, .i32⟩
  | 17 => ⟨S1200000, .i32⟩
  | 18 => ⟨S1200000, .i32⟩
  | 19 => ⟨S50000, .i32⟩
  | 20 => ⟨S1250000, .i32⟩
  | 21 => ⟨S1250000, .i32⟩
  | 22 => ⟨S_, .f32⟩
  | 23 => ⟨S1250000, .f32⟩
  | 24 => ⟨S_, .f32⟩
  | 25 => ⟨S50000, .f32⟩
  | 26 => ⟨S1250000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S1250000, .i32⟩
  | 38 => ⟨S1250000, .i1⟩
  | 39 => ⟨S_, .i32⟩
  | 40 => ⟨S1250000, .i32⟩
  | 41 => ⟨S1250000, .i32⟩
  | 42 => ⟨S1250000, .i32⟩
  | 43 => ⟨S1250000x1, .i32⟩
  | 44 => ⟨S1250000, .f32⟩
  | 45 => ⟨S_, .i32⟩
  | 46 => ⟨S1250000, .i32⟩
  | 47 => ⟨S1250000, .i1⟩
  | 48 => ⟨S_, .i32⟩
  | 49 => ⟨S1250000, .i32⟩
  | 50 => ⟨S1250000, .i32⟩
  | 51 => ⟨S1250000, .i32⟩
  | 52 => ⟨S1250000x1, .i32⟩
  | 53 => ⟨S1250000, .f32⟩
  | 54 => ⟨S1250000, .f32⟩
  | 55 => ⟨S50000x128, .f32⟩
  | 56 => ⟨S_, .i32⟩
  | 57 => ⟨S1250000, .i32⟩
  | 58 => ⟨S1250000, .i1⟩
  | 59 => ⟨S_, .i32⟩
  | 60 => ⟨S1250000, .i32⟩
  | 61 => ⟨S1250000, .i32⟩
  | 62 => ⟨S1250000, .i32⟩
  | 63 => ⟨S1250000x1, .i32⟩
  | 64 => ⟨S1250000x128, .f32⟩
  | 65 => ⟨S1250000x1, .f32⟩
  | 66 => ⟨S1250000x128, .f32⟩
  | 67 => ⟨S1250000x128, .f32⟩
  | 68 => ⟨S_, .f32⟩
  | 69 => ⟨S50000x128, .f32⟩
  | 70 => ⟨S1250000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000, .i32⟩
  | 79 => ⟨S1250000, .i32⟩
  | 80 => ⟨S1250000, .i32⟩
  | 81 => ⟨S_, .f32⟩
  | 82 => ⟨S1250000, .f32⟩
  | 83 => ⟨S_, .f32⟩
  | 84 => ⟨S50000, .f32⟩
  | 85 => ⟨S1250000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S1250000, .i32⟩
  | 97 => ⟨S1250000, .i1⟩
  | 98 => ⟨S_, .i32⟩
  | 99 => ⟨S1250000, .i32⟩
  | 100 => ⟨S1250000, .i32⟩
  | 101 => ⟨S1250000, .i32⟩
  | 102 => ⟨S1250000x1, .i32⟩
  | 103 => ⟨S1250000, .f32⟩
  | 104 => ⟨S_, .i32⟩
  | 105 => ⟨S1250000, .i32⟩
  | 106 => ⟨S1250000, .i1⟩
  | 107 => ⟨S_, .i32⟩
  | 108 => ⟨S1250000, .i32⟩
  | 109 => ⟨S1250000, .i32⟩
  | 110 => ⟨S1250000, .i32⟩
  | 111 => ⟨S1250000x1, .i32⟩
  | 112 => ⟨S1250000, .f32⟩
  | 113 => ⟨S1250000, .f32⟩
  | 114 => ⟨S50000x128, .f32⟩
  | 115 => ⟨S_, .i32⟩
  | 116 => ⟨S1250000, .i32⟩
  | 117 => ⟨S1250000, .i1⟩
  | 118 => ⟨S_, .i32⟩
  | 119 => ⟨S1250000, .i32⟩
  | 120 => ⟨S1250000, .i32⟩
  | 121 => ⟨S1250000, .i32⟩
  | 122 => ⟨S1250000x1, .i32⟩
  | 123 => ⟨S1250000x128, .f32⟩
  | 124 => ⟨S1250000x1, .f32⟩
  | 125 => ⟨S1250000x128, .f32⟩
  | 126 => ⟨S1250000x128, .f32⟩
  | 127 => ⟨S_, .f32⟩
  | _ => ⟨S50000x128, .f32⟩

abbrev hbmTy0_1 (i : Nat) : BufTy := match i % 128 with
  | 0 => ⟨S50000x128, .f32⟩
  | 1 => ⟨S1250000x1, .i32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S1024x128, .f32⟩
  | 8 => ⟨S50000x1, .i32⟩
  | 9 => ⟨S1024x128, .f32⟩
  | 10 => ⟨S1032x128, .f32⟩
  | 11 => ⟨S1024, .i32⟩
  | 12 => ⟨S2048, .i32⟩
  | 13 => ⟨S2048, .i32⟩
  | 14 => ⟨S1032, .i32⟩
  | 15 => ⟨S3080, .i32⟩
  | 16 => ⟨S3080, .i32⟩
  | 17 => ⟨S_, .f32⟩
  | 18 => ⟨S3080, .f32⟩
  | 19 => ⟨S_, .f32⟩
  | 20 => ⟨S1032, .f32⟩
  | 21 => ⟨S3080x1, .i32⟩
  | 22 => ⟨S1032, .f32⟩
  | 23 => ⟨S_, .f32⟩
  | 24 => ⟨S1032, .f32⟩
  | 25 => ⟨S1032, .i1⟩
  | 26 => ⟨S1032, .f32⟩
  | 27 => ⟨S_, .f32⟩
  | 28 => ⟨S_, .f32⟩
  | 29 => ⟨S1032, .f32⟩
  | 30 => ⟨S1032, .f32⟩
  | 31 => ⟨S_, .i32⟩
  | 32 => ⟨S3080, .i32⟩
  | 33 => ⟨S3080, .i1⟩
  | 34 => ⟨S_, .i32⟩
  | 35 => ⟨S3080, .i32⟩
  | 36 => ⟨S3080, .i32⟩
  | 37 => ⟨S3080, .i32⟩
  | 38 => ⟨S3080x1, .i32⟩
  | 39 => ⟨S3080, .f32⟩
  | 40 => ⟨S_, .i32⟩
  | 41 => ⟨S3080, .i32⟩
  | 42 => ⟨S3080, .i1⟩
  | 43 => ⟨S_, .i32⟩
  | 44 => ⟨S3080, .i32⟩
  | 45 => ⟨S3080, .i32⟩
  | 46 => ⟨S3080, .i32⟩
  | 47 => ⟨S3080x1, .i32⟩
  | 48 => ⟨S3080, .f32⟩
  | 49 => ⟨S3080, .f32⟩
  | 50 => ⟨S1032x128, .f32⟩
  | 51 => ⟨S_, .i32⟩
  | 52 => ⟨S3080, .i32⟩
  | 53 => ⟨S3080, .i1⟩
  | 54 => ⟨S_, .i32⟩
  | 55 => ⟨S3080, .i32⟩
  | 56 => ⟨S3080, .i32⟩
  | 57 => ⟨S3080, .i32⟩
  | 58 => ⟨S3080x1, .i32⟩
  | 59 => ⟨S3080x128, .f32⟩
  | 60 => ⟨S3080x1, .f32⟩
  | 61 => ⟨S3080x128, .f32⟩
  | 62 => ⟨S3080x128, .f32⟩
  | 63 => ⟨S_, .f32⟩
  | 64 => ⟨S1032x128, .f32⟩
  | 65 => ⟨S3080x1, .i32⟩
  | 66 => ⟨S1032x128, .f32⟩
  | 67 => ⟨S1x128, .f32⟩
  | 68 => ⟨S1032x128, .f32⟩
  | 69 => ⟨S1032x128, .f32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1024x128, .f32⟩
  | 79 => ⟨S1024x8, .f32⟩
  | 80 => ⟨S1x8, .f32⟩
  | 81 => ⟨S1024x8, .f32⟩
  | 82 => ⟨S1024x8, .f32⟩
  | 83 => ⟨S_, .f32⟩
  | 84 => ⟨S1024, .f32⟩
  | 85 => ⟨S_, .f32⟩
  | 86 => ⟨S1024, .f32⟩
  | 87 => ⟨S1024, .f32⟩
  | 88 => ⟨S1024x1, .f32⟩
  | 89 => ⟨S1024x8, .f32⟩
  | 90 => ⟨S1024x8, .f32⟩
  | 91 => ⟨S1024x8, .f32⟩
  | 92 => ⟨S_, .f32⟩
  | 93 => ⟨S1024, .f32⟩
  | 94 => ⟨S1024x1, .f32⟩
  | 95 => ⟨S1024x1, .f32⟩
  | 96 => ⟨S1024x8, .f32⟩
  | 97 => ⟨S1024x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v60 : Ref sig .tc := ⟨.hbm, 94, rfl⟩
abbrev main_c_13 : Ref sig .tc := ⟨.hbm, 95, rfl⟩
abbrev main_v61 : Ref sig .tc := ⟨.hbm, 96, rfl⟩
abbrev main_v62 : Ref sig .tc := ⟨.hbm, 97, rfl⟩
abbrev main_c_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_15 : Ref sig .tc := ⟨.hbm, 104, rfl⟩
abbrev main_v68 : Ref sig .tc := ⟨.hbm, 105, rfl⟩
abbrev main_v69 : Ref sig .tc := ⟨.hbm, 106, rfl⟩
abbrev main_c_16 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_17 : Ref sig .tc := ⟨.hbm, 115, rfl⟩
abbrev main_v77 : Ref sig .tc := ⟨.hbm, 116, rfl⟩
abbrev main_v78 : Ref sig .tc := ⟨.hbm, 117, rfl⟩
abbrev main_c_18 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_19 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_20 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_21 : Ref sig .tc := ⟨.hbm, 145, rfl⟩
abbrev main_v103 : Ref sig .tc := ⟨.hbm, 146, rfl⟩
abbrev main_cst_22 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_23 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_24 : Ref sig .tc := ⟨.hbm, 155, rfl⟩
abbrev main_call3_v0 : Ref sig .tc := ⟨.hbm, 156, rfl⟩
abbrev main_call3_v1 : Ref sig .tc := ⟨.hbm, 157, rfl⟩
abbrev main_v110 : Ref sig .tc := ⟨.hbm, 158, rfl⟩
abbrev main_c_25 : Ref sig .tc := ⟨.hbm, 159, rfl⟩
abbrev main_v111 : Ref sig .tc := ⟨.hbm, 160, rfl⟩
abbrev main_v112 : Ref sig .tc := ⟨.hbm, 161, rfl⟩
abbrev main_c_26 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_27 : Ref sig .tc := ⟨.hbm, 168, rfl⟩
abbrev main_v118 : Ref sig .tc := ⟨.hbm, 169, rfl⟩
abbrev main_v119 : Ref sig .tc := ⟨.hbm, 170, rfl⟩
abbrev main_c_28 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_29 : Ref sig .tc := ⟨.hbm, 179, rfl⟩
abbrev main_v127 : Ref sig .tc := ⟨.hbm, 180, rfl⟩
abbrev main_v128 : Ref sig .tc := ⟨.hbm, 181, rfl⟩
abbrev main_c_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_31 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_c_32 : Ref sig .tc := ⟨.hbm, 198, rfl⟩
abbrev main_v143 : Ref sig .tc := ⟨.hbm, 199, rfl⟩
abbrev main_v144 : Ref sig .tc := ⟨.hbm, 200, rfl⟩
abbrev main_c_33 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_call4_cst : Ref sig .tc := ⟨.hbm, 211, rfl⟩
abbrev main_call4_v0 : Ref sig .tc := ⟨.hbm, 212, rfl⟩
abbrev main_call4_cst_0 : Ref sig .tc := ⟨.hbm, 213, rfl⟩
abbrev main_call4_v1 : Ref sig .tc := ⟨.hbm, 214, rfl⟩
abbrev main_call4_v2 : Ref sig .tc := ⟨.hbm, 215, rfl⟩
abbrev main_call4_v3 : Ref sig .tc := ⟨.hbm, 216, rfl⟩
abbrev main_call4_v4 : Ref sig .tc := ⟨.hbm, 217, rfl⟩
abbrev main_call4_v5 : Ref sig .tc := ⟨.hbm, 218, rfl⟩
abbrev main_call4_v6 : Ref sig .tc := ⟨.hbm, 219, rfl⟩
abbrev main_call4_cst_1 : Ref sig .tc := ⟨.hbm, 220, rfl⟩
abbrev main_call4_v7 : Ref sig .tc := ⟨.hbm, 221, rfl⟩
abbrev main_call4_v8 : Ref sig .tc := ⟨.hbm, 222, rfl⟩
abbrev main_call4_v9 : Ref sig .tc := ⟨.hbm, 223, rfl⟩
abbrev main_call4_v10 : Ref sig .tc := ⟨.hbm, 224, rfl⟩
abbrev main_v154 : Ref sig .tc := ⟨.hbm, 225, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S600000_S1200000_d0 : Shape.Concatenates [S600000, S600000] S1200000 0
  concatenates_S1200000_S50000_S1250000_d0 : Shape.Concatenates [S1200000, S50000] S1250000 0
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  bcast_S1250000x1_S1250000x128_0_1 : S1250000x1.BroadcastsInDim S1250000x128 (![0, 1] : Fin 2 → Fin S1250000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1024x128 : S_.BroadcastsInDim S1024x128 (![] : Fin 0 → Fin S1024x128.rank)
  bcast_S50000_S50000x1_0 : S50000.BroadcastsInDim S50000x1 (![0] : Fin 1 → Fin S50000x1.rank)
  concatenates_S1024x128_S8x128_S1032x128_d0 : Shape.Concatenates [S1024x128, S8x128] S1032x128 0
  concatenates_S1024_S1024_S2048_d0 : Shape.Concatenates [S1024, S1024] S2048 0
  concatenates_S2048_S1032_S3080_d0 : Shape.Concatenates [S2048, S1032] S3080 0
  bcast_S_S3080 : S_.BroadcastsInDim S3080 (![] : Fin 0 → Fin S3080.rank)
  bcast_S_S1032 : S_.BroadcastsInDim S1032 (![] : Fin 0 → Fin S1032.rank)
  bcast_S3080_S3080x1_0 : S3080.BroadcastsInDim S3080x1 (![0] : Fin 1 → Fin S3080x1.rank)
  bcast_S3080x1_S3080x128_0_1 : S3080x1.BroadcastsInDim S3080x128 (![0, 1] : Fin 2 → Fin S3080x128.rank)
  bcast_S_S1032x128 : S_.BroadcastsInDim S1032x128 (![] : Fin 0 → Fin S1032x128.rank)
  bcast_S1x128_S1032x128_0_1 : S1x128.BroadcastsInDim S1032x128 (![0, 1] : Fin 2 → Fin S1032x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  reducesTo_S1024x8_S1024_d1 : S1024x8.ReducesTo [1] S1024
  h_S_ : 0 < S_.numel
  bcast_S1024x1_S1024x8_0_1 : S1024x1.BroadcastsInDim S1024x8 (![0, 1] : Fin 2 → Fin S1024x8.rank)
  scatter_S50000_S1250000x1_S1250000_n_0_0_1_wf : ScatterDims.WF S50000 S1250000x1 S1250000 [] [0] [0] 1
  gather_S50000_S1250000x1_S1250000_n_0_n_n_0_1_1_wf : GatherDims.WF S50000 S1250000x1 S1250000 [] [0] [] [0] [] 1 ![1]
  dot_S50000x128_S128x128_S50000x128_1_0_0_1_n_n_wf : DotDims.WF S50000x128 S128x128 S50000x128 [1] [0] [0] [1] [] []
  gather_S50000x128_S1250000x1_S1250000x128_1_0_n_n_0_1_1128_wf : GatherDims.WF S50000x128 S1250000x1 S1250000x128 [1] [0] [] [0] [] 1 ![1, 128]
  scatter_S50000x128_S1250000x1_S1250000x128_1_0_0_1_wf : ScatterDims.WF S50000x128 S1250000x1 S1250000x128 [1] [0] [0] 1
  scatter_S1024x128_S50000x1_S50000x128_1_0_0_1_wf : ScatterDims.WF S1024x128 S50000x1 S50000x128 [1] [0] [0] 1
  scatter_S1032_S3080x1_S3080_n_0_0_1_wf : ScatterDims.WF S1032 S3080x1 S3080 [] [0] [0] 1
  gather_S1032_S3080x1_S3080_n_0_n_n_0_1_1_wf : GatherDims.WF S1032 S3080x1 S3080 [] [0] [] [0] [] 1 ![1]
  dot_S1032x128_S128x128_S1032x128_1_0_0_1_n_n_wf : DotDims.WF S1032x128 S128x128 S1032x128 [1] [0] [0] [1] [] []
  gather_S1032x128_S3080x1_S3080x128_1_0_n_n_0_1_1128_wf : GatherDims.WF S1032x128 S3080x1 S3080x128 [1] [0] [] [0] [] 1 ![1, 128]
  scatter_S1032x128_S3080x1_S3080x128_1_0_0_1_wf : ScatterDims.WF S1032x128 S3080x1 S3080x128 [1] [0] [0] 1
  gather_S1032x128_S1024x1_S1024x128_1_0_n_n_0_1_1128_wf : GatherDims.WF S1032x128 S1024x1 S1024x128 [1] [0] [] [0] [] 1 ![1, 128]
  dot_S1024x128_S128x8_S1024x8_1_0_0_1_n_n_wf : DotDims.WF S1024x128 S128x8 S1024x8 [1] [0] [0] [1] [] []

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000_S1250000x1_S1250000_n_0_n_n_0_1_1 : GatherDims S50000 S1250000x1 S1250000 where
  offsetDims := []
  collapsedSliceDims := [0]
  operandBatchingDims := []
  startIndicesBatchingDims := []
  startIndexMap := [0]
  indexVectorDim := 1
  sliceSizes := ![1]
  wf := gather_S50000_S1250000x1_S1250000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1250000x1_S1250000x128_1_0_n_n_0_1_1128 : GatherDims S50000x128 S1250000x1 S1250000x128 where
  offsetDims := [1]
  collapsedSliceDims := [0]
  operandBatchingDims := []
  startIndicesBatchingDims := []
  startIndexMap := [0]
  indexVectorDim := 1
  sliceSizes := ![1, 128]
  wf := gather_S50000x128_S1250000x1_S1250000x128_1_0_n_n_0_1_1128_wf
def scatter_S50000x128_S1250000x1_S1250000x128_1_0_0_1 : ScatterDims S50000x128 S1250000x1 S1250000x128 where
  updateWindowDims := [1]
  insertedWindowDims := [0]
  scatterDimsToOperandDims := [0]
  indexVectorDim := 1
  wf := scatter_S50000x128_S1250000x1_S1250000x128_1_0_0_1_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1032_S3080x1_S3080_n_0_0_1 : ScatterDims S1032 S3080x1 S3080 where
  updateWindowDims := []
  insertedWindowDims := [0]
  scatterDimsToOperandDims := [0]
  indexVectorDim := 1
  wf := scatter_S1032_S3080x1_S3080_n_0_0_1_wf
def gather_S1032_S3080x1_S3080_n_0_n_n_0_1_1 : GatherDims S1032 S3080x1 S3080 where
  offsetDims := []
  collapsedSliceDims := [0]
  operandBatchingDims := []
  startIndicesBatchingDims := []
  startIndexMap := [0]
  indexVectorDim := 1
  sliceSizes := ![1]
  wf := gather_S1032_S3080x1_S3080_n_0_n_n_0_1_1_wf
def dot_S1032x128_S128x128_S1032x128_1_0_0_1_n_n : DotDims S1032x128 S128x128 S1032x128 where
  lhsContracting := [1]
  rhsContracting := [0]
  lhsNonContracting := [0]
  rhsNonContracting := [1]
  lhsBatch := []
  rhsBatch := []
  wf := dot_S1032x128_S128x128_S1032x128_1_0_0_1_n_n_wf
def gather_S1032x128_S3080x1_S3080x128_1_0_n_n_0_1_1128 : GatherDims S1032x128 S3080x1 S3080x128 where
  offsetDims := [1]
  collapsedSliceDims := [0]
  operandBatchingDims := []
  startIndicesBatchingDims := []
  startIndexMap := [0]
  indexVectorDim := 1
  sliceSizes := ![1, 128]
  wf := gather_S1032x128_S3080x1_S3080x128_1_0_n_n_0_1_1128_wf
def scatter_S1032x128_S3080x1_S3080x128_1_0_0_1 : ScatterDims S1032x128 S3080x1 S3080x128 where
  updateWindowDims := [1]
  insertedWindowDims := [0]
  scatterDimsToOperandDims := [0]
  indexVectorDim := 1
  wf := scatter_S1032x128_S3080x1_S3080x128_1_0_0_1_wf
def gather_S1032x128_S1024x1_S1024x128_1_0_n_n_0_1_1128 : GatherDims S1032x128 S1024x1 S1024x128 where
  offsetDims := [1]
  collapsedSliceDims := [0]
  operandBatchingDims := []
  startIndicesBatchingDims := []
  startIndexMap := [0]
  indexVectorDim := 1
  sliceSizes := ![1, 128]
  wf := gather_S1032x128_S1024x1_S1024x128_1_0_n_n_0_1_1128_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf

class Facts : Prop extends Facts₀ where

variable [Facts]
-- ==== Proof.RefArgs.lean ====
/-
  The reference's buffer contents after each of the seven stretches of its operations, from the launch contents, and
  the argument arrays there: no operation writes an argument, so each stretch leaves it as launched.
-/
import proofs.«420595_j78357383348249_1_alg».proof.Proof.RefOps
import Idealize.ShloMosaic.Lib.Pipeline.Frame

noncomputable section

namespace Cert.ReferenceIdeal.St

open Idealize.ShloMosaic Idealize.ShloMosaic.TcCoe Idealize.SL.Sem Idealize.ShloMosaic.StableHlo
open Cert.ReferenceIdeal Cert.ReferenceIdeal.Gen Cert.ReferenceIdeal.ValueC

variable {F : FTy → Type} [FloatOps F]
variable (m : (ℓ : Loc nD τ sig) → Buf (Elt F) ℓ)

/-- Core c's buffer contents after the first stretch. -/
def R1 (c : Dev nD) : Valuation τ sig (Elt F) := StableHlo.after ops1 (launchContents m c)
/-- After stretch 2. -/
def R2 (c : Dev nD) : Valuation τ sig (Elt F) := StableHlo.after ops2 (R1 m c)
/-- After stretch 3. -/
def R3 (c : Dev nD) : Valuation τ sig (Elt F) := StableHlo.after ops3 (R2 m c)
/-- After stretch 4. -/
def R4 (c : Dev nD) : Valuation τ sig (Elt F) := StableHlo.after ops4 (R3 m c)
/-- After stretch 5. -/
def R5 (c : Dev nD) : Valuation τ sig (Elt F) := StableHlo.after ops5 (R4 m c)
/-- After stretch 6. -/
def R6 (c : Dev nD) : Valuation τ sig (Elt F) := StableHlo.after ops6 (R5 m c)
/-- After stretch 7. -/
def R7 (c : Dev nD) : Valuation τ sig (Elt F) := StableHlo.after ops7 (R6 m c)

/-- No operation of a stretch writes the given buffer: each operation writes its one result buffer, and that is another
    reference than the given one. -/
local macro "keeps% " l:ident : term => `(List.forall_iff_forall_mem.mp (by
    simp only [$l:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem R1_arg5 (c : Dev nD) : R1 m c (Proc.devRef .tc main_arg5) = m ((c.tc : Thread nD τ).loc main_arg5) :=
  (StableHlo.after_of_forall_not_mem (b := Proc.devRef .tc main_arg5) ops1 (launchContents m c) (keeps% ops1)).trans rfl

theorem R1_arg6 (c : Dev nD) : R1 m c (Proc.devRef .tc main_arg6) = m ((c.tc : Thread nD τ).loc main_arg6) :=
  (StableHlo.after_of_forall_not_mem (b := Proc.devRef .tc main_arg6) ops1 (launchContents m c) (keeps% ops1)).trans rfl

theorem R1_arg7 (c : Dev nD) : R1 m c (Proc.devRef .tc main_arg7) = m ((c.tc : Thread nD τ).loc main_arg7) :=
  (StableHlo.after_of_forall_not_mem (b := Proc.devRef .tc main_arg7) ops1 (launchContents m c) (keeps% ops1)).trans rfl

theorem R1_arg2 (c : Dev nD) : R1 m c (Proc.devRef .tc main_arg2) = m ((c.tc : Thread nD τ).loc main_arg2) :=
  (StableHlo.after_of_forall_not_mem (b := Proc.devRef .tc main_arg2) ops1 (launchContents m c) (keeps% ops1)).trans rfl

theorem R1_arg10 (c : Dev nD) : R1 m c (Proc.devRef .tc main_arg10) = m ((c.tc : Thread nD τ).loc main_arg10) :=
  (StableHlo.after_of_forall_not_mem (b := Proc.devRef .tc main_arg10) ops1 (launchContents m c) (keeps% ops1)).trans rfl

theorem R1_arg3 (c : Dev nD) : R1 m c (Proc.devRef .tc main_arg3) = m ((c.tc : Thread nD τ).loc main_arg3) :=
  (StableHlo.after_of_forall_not_mem (b := Proc.devRef .tc main_arg3) ops1 (launchContents m c) (keeps% ops1)).trans rfl

theorem R1_arg8 (c : Dev nD) : R1 m c (Proc.devRef .tc main_arg8) = m ((c.tc : Thread nD τ).loc main_arg8) :=
  (StableHlo.after_of_forall_not_mem (b := Proc.devRef .tc main_arg8) ops1 (launchContents m c) (keeps% ops1)).trans rfl

theorem R1_arg9 (c : Dev nD) : R1 m c (Proc.devRef .tc main_arg9) = m ((c.tc : Thread nD τ).loc main_arg9) :=
  (StableHlo.after_of_forall_not_mem (b := Proc.devRef .tc main_arg9) ops1 (launchContents m c) (keeps% ops1)).trans rfl

theorem R1_arg11 (c : Dev nD) : R1 m c (Proc.devRef .tc main_arg11) = m ((c.tc : Thread nD τ).loc main_arg11) :=
  (StableHlo.after_of_forall_not_mem (b := Proc.devRef .tc main_arg11) ops1 (launchContents m c) (keeps% ops1)).trans rfl

theorem R1_arg12 (c : Dev nD) : R1 m c (Proc.devRef .tc main_arg12) = m ((c.tc : Thread nD τ).loc main_arg12) :=
  (StableHlo.after_of_forall_not_mem (b := Proc.devRef .tc main_arg12) ops1 (launchContents m c) (keeps% ops1)).trans rfl

theorem R2_arg6 (c : Dev nD) : R2 m c (Proc.devRef .tc main_arg6) = m ((c.tc : Thread nD τ).loc main_arg6) :=
  (StableHlo.after_of_forall_not_mem (b := Proc.devRef .tc main_arg6) ops2 (R1 m c) (keeps% ops2)).trans (R1_arg6 m c)

theorem R2_arg7 (c : Dev nD) : R2 m c (Proc.devRef .tc main_arg7) = m ((c.tc : Thread nD τ).loc main_arg7) :=
  (StableHlo.after_of_forall_not_mem (b := Proc.devRef .tc main_arg7) ops2 (R1 m c) (keeps% ops2)).trans (R1_arg7 m c)

theorem R2_arg2 (c : Dev nD) : R2 m c (Proc.devRef .tc main_arg2) = m ((c.tc : Thread nD τ).loc main_arg2) :=
  (StableHlo.after_of_forall_not_mem (b := Proc.devRef .tc main_arg2) ops2 (R1 m c) (keeps% ops2)).trans (R1_arg2 m c)

theorem R2_arg10 (c : Dev nD) : R2 m c (Proc.devRef .tc main_arg10) = m ((c.tc : Thread nD τ).loc main_arg10) :=
  (StableHlo.after_of_forall_not_mem (b := Proc.devRef .tc main_arg10) ops2 (R1 m c) (keeps% ops2)).trans (R1_arg10 m c)

theorem R2_arg3 (c : Dev nD) : R2 m c (Proc.devRef .tc main_arg3) = m ((c.tc : Thread nD τ).loc main_arg3) :=
  (StableHlo.after_of_forall_not_mem (b := Proc.devRef .tc main_arg3) ops2 (R1 m c) (keeps% ops2)).trans (R1_arg3 m c)

theorem R2_arg8 (c : Dev nD) : R2 m c (Proc.devRef .tc main_arg8) = m ((c.tc : Thread nD τ).loc main_arg8) :=
  (StableHlo.after_of_forall_not_mem (b := Proc.devRef .tc main_arg8) ops2 (R1 m c) (keeps% ops2)).trans (R1_arg8 m c)

theorem R2_arg9 (c : Dev nD) : R2 m c (Proc.devRef .tc main_arg9) = m ((c.tc : Thread nD τ).loc main_arg9) :=
  (StableHlo.after_of_forall_not_mem (b := Proc.devRef .tc main_arg9) ops2 (R1 m c) (keeps% ops2)).trans (R1_arg9 m c)

theorem R2_arg11 (c : Dev nD) : R2 m c (Proc.devRef .tc main_arg11) = m ((c.tc : Thread nD τ).loc main_arg11) :=
  (StableHlo.after_of_forall_not_mem (b := Proc.devRef .tc main_arg11) ops2 (R1 m c) (keeps% ops2)).trans (R1_arg11 m c)

theorem R2_arg12 (c : Dev nD) : R2 m c (Proc.devRef .tc main_arg12) = m ((c.tc : Thread nD τ).loc main_arg12) :=
  (StableHlo.after_of_forall_not_mem (b := Proc.devRef .tc main_arg12) ops2 (R1 m c) (keeps% ops2)).trans (R1_arg12 m c)

theorem R3_arg7 (c : Dev nD) : R3 m c (Proc.devRef .tc main_arg7) = m ((c.tc : Thread nD τ).loc main_arg7) :=
  (StableHlo.after_of_forall_not_mem (b := Proc.devRef .tc main_arg7) ops3 (R2 m c) (keeps% ops3)).trans (R2_arg7 m c)

theorem R3_arg2 (c : Dev nD) : R3 m c (Proc.devRef .tc main_arg2) = m ((c.tc : Thread nD τ).loc main_arg2) :=
  (StableHlo.after_of_forall_not_mem (b := Proc.devRef .tc main_arg2) ops3 (R2 m c) (keeps% ops3)).trans (R2_arg2 m c)

theorem R3_arg10 (c : Dev nD) : R3 m c (Proc.devRef .tc main_arg10) = m ((c.tc : Thread nD τ).loc main_arg10) :=
  (StableHlo.after_of_forall_not_mem (b := Proc.devRef .tc main_arg10) ops3 (R2 m c) (keeps% ops3)).trans (R2_arg10 m c)

theorem R3_arg3 (c : Dev nD) : R3 m c (Proc.devRef .tc main_arg3) = m ((c.tc : Thread nD τ).loc main_arg3) :=
  (StableHlo.after_of_forall_not_mem (b := Proc.devRef .tc main_arg3) ops3 (R2 m c) (keeps% ops3)).trans (R2_arg3 m c)

theorem R3_arg8 (c : Dev nD) : R3 m c (Proc.devRef .tc main_arg8) = m ((c.tc : Thread nD τ).loc main_arg8) :=
  (StableHlo.after_of_forall_not_mem (b := Proc.devRef .tc main_arg8) ops3 (R2 m c) (keeps% ops3)).trans (R2_arg8 m c)

theorem R3_arg9 (c : Dev nD) : R3 m c (Proc.devRef .tc main_arg9) = m ((c.tc : Thread nD τ).loc main_arg9) :=
  (StableHlo.after_of_forall_not_mem (b := Proc.devRef .tc main_arg9) ops3 (R2 m c) (keeps% ops3)).trans (R2_arg9 m c)

theorem R3_arg11 (c : Dev nD) : R3 m c (Proc.devRef .tc main_arg11) = m ((c.tc : Thread nD τ).loc main_arg11) :=
  (StableHlo.after_of_forall_not_mem (b := Proc.devRef .tc main_arg11) ops3 (R2 m c) (keeps% ops3)).trans (R2_arg11 m c)

theorem R3_arg12 (c : Dev nD) : R3 m c (Proc.devRef .tc main_arg12) = m ((c.tc : Thread nD τ).loc main_arg12) :=
  (StableHlo.after_of_forall_not_mem (b := Proc.devRef .tc main_arg12) ops3 (R2 m c) (keeps% ops3)).trans (R2_arg12 m c)

theorem R4_arg3 (c : Dev nD) : R4 m c (Proc.devRef .tc main_arg3) = m ((c.tc : Thread nD τ).loc main_arg3) :=
  (StableHlo.after_of_forall_not_mem (b := Proc.devRef .tc main_arg3) ops4 (R3 m c) (keeps% ops4)).trans (R3_arg3 m c)

theorem R4_arg8 (c : Dev nD) : R4 m c (Proc.devRef .tc main_arg8) = m ((c.tc : Thread nD τ).loc main_arg8) :=
  (StableHlo.after_of_forall_not_mem (b := Proc.devRef .tc main_arg8) ops4 (R3 m c) (keeps% ops4)).trans (R3_arg8 m c)

theorem R4_arg9 (c : Dev nD) : R4 m c (Proc.devRef .tc main_arg9) = m ((c.tc : Thread nD τ).loc main_arg9) :=
  (StableHlo.after_of_forall_not_mem (b := Proc.devRef .tc main_arg9) ops4 (R3 m c) (keeps% ops4)).trans (R3_arg9 m c)

theorem R4_arg11 (c : Dev nD) : R4 m c (Proc.devRef .tc main_arg11) = m ((c.tc : Thread nD τ).loc main_arg11) :=
  (StableHlo.after_of_forall_not_mem (b := Proc.devRef .tc main_arg11) ops4 (R3 m c) (keeps% ops4)).trans (R3_arg11 m c)

theorem R4_arg12 (c : Dev nD) : R4 m c (Proc.devRef .tc main_arg12) = m ((c.tc : Thread nD τ).loc main_arg12) :=
  (StableHlo.after_of_forall_not_mem (b := Proc.devRef .tc main_arg12) ops4 (R3 m c) (keeps% ops4)).trans (R3_arg12 m c)

theorem R5_arg8 (c : Dev nD) : R5 m c (Proc.devRef .tc main_arg8) = m ((c.tc : Thread nD τ).loc main_arg8) :=
  (StableHlo.after_of_forall_not_mem (b := Proc.devRef .tc main_arg8) ops5 (R4 m c) (keeps% ops5)).trans (R4_arg8 m c)

theorem R5_arg9 (c : Dev nD) : R5 m c (Proc.devRef .tc main_arg9) = m ((c.tc : Thread nD τ).loc main_arg9) :=
  (StableHlo.after_of_forall_not_mem (b := Proc.devRef .tc main_arg9) ops5 (R4 m c) (keeps% ops5)).trans (R4_arg9 m c)

theorem R5_arg11 (c : Dev nD) : R5 m c (Proc.devRef .tc main_arg11) = m ((c.tc : Thread nD τ).loc main_arg11) :=
  (StableHlo.after_of_forall_not_mem (b := Proc.devRef .tc main_arg11) ops5 (R4 m c) (keeps% ops5)).trans (R4_arg11 m c)

theorem R5_arg12 (c : Dev nD) : R5 m c (Proc.devRef .tc main_arg12) = m ((c.tc : Thread nD τ).loc main_arg12) :=
  (StableHlo.after_of_forall_not_mem (b := Proc.devRef .tc main_arg12) ops5 (R4 m c) (keeps% ops5)).trans (R4_arg12 m c)

theorem R6_arg11 (c : Dev nD) : R6 m c (Proc.devRef .tc main_arg11) = m ((c.tc : Thread nD τ).loc main_arg11) :=
  (StableHlo.after_of_forall_not_mem (b := Proc.devRef .tc main_arg11) ops6 (R5 m c) (keeps% ops6)).trans (R5_arg11 m c)

theorem R6_arg12 (c : Dev nD) : R6 m c (Proc.devRef .tc main_arg12) = m ((c.tc : Thread nD τ).loc main_arg12) :=
  (StableHlo.after_of_forall_not_mem (b := Proc.devRef .tc main_arg12) ops6 (R5 m c) (keeps% ops6)).trans (R5_arg12 m c)

/-- The whole list's contents at a buffer are the seventh stretch's. -/
theorem after_ops (c : Dev nD) (b : Ref sig .tc) :
    StableHlo.after (ops (F := F)) (launchContents m c) (Proc.devRef .tc b) = R7 m c (Proc.devRef .tc b) := by
  rw [ops_split]
  simp only [StableHlo.after_append]
  rfl

end Cert.ReferenceIdeal.St

end
-- ==== Proof.RefSt1.lean ====
/-
  The reference's first stretch: the edge lists with self loops, the edge weights and the first linear layer, each
  buffer at its stage as a function of the arguments.
-/
import proofs.«420595_j78357383348249_1_alg».proof.Proof.RefArgs
import proofs.«420595_j78357383348249_1_alg».proof.Proof.RefRead

noncomputable section

namespace Cert.ReferenceIdeal.St

open Idealize.ShloMosaic Idealize.ShloMosaic.TcCoe Idealize.SL.Sem Idealize.ShloMosaic.StableHlo
open Cert.ReferenceIdeal Cert.ReferenceIdeal.Gen Cert.ReferenceIdeal.ValueC

variable {F : FTy → Type} [FloatOps F]
variable (m : (ℓ : Loc nD τ sig) → Buf (Elt F) ℓ)

/-- What is left under the operand list of a concatenation: each operation's result at its own buffer is its function's
    value, at any other buffer what was there. -/
local macro "results_rw" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The edge lists: both orders of the two rows of the argument, then the self loops appended -/

theorem R1_v4 (c : Dev nD) : R1 m c (Proc.devRef .tc main_v4) = Cert.ReferenceIdeal.ReadP.val_main_v4 (F := F) (m ((c.tc : Thread nD τ).loc main_arg1)) := by
  show StableHlo.after ops1 (launchContents m c) (Proc.devRef .tc main_v4) = _
  after_results
  rfl

theorem R1_v5 (c : Dev nD) : R1 m c (Proc.devRef .tc main_v5) = Cert.ReferenceIdeal.ReadP.val_main_v5 (F := F) (m ((c.tc : Thread nD τ).loc main_arg1)) := by
  show StableHlo.after ops1 (launchContents m c) (Proc.devRef .tc main_v5) = _
  after_results
  rfl

theorem R1_v7 (c : Dev nD) : R1 m c (Proc.devRef .tc main_v7) = Cert.ReferenceIdeal.ReadP.val_main_v7 (F := F) (m ((c.tc : Thread nD τ).loc main_arg1)) := by
  show StableHlo.after ops1 (launchContents m c) (Proc.devRef .tc main_v7) = _
  after_results
  rfl

theorem R1_v8 (c : Dev nD) : R1 m c (Proc.devRef .tc main_v8) = Cert.ReferenceIdeal.ReadP.val_main_v8 (F := F) (m ((c.tc : Thread nD τ).loc main_arg1)) := by
  show StableHlo.after ops1 (launchContents m c) (Proc.devRef .tc main_v8) = _
  after_results
  rfl

/-! ## The edge weights: the product of the inverse square-root degrees (zero where the degree is not positive) at
    the two end points of each edge -/

set_option maxHeartbeats 1000000 in
theorem R1_v31 (c : Dev nD) : R1 m c (Proc.devRef .tc main_v31) = Cert.ReferenceIdeal.ReadP.val_main_v31 (F := F) (m ((c.tc : Thread nD τ).loc main_arg1)) := by
  show StableHlo.after ops1 (launchContents m c) (Proc.devRef .tc main_v31) = _
  after_results_simp
  results_rw
  rfl

/-! ## The first linear layer: the features times the first weight matrix -/

theorem R1_v32 (c : Dev nD) : R1 m c (Proc.devRef .tc main_v32) = Cert.ReferenceIdeal.ReadP.val_main_v32 (F := F) (m ((c.tc : Thread nD τ).loc main_arg0)) (m ((c.tc : Thread nD τ).loc main_arg4)) := by
  show StableHlo.after ops1 (launchContents m c) (Proc.devRef .tc main_v32) = _
  after_results_simp
  rfl

end Cert.ReferenceIdeal.St

end
-- ==== Proof.RefSt2.lean ====
/-
  The reference's second stretch: the first layer's gather, scaling, scatter-add and bias, then the clamp at zero.
-/
import proofs.«420595_j78357383348249_1_alg».proof.Proof.RefArgs
import proofs.«420595_j78357383348249_1_alg».proof.Proof.RefRead
import proofs.«420595_j78357383348249_1_alg».proof.Proof.RefSt1

noncomputable section

namespace Cert.ReferenceIdeal.St

open Idealize.ShloMosaic Idealize.ShloMosaic.TcCoe Idealize.SL.Sem Idealize.ShloMosaic.StableHlo
open Cert.ReferenceIdeal Cert.ReferenceIdeal.Gen Cert.ReferenceIdeal.ValueC

variable {F : FTy → Type} [FloatOps F]
variable (m : (ℓ : Loc nD τ sig) → Buf (Elt F) ℓ)

set_option maxHeartbeats 1000000 in
theorem R2_v49 (c : Dev nD) : R2 m c (Proc.devRef .tc main_v49) = Cert.ReferenceIdeal.ReadP.val_main_v49 (F := F) (m ((c.tc : Thread nD τ).loc main_arg0)) (m ((c.tc : Thread nD τ).loc main_arg1)) (m ((c.tc : Thread nD τ).loc main_arg4)) (m ((c.tc : Thread nD τ).loc main_arg5)) := by
  show StableHlo.after ops2 (R1 m c) (Proc.devRef .tc main_v49) = _
  after_results_simp
  try simp only [TRef.ofBuf, TRef.toBuf, cast_eq]
  rw [R1_v7, R1_v8, R1_v31, R1_v32, R1_arg5]
  rfl

theorem R2_v4 (c : Dev nD) : R2 m c (Proc.devRef .tc main_v4) = Cert.ReferenceIdeal.ReadP.val_main_v4 (F := F) (m ((c.tc : Thread nD τ).loc main_arg1)) := by
  show StableHlo.after ops2 (R1 m c) (Proc.devRef .tc main_v4) = _
  after_results_simp
  exact R1_v4 m c

theorem R2_v5 (c : Dev nD) : R2 m c (Proc.devRef .tc main_v5) = Cert.ReferenceIdeal.ReadP.val_main_v5 (F := F) (m ((c.tc : Thread nD τ).loc main_arg1)) := by
  show StableHlo.after ops2 (R1 m c) (Proc.devRef .tc main_v5) = _
  after_results_simp
  exact R1_v5 m c

end Cert.ReferenceIdeal.St

end
-- ==== Proof.RefSt3.lean ====
/-
  The reference's third stretch: the edge lists and weights built again, and the second linear layer.
-/
import proofs.«420595_j78357383348249_1_alg».proof.Proof.RefArgs
import proofs.«420595_j78357383348249_1_alg».proof.Proof.RefRead
import proofs.«420595_j78357383348249_1_alg».proof.Proof.RefSt2

noncomputable section

namespace Cert.ReferenceIdeal.St

open Idealize.ShloMosaic Idealize.ShloMosaic.TcCoe Idealize.SL.Sem Idealize.ShloMosaic.StableHlo
open Cert.ReferenceIdeal Cert.ReferenceIdeal.Gen Cert.ReferenceIdeal.ValueC

variable {F : FTy → Type} [FloatOps F]
variable (m : (ℓ : Loc nD τ sig) → Buf (Elt F) ℓ)

/-- What a buffer holds after one operation, read also inside a list of joined operands: the operation's value
    at its own result, the earlier contents anywhere else. -/
local macro "operand_results" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)))

theorem R3_v51 (c : Dev nD) : R3 m c (Proc.devRef .tc main_v51) = Cert.ReferenceIdeal.ReadP.val_main_v51 (F := F) (m ((c.tc : Thread nD τ).loc main_arg1)) := by
  show StableHlo.after ops3 (R2 m c) (Proc.devRef .tc main_v51) = _
  after_results_simp
  operand_results
  rw [R2_v4]
  rfl

theorem R3_v52 (c : Dev nD) : R3 m c (Proc.devRef .tc main_v52) = Cert.ReferenceIdeal.ReadP.val_main_v52 (F := F) (m ((c.tc : Thread nD τ).loc main_arg1)) := by
  show StableHlo.after ops3 (R2 m c) (Proc.devRef .tc main_v52) = _
  after_results_simp
  operand_results
  rw [R2_v5]
  rfl

set_option maxHeartbeats 1000000 in
theorem R3_v75 (c : Dev nD) : R3 m c (Proc.devRef .tc main_v75) = Cert.ReferenceIdeal.ReadP.val_main_v75 (F := F) (m ((c.tc : Thread nD τ).loc main_arg1)) := by
  show StableHlo.after ops3 (R2 m c) (Proc.devRef .tc main_v75) = _
  after_results_simp
  operand_results
  try simp only [TRef.ofBuf, TRef.toBuf, cast_eq]
  rw [R2_v4, R2_v5]
  rfl

theorem R3_v76 (c : Dev nD) : R3 m c (Proc.devRef .tc main_v76) = Cert.ReferenceIdeal.ReadP.val_main_v76 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  show StableHlo.after ops3 (R2 m c) (Proc.devRef .tc main_v76) = _
  after_results_simp
  rw [R2_v49, R2_arg6]
  rfl

end Cert.ReferenceIdeal.St

end
-- ==== Proof.RefSt4.lean ====
/-
  The reference's fourth stretch: the second layer's aggregation and bias, the pooling scatter-add, and the class rows appended.
-/
import proofs.«420595_j78357383348249_1_alg».proof.Proof.RefArgs
import proofs.«420595_j78357383348249_1_alg».proof.Proof.RefRead
import proofs.«420595_j78357383348249_1_alg».proof.Proof.RefSt3

noncomputable section

namespace Cert.ReferenceIdeal.St

open Idealize.ShloMosaic Idealize.ShloMosaic.TcCoe Idealize.SL.Sem Idealize.ShloMosaic.StableHlo
open Cert.ReferenceIdeal Cert.ReferenceIdeal.Gen Cert.ReferenceIdeal.ValueC

variable {F : FTy → Type} [FloatOps F]
variable (m : (ℓ : Loc nD τ sig) → Buf (Elt F) ℓ)

set_option maxHeartbeats 1000000 in
theorem R4_v96 (c : Dev nD) : R4 m c (Proc.devRef .tc main_v96) = Cert.ReferenceIdeal.ReadP.val_main_v96 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) := by
  -- the pooled embeddings, read after the whole stretch
  have h95 : StableHlo.after ops4 (R3 m c) (Proc.devRef .tc main_v95)
      = Cert.ReferenceIdeal.ReadP.val_main_v95 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
    dsimp only [ops4]
    after_results_simp
    rw [R3_v51, R3_v52, R3_v75, R3_v76, R3_arg7, R3_arg2]
    all_goals rfl
  -- the class rows are an argument
  have h10 : StableHlo.after ops4 (R3 m c) (Proc.devRef .tc main_arg10) = m ((c.tc : Thread nD τ).loc main_arg10) := by
    dsimp only [ops4]
    after_results_simp
    exact R3_arg10 m c
  -- the last operation joins the two, and writes neither
  have key : ∀ V : Valuation τ sig (Elt F), StableHlo.after ops4 V (Proc.devRef .tc main_v96)
      = concatenate S1032x128 0 [⟨S1024x128, StableHlo.after ops4 V (Proc.devRef .tc main_v95)⟩,
          ⟨S8x128, StableHlo.after ops4 V (Proc.devRef .tc main_arg10)⟩] concatenates_S1024x128_S8x128_S1032x128_d0 := by
    intro V
    dsimp only [ops4]
    simp only [StableHlo.after_cons, StableHlo.after_nil]
    rw [StableHlo.binary_result]
    rw [StableHlo.binary_result_ne]; rotate_left; decide
    rw [StableHlo.binary_result_ne]; rotate_left; decide
  show StableHlo.after ops4 (R3 m c) (Proc.devRef .tc main_v96) = _
  refine (key (R3 m c)).trans ?_
  rw [h95, h10]
  all_goals rfl

end Cert.ReferenceIdeal.St

end
-- ==== Proof.RefSt5.lean ====
/-
  The reference's fifth stretch: the task graph's edge lists and edge weights from the support labels.
-/
import proofs.«420595_j78357383348249_1_alg».proof.Proof.RefArgs
import proofs.«420595_j78357383348249_1_alg».proof.Proof.RefRead
import proofs.«420595_j78357383348249_1_alg».proof.Proof.RefSt4

noncomputable section

namespace Cert.ReferenceIdeal.St

open Idealize.ShloMosaic Idealize.ShloMosaic.TcCoe Idealize.SL.Sem Idealize.ShloMosaic.StableHlo
open Cert.ReferenceIdeal Cert.ReferenceIdeal.Gen Cert.ReferenceIdeal.ValueC

variable {F : FTy → Type} [FloatOps F]
variable (m : (ℓ : Loc nD τ sig) → Buf (Elt F) ℓ)

theorem R5_v97 (c : Dev nD) : R5 m c (Proc.devRef .tc main_v97) = Cert.ReferenceIdeal.ReadP.val_main_v97 (F := F) := by
  show StableHlo.after ops5 (R4 m c) (Proc.devRef .tc main_v97) = _
  dsimp only [ops5]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  all_goals rfl

set_option maxHeartbeats 1000000 in
theorem R5_v101 (c : Dev nD) : R5 m c (Proc.devRef .tc main_v101) = Cert.ReferenceIdeal.ReadP.val_main_v101 (F := F) (m ((c.tc : Thread nD τ).loc main_arg3)) := by
  show StableHlo.after ops5 (R4 m c) (Proc.devRef .tc main_v101) = _
  dsimp only [ops5]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rw [R4_arg3]
  all_goals rfl

set_option maxHeartbeats 1000000 in
theorem R5_v102 (c : Dev nD) : R5 m c (Proc.devRef .tc main_v102) = Cert.ReferenceIdeal.ReadP.val_main_v102 (F := F) (m ((c.tc : Thread nD τ).loc main_arg3)) := by
  show StableHlo.after ops5 (R4 m c) (Proc.devRef .tc main_v102) = _
  dsimp only [ops5]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rw [R4_arg3]
  all_goals rfl

set_option maxHeartbeats 4000000 in
theorem R5_v125 (c : Dev nD) : R5 m c (Proc.devRef .tc main_v125) = Cert.ReferenceIdeal.ReadP.val_main_v125 (F := F) (m ((c.tc : Thread nD τ).loc main_arg3)) := by
  show StableHlo.after ops5 (R4 m c) (Proc.devRef .tc main_v125) = _
  dsimp only [ops5]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rw [R4_arg3]
  all_goals (try simp only [StableHlo.TRef.ofBuf, StableHlo.TRef.toBuf, cast_eq])
  all_goals rfl

set_option maxHeartbeats 1000000 in
theorem R5_v96 (c : Dev nD) : R5 m c (Proc.devRef .tc main_v96) = Cert.ReferenceIdeal.ReadP.val_main_v96 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) := by
  show StableHlo.after ops5 (R4 m c) (Proc.devRef .tc main_v96) = _
  dsimp only [ops5]
  after_results_simp
  exact R4_v96 m c

end Cert.ReferenceIdeal.St

end
-- ==== Proof.RefSt6.lean ====
/-
  The reference's sixth stretch: the task graph's linear layer, aggregation and bias.
-/
import proofs.«420595_j78357383348249_1_alg».proof.Proof.RefArgs
import proofs.«420595_j78357383348249_1_alg».proof.Proof.RefRead
import proofs.«420595_j78357383348249_1_alg».proof.Proof.RefSt5

noncomputable section

namespace Cert.ReferenceIdeal.St

open Idealize.ShloMosaic Idealize.ShloMosaic.TcCoe Idealize.SL.Sem Idealize.ShloMosaic.StableHlo
open Cert.ReferenceIdeal Cert.ReferenceIdeal.Gen Cert.ReferenceIdeal.ValueC

variable {F : FTy → Type} [FloatOps F]
variable (m : (ℓ : Loc nD τ sig) → Buf (Elt F) ℓ)

theorem R6_v142 (c : Dev nD) : R6 m c (Proc.devRef .tc main_v142) = Cert.ReferenceIdeal.ReadP.val_main_v142 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  -- the stretch's operations composed, from the previous boundary's stages and the arguments as launched
  show StableHlo.after ops6 (R5 m c) (Proc.devRef .tc main_v142) = _
  after_results_simp
  rw [R5_v96, R5_v101, R5_v102, R5_v125, R5_arg8, R5_arg9]
  rfl

theorem R6_v97 (c : Dev nD) : R6 m c (Proc.devRef .tc main_v97) = Cert.ReferenceIdeal.ReadP.val_main_v97 (F := F) := by
  -- no operation of the stretch writes this buffer
  show StableHlo.after ops6 (R5 m c) (Proc.devRef .tc main_v97) = _
  after_results_simp
  exact R5_v97 m c

end Cert.ReferenceIdeal.St

end
-- ==== Proof.RefSt7.lean ====
/-
  The reference's last stretch: the first 1024 rows, the last linear layer with its bias, and the log-softmax.
-/
import proofs.«420595_j78357383348249_1_alg».proof.Proof.RefArgs
import proofs.«420595_j78357383348249_1_alg».proof.Proof.RefRead
import proofs.«420595_j78357383348249_1_alg».proof.Proof.RefSt6

noncomputable section

namespace Cert.ReferenceIdeal.St

open Idealize.ShloMosaic Idealize.ShloMosaic.TcCoe Idealize.SL.Sem Idealize.ShloMosaic.StableHlo
open Cert.ReferenceIdeal Cert.ReferenceIdeal.Gen Cert.ReferenceIdeal.ValueC

variable {F : FTy → Type} [FloatOps F]
variable (m : (ℓ : Loc nD τ sig) → Buf (Elt F) ℓ)

theorem R7_v154 (c : Dev nD) : R7 m c (Proc.devRef .tc main_v154) = Cert.ReferenceIdeal.ReadP.val_main_v154 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  -- the stretch's operations composed, from the previous boundary's stages and the arguments as launched
  show StableHlo.after ops7 (R6 m c) (Proc.devRef .tc main_v154) = _
  after_results_simp
  rw [R6_v97, R6_v142, R6_arg11, R6_arg12]
  rfl

end Cert.ReferenceIdeal.St

end
-- ==== Proof.ArgsAt.lean ====
/-
  The argument arrays at the boundaries where a later stretch or region reads them: no host operation and no region
  writes an argument, so each boundary's contents at an argument buffer are the launch contents.
-/
import proofs.«420595_j78357383348249_1_alg».proof.Proof.Gen.KernelIdeal.Frame

noncomputable section

namespace Cert.KernelIdeal.Stage

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- A host stretch leaves a buffer none of its operations writes as it was: the stretch's list of writes is spelled
    out and each written reference differs from the argument's. -/
local macro "host_keeps " ops:ident " at " a:ident : term =>
  `(StableHlo.after_of_forall_not_mem (b := Proc.devRef .tc $a) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

theorem W3_arg0 (c : Dev nD) : W3 m ρ c (Proc.devRef .tc main_arg0) = m ((c.tc : Thread nD τ).loc main_arg0) :=
  calc W3 m ρ c (Proc.devRef .tc main_arg0)
    _ = W2 m ρ c (Proc.devRef .tc main_arg0) := host_keeps hostOps0_2 at main_arg0
    _ = W1 m ρ c (Proc.devRef .tc main_arg0) := host_keeps hostOps0_1 at main_arg0
    _ = W0 m ρ c (Proc.devRef .tc main_arg0) := host_keeps hostOps0 at main_arg0
    _ = m ((c.tc : Thread nD τ).loc main_arg0) := rfl

theorem W3_arg4 (c : Dev nD) : W3 m ρ c (Proc.devRef .tc main_arg4) = m ((c.tc : Thread nD τ).loc main_arg4) :=
  calc W3 m ρ c (Proc.devRef .tc main_arg4)
    _ = W2 m ρ c (Proc.devRef .tc main_arg4) := host_keeps hostOps0_2 at main_arg4
    _ = W1 m ρ c (Proc.devRef .tc main_arg4) := host_keeps hostOps0_1 at main_arg4
    _ = W0 m ρ c (Proc.devRef .tc main_arg4) := host_keeps hostOps0 at main_arg4
    _ = m ((c.tc : Thread nD τ).loc main_arg4) := rfl

theorem W4_arg5 (c : Dev nD) : W4 m ρ c (Proc.devRef .tc main_arg5) = m ((c.tc : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := host_keeps hostOps0_2 at main_arg5
    _ = W1 m ρ c (Proc.devRef .tc main_arg5) := host_keeps hostOps0_1 at main_arg5
    _ = W0 m ρ c (Proc.devRef .tc main_arg5) := host_keeps hostOps0 at main_arg5
    _ = m ((c.tc : Thread nD τ).loc main_arg5) := rfl

theorem W5_arg6 (c : Dev nD) : W5 m ρ c (Proc.devRef .tc main_arg6) = m ((c.tc : Thread nD τ).loc main_arg6) :=
  calc W5 m ρ c (Proc.devRef .tc main_arg6)
    _ = W4 m ρ c (Proc.devRef .tc main_arg6) := host_keeps hostOps1 at main_arg6
    _ = W3 m ρ c (Proc.devRef .tc main_arg6) := W4_of_ne m ρ c main_arg6 (by decide)
    _ = W2 m ρ c (Proc.devRef .tc main_arg6) := host_keeps hostOps0_2 at main_arg6
    _ = W1 m ρ c (Proc.devRef .tc main_arg6) := host_keeps hostOps0_1 at main_arg6
    _ = W0 m ρ c (Proc.devRef .tc main_arg6) := host_keeps hostOps0 at main_arg6
    _ = m ((c.tc : Thread nD τ).loc main_arg6) := rfl

theorem W6_arg7 (c : Dev nD) : W6 m ρ c (Proc.devRef .tc main_arg7) = m ((c.tc : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := host_keeps hostOps1 at main_arg7
    _ = W3 m ρ c (Proc.devRef .tc main_arg7) := W4_of_ne m ρ c main_arg7 (by decide)
    _ = W2 m ρ c (Proc.devRef .tc main_arg7) := host_keeps hostOps0_2 at main_arg7
    _ = W1 m ρ c (Proc.devRef .tc main_arg7) := host_keeps hostOps0_1 at main_arg7
    _ = W0 m ρ c (Proc.devRef .tc main_arg7) := host_keeps hostOps0 at main_arg7
    _ = m ((c.tc : Thread nD τ).loc main_arg7) := rfl

theorem W6_arg2 (c : Dev nD) : W6 m ρ c (Proc.devRef .tc main_arg2) = m ((c.tc : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := host_keeps hostOps1 at main_arg2
    _ = W3 m ρ c (Proc.devRef .tc main_arg2) := W4_of_ne m ρ c main_arg2 (by decide)
    _ = W2 m ρ c (Proc.devRef .tc main_arg2) := host_keeps hostOps0_2 at main_arg2
    _ = W1 m ρ c (Proc.devRef .tc main_arg2) := host_keeps hostOps0_1 at main_arg2
    _ = W0 m ρ c (Proc.devRef .tc main_arg2) := host_keeps hostOps0 at main_arg2
    _ = m ((c.tc : Thread nD τ).loc main_arg2) := rfl

theorem W8_arg10 (c : Dev nD) : W8 m ρ c (Proc.devRef .tc main_arg10) = m ((c.tc : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := host_keeps hostOps2 at main_arg10
    _ = W5 m ρ c (Proc.devRef .tc main_arg10) := W6_of_ne m ρ c main_arg10 (by decide)
    _ = W4 m ρ c (Proc.devRef .tc main_arg10) := host_keeps hostOps1 at main_arg10
    _ = W3 m ρ c (Proc.devRef .tc main_arg10) := W4_of_ne m ρ c main_arg10 (by decide)
    _ = W2 m ρ c (Proc.devRef .tc main_arg10) := host_keeps hostOps0_2 at main_arg10
    _ = W1 m ρ c (Proc.devRef .tc main_arg10) := host_keeps hostOps0_1 at main_arg10
    _ = W0 m ρ c (Proc.devRef .tc main_arg10) := host_keeps hostOps0 at main_arg10
    _ = m ((c.tc : Thread nD τ).loc main_arg10) := rfl

theorem W8_arg3 (c : Dev nD) : W8 m ρ c (Proc.devRef .tc main_arg3) = m ((c.tc : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := host_keeps hostOps2 at main_arg3
    _ = W5 m ρ c (Proc.devRef .tc main_arg3) := W6_of_ne m ρ c main_arg3 (by decide)
    _ = W4 m ρ c (Proc.devRef .tc main_arg3) := host_keeps hostOps1 at main_arg3
    _ = W3 m ρ c (Proc.devRef .tc main_arg3) := W4_of_ne m ρ c main_arg3 (by decide)
    _ = W2 m ρ c (Proc.devRef .tc main_arg3) := host_keeps hostOps0_2 at main_arg3
    _ = W1 m ρ c (Proc.devRef .tc main_arg3) := host_keeps hostOps0_1 at main_arg3
    _ = W0 m ρ c (Proc.devRef .tc main_arg3) := host_keeps hostOps0 at main_arg3
    _ = m ((c.tc : Thread nD τ).loc main_arg3) := rfl

theorem W10_arg9 (c : Dev nD) : W10 m ρ c (Proc.devRef .tc main_arg9) = m ((c.tc : Thread nD τ).loc main_arg9) :=
  calc W10 m ρ c (Proc.devRef .tc main_arg9)
    _ = W9 m ρ c (Proc.devRef .tc main_arg9) := host_keeps hostOps3_1 at main_arg9
    _ = W8 m ρ c (Proc.devRef .tc main_arg9) := host_keeps hostOps3 at main_arg9
    _ = W7 m ρ c (Proc.devRef .tc main_arg9) := W8_of_ne m ρ c main_arg9 (by decide)
    _ = W6 m ρ c (Proc.devRef .tc main_arg9) := host_keeps hostOps2 at main_arg9
    _ = W5 m ρ c (Proc.devRef .tc main_arg9) := W6_of_ne m ρ c main_arg9 (by decide)
    _ = W4 m ρ c (Proc.devRef .tc main_arg9) := host_keeps hostOps1 at main_arg9
    _ = W3 m ρ c (Proc.devRef .tc main_arg9) := W4_of_ne m ρ c main_arg9 (by decide)
    _ = W2 m ρ c (Proc.devRef .tc main_arg9) := host_keeps hostOps0_2 at main_arg9
    _ = W1 m ρ c (Proc.devRef .tc main_arg9) := host_keeps hostOps0_1 at main_arg9
    _ = W0 m ρ c (Proc.devRef .tc main_arg9) := host_keeps hostOps0 at main_arg9
    _ = m ((c.tc : Thread nD τ).loc main_arg9) := rfl

theorem W10_arg12 (c : Dev nD) : W10 m ρ c (Proc.devRef .tc main_arg12) = m ((c.tc : Thread nD τ).loc main_arg12) :=
  calc W10 m ρ c (Proc.devRef .tc main_arg12)
    _ = W9 m ρ c (Proc.devRef .tc main_arg12) := host_keeps hostOps3_1 at main_arg12
    _ = W8 m ρ c (Proc.devRef .tc main_arg12) := host_keeps hostOps3 at main_arg12
    _ = W7 m ρ c (Proc.devRef .tc main_arg12) := W8_of_ne m ρ c main_arg12 (by decide)
    _ = W6 m ρ c (Proc.devRef .tc main_arg12) := host_keeps hostOps2 at main_arg12
    _ = W5 m ρ c (Proc.devRef .tc main_arg12) := W6_of_ne m ρ c main_arg12 (by decide)
    _ = W4 m ρ c (Proc.devRef .tc main_arg12) := host_keeps hostOps1 at main_arg12
    _ = W3 m ρ c (Proc.devRef .tc main_arg12) := W4_of_ne m ρ c main_arg12 (by decide)
    _ = W2 m ρ c (Proc.devRef .tc main_arg12) := host_keeps hostOps0_2 at main_arg12
    _ = W1 m ρ c (Proc.devRef .tc main_arg12) := host_keeps hostOps0_1 at main_arg12
    _ = W0 m ρ c (Proc.devRef .tc main_arg12) := host_keeps hostOps0 at main_arg12
    _ = m ((c.tc : Thread nD τ).loc main_arg12) := rfl

theorem W11_arg8 (c : Dev nD) : W11 m ρ c (Proc.devRef .tc main_arg8) = m ((c.tc : Thread nD τ).loc main_arg8) :=
  calc W11 m ρ c (Proc.devRef .tc main_arg8)
    _ = W10 m ρ c (Proc.devRef .tc main_arg8) := host_keeps hostOps3_2 at main_arg8
    _ = W9 m ρ c (Proc.devRef .tc main_arg8) := host_keeps hostOps3_1 at main_arg8
    _ = W8 m ρ c (Proc.devRef .tc main_arg8) := host_keeps hostOps3 at main_arg8
    _ = W7 m ρ c (Proc.devRef .tc main_arg8) := W8_of_ne m ρ c main_arg8 (by decide)
    _ = W6 m ρ c (Proc.devRef .tc main_arg8) := host_keeps hostOps2 at main_arg8
    _ = W5 m ρ c (Proc.devRef .tc main_arg8) := W6_of_ne m ρ c main_arg8 (by decide)
    _ = W4 m ρ c (Proc.devRef .tc main_arg8) := host_keeps hostOps1 at main_arg8
    _ = W3 m ρ c (Proc.devRef .tc main_arg8) := W4_of_ne m ρ c main_arg8 (by decide)
    _ = W2 m ρ c (Proc.devRef .tc main_arg8) := host_keeps hostOps0_2 at main_arg8
    _ = W1 m ρ c (Proc.devRef .tc main_arg8) := host_keeps hostOps0_1 at main_arg8
    _ = W0 m ρ c (Proc.devRef .tc main_arg8) := host_keeps hostOps0 at main_arg8
    _ = m ((c.tc : Thread nD τ).loc main_arg8) := rfl

theorem W11_arg11 (c : Dev nD) : W11 m ρ c (Proc.devRef .tc main_arg11) = m ((c.tc : Thread nD τ).loc main_arg11) :=
  calc W11 m ρ c (Proc.devRef .tc main_arg11)
    _ = W10 m ρ c (Proc.devRef .tc main_arg11) := host_keeps hostOps3_2 at main_arg11
    _ = W9 m ρ c (Proc.devRef .tc main_arg11) := host_keeps hostOps3_1 at main_arg11
    _ = W8 m ρ c (Proc.devRef .tc main_arg11) := host_keeps hostOps3 at main_arg11
    _ = W7 m ρ c (Proc.devRef .tc main_arg11) := W8_of_ne m ρ c main_arg11 (by decide)
    _ = W6 m ρ c (Proc.devRef .tc main_arg11) := host_keeps hostOps2 at main_arg11
    _ = W5 m ρ c (Proc.devRef .tc main_arg11) := W6_of_ne m ρ c main_arg11 (by decide)
    _ = W4 m ρ c (Proc.devRef .tc main_arg11) := host_keeps hostOps1 at main_arg11
    _ = W3 m ρ c (Proc.devRef .tc main_arg11) := W4_of_ne m ρ c main_arg11 (by decide)
    _ = W2 m ρ c (Proc.devRef .tc main_arg11) := host_keeps hostOps0_2 at main_arg11
    _ = W1 m ρ c (Proc.devRef .tc main_arg11) := host_keeps hostOps0_1 at main_arg11
    _ = W0 m ρ c (Proc.devRef .tc main_arg11) := host_keeps hostOps0 at main_arg11
    _ = m ((c.tc : Thread nD τ).loc main_arg11) := rfl

end Cert.KernelIdeal.Stage

end
-- ==== Proof.HostEdges.lean ====
/-
  The edge lists and the edge weights of the data graph, as the kernel's program computes them before its first
  kernel call, are the reference's: source and destination lists with self loops appended, and the column of
  products of inverse square-root degrees. The same host operations on the same argument give the same arrays;
  no later stretch or region writes them.
-/
import proofs.«420595_j78357383348249_1_alg».proof.Proof.Gen.KernelIdeal.Frame
import proofs.«420595_j78357383348249_1_alg».proof.Proof.RefRead

noncomputable section

namespace Cert.KernelIdeal.Stage

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-! ## After the first stretch: the two edge lists, the positivity mask of the degrees, their inverse square roots -/

theorem W1_v7 (c : Dev nD) : W1 m ρ c (Proc.devRef .tc main_v7) = Cert.ReferenceIdeal.ReadP.val_main_v7 (F := F) (m ((c.tc : Thread nD τ).loc main_arg1)) := by
  show StableHlo.after hostOps0 (W0 m ρ c) (Proc.devRef .tc main_v7) = _
  after_results
  rfl

theorem W1_v8 (c : Dev nD) : W1 m ρ c (Proc.devRef .tc main_v8) = Cert.ReferenceIdeal.ReadP.val_main_v8 (F := F) (m ((c.tc : Thread nD τ).loc main_arg1)) := by
  show StableHlo.after hostOps0 (W0 m ρ c) (Proc.devRef .tc main_v8) = _
  after_results
  rfl

theorem W1_v14 (c : Dev nD) : W1 m ρ c (Proc.devRef .tc main_v14) = Cert.ReferenceIdeal.ReadP.val_main_v14 (F := F) (m ((c.tc : Thread nD τ).loc main_arg1)) := by
  show StableHlo.after hostOps0 (W0 m ρ c) (Proc.devRef .tc main_v14) = _
  after_results
  rfl

theorem W1_v15 (c : Dev nD) : W1 m ρ c (Proc.devRef .tc main_v15) = Cert.ReferenceIdeal.ReadP.val_main_v15 (F := F) (m ((c.tc : Thread nD τ).loc main_arg1)) := by
  show StableHlo.after hostOps0 (W0 m ρ c) (Proc.devRef .tc main_v15) = _
  after_results
  rfl

theorem W1_cst_2 (c : Dev nD) : W1 m ρ c (Proc.devRef .tc main_cst_2) = Cert.ReferenceIdeal.ReadP.val_main_cst_2 (F := F) := by
  show StableHlo.after hostOps0 (W0 m ρ c) (Proc.devRef .tc main_cst_2) = _
  after_results
  rfl

/-! ## After the second stretch: the inverse square-root degrees, zero where the degree is not positive -/

theorem W2_v7 (c : Dev nD) : W2 m ρ c (Proc.devRef .tc main_v7) = Cert.ReferenceIdeal.ReadP.val_main_v7 (F := F) (m ((c.tc : Thread nD τ).loc main_arg1)) := by
  have h7 := W1_v7 m ρ c
  show StableHlo.after hostOps0_1 (W1 m ρ c) (Proc.devRef .tc main_v7) = _
  generalize W1 m ρ c = V at h7 ⊢
  after_results
  exact h7

theorem W2_v8 (c : Dev nD) : W2 m ρ c (Proc.devRef .tc main_v8) = Cert.ReferenceIdeal.ReadP.val_main_v8 (F := F) (m ((c.tc : Thread nD τ).loc main_arg1)) := by
  have h8 := W1_v8 m ρ c
  show StableHlo.after hostOps0_1 (W1 m ρ c) (Proc.devRef .tc main_v8) = _
  generalize W1 m ρ c = V at h8 ⊢
  after_results
  exact h8

theorem W2_v16 (c : Dev nD) : W2 m ρ c (Proc.devRef .tc main_v16) = Cert.ReferenceIdeal.ReadP.val_main_v16 (F := F) (m ((c.tc : Thread nD τ).loc main_arg1)) := by
  have h14 := W1_v14 m ρ c
  have h15 := W1_v15 m ρ c
  have hc := W1_cst_2 m ρ c
  show StableHlo.after hostOps0_1 (W1 m ρ c) (Proc.devRef .tc main_v16) = _
  generalize W1 m ρ c = V at h14 h15 hc ⊢
  after_results
  rw [h14, h15, hc]
  rfl

/-! ## After the third stretch: the edge weight is the product of the two end points' inverse square-root degrees -/

theorem W3_v7 (c : Dev nD) : W3 m ρ c (Proc.devRef .tc main_v7) = Cert.ReferenceIdeal.ReadP.val_main_v7 (F := F) (m ((c.tc : Thread nD τ).loc main_arg1)) := by
  have h7 := W2_v7 m ρ c
  show StableHlo.after hostOps0_2 (W2 m ρ c) (Proc.devRef .tc main_v7) = _
  generalize W2 m ρ c = V at h7 ⊢
  after_results
  exact h7

theorem W3_v8 (c : Dev nD) : W3 m ρ c (Proc.devRef .tc main_v8) = Cert.ReferenceIdeal.ReadP.val_main_v8 (F := F) (m ((c.tc : Thread nD τ).loc main_arg1)) := by
  have h8 := W2_v8 m ρ c
  show StableHlo.after hostOps0_2 (W2 m ρ c) (Proc.devRef .tc main_v8) = _
  generalize W2 m ρ c = V at h8 ⊢
  after_results
  exact h8

theorem W3_v32 (c : Dev nD) : W3 m ρ c (Proc.devRef .tc main_v32) = Cert.ReferenceIdeal.ReadP.val_main_v40 (F := F) (m ((c.tc : Thread nD τ).loc main_arg1)) := by
  have h7 := W2_v7 m ρ c
  have h8 := W2_v8 m ρ c
  have h16 := W2_v16 m ρ c
  show StableHlo.after hostOps0_2 (W2 m ρ c) (Proc.devRef .tc main_v32) = _
  generalize W2 m ρ c = V at h7 h8 h16 ⊢
  after_results_simp
  rw [h7, h8, h16]
  rfl

/-! ## The first kernel call writes none of the three -/

theorem W4_v7 (c : Dev nD) : W4 m ρ c (Proc.devRef .tc main_v7) = Cert.ReferenceIdeal.ReadP.val_main_v7 (F := F) (m ((c.tc : Thread nD τ).loc main_arg1)) :=
  (W4_of_ne m ρ c main_v7 (by decide)).trans (W3_v7 m ρ c)

theorem W4_v8 (c : Dev nD) : W4 m ρ c (Proc.devRef .tc main_v8) = Cert.ReferenceIdeal.ReadP.val_main_v8 (F := F) (m ((c.tc : Thread nD τ).loc main_arg1)) :=
  (W4_of_ne m ρ c main_v8 (by decide)).trans (W3_v8 m ρ c)

theorem W4_v32 (c : Dev nD) : W4 m ρ c (Proc.devRef .tc main_v32) = Cert.ReferenceIdeal.ReadP.val_main_v40 (F := F) (m ((c.tc : Thread nD τ).loc main_arg1)) :=
  (W4_of_ne m ρ c main_v32 (by decide)).trans (W3_v32 m ρ c)

/-! ## Nor does the stretch after it (it reads them), nor the second kernel call -/

theorem W5_v7 (c : Dev nD) : W5 m ρ c (Proc.devRef .tc main_v7) = W4 m ρ c (Proc.devRef .tc main_v7) :=
  StableHlo.after_of_forall_not_mem (b := Proc.devRef .tc main_v7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W5_v8 (c : Dev nD) : W5 m ρ c (Proc.devRef .tc main_v8) = W4 m ρ c (Proc.devRef .tc main_v8) :=
  StableHlo.after_of_forall_not_mem (b := Proc.devRef .tc main_v8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W5_v32 (c : Dev nD) : W5 m ρ c (Proc.devRef .tc main_v32) = W4 m ρ c (Proc.devRef .tc main_v32) :=
  StableHlo.after_of_forall_not_mem (b := Proc.devRef .tc main_v32) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W6_v7 (c : Dev nD) : W6 m ρ c (Proc.devRef .tc main_v7) = Cert.ReferenceIdeal.ReadP.val_main_v7 (F := F) (m ((c.tc : Thread nD τ).loc main_arg1)) :=
  (W6_of_ne m ρ c main_v7 (by decide)).trans ((W5_v7 m ρ c).trans (W4_v7 m ρ c))

theorem W6_v8 (c : Dev nD) : W6 m ρ c (Proc.devRef .tc main_v8) = Cert.ReferenceIdeal.ReadP.val_main_v8 (F := F) (m ((c.tc : Thread nD τ).loc main_arg1)) :=
  (W6_of_ne m ρ c main_v8 (by decide)).trans ((W5_v8 m ρ c).trans (W4_v8 m ρ c))

theorem W6_v32 (c : Dev nD) : W6 m ρ c (Proc.devRef .tc main_v32) = Cert.ReferenceIdeal.ReadP.val_main_v40 (F := F) (m ((c.tc : Thread nD τ).loc main_arg1)) :=
  (W6_of_ne m ρ c main_v32 (by decide)).trans ((W5_v32 m ρ c).trans (W4_v32 m ρ c))

end Cert.KernelIdeal.Stage

end
-- ==== Proof.HostLayers.lean ====
/-
  The two graph-convolution layers' host halves: gather the linear layer's rows along the source list, scale by the
  edge weights, scatter-add along the destination list, add the bias. The kernel's program and the reference apply
  the same operations; given that the linear layer's output is the reference's, so is the layer's output.
-/
import proofs.«420595_j78357383348249_1_alg».proof.Proof.Gen.KernelIdeal.Frame
import proofs.«420595_j78357383348249_1_alg».proof.Proof.RefRead
import proofs.«420595_j78357383348249_1_alg».proof.Proof.ArgsAt
import proofs.«420595_j78357383348249_1_alg».proof.Proof.HostEdges

noncomputable section

namespace Cert.KernelIdeal.Stage

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

theorem W5_v48 (c : Dev nD)
    (h33 : W4 m ρ c (Proc.devRef .tc main_v33) = Cert.ReferenceIdeal.ReadP.val_main_v32 (F := F) (m ((c.tc : Thread nD τ).loc main_arg0)) (m ((c.tc : Thread nD τ).loc main_arg4))) :
    W5 m ρ c (Proc.devRef .tc main_v48) = Cert.ReferenceIdeal.ReadP.val_main_v48 (F := F) (m ((c.tc : Thread nD τ).loc main_arg0)) (m ((c.tc : Thread nD τ).loc main_arg1)) (m ((c.tc : Thread nD τ).loc main_arg4)) (m ((c.tc : Thread nD τ).loc main_arg5)) := by
  show StableHlo.after hostOps1 (W4 m ρ c) (Proc.devRef .tc main_v48) = _
  after_results_simp
  rw [h33, W4_v7, W4_v8, W4_v32, W4_arg5]
  rfl

/-- The reference builds its source list a second time for the second layer: the same concatenation. -/
theorem ref_src_again (x1 : (⟨S2x600000, .i32⟩ : BufTy).Contents (Elt F)) :
    Cert.ReferenceIdeal.ReadP.val_main_v51 (F := F) x1 = Cert.ReferenceIdeal.ReadP.val_main_v7 (F := F) x1 := rfl

/-- Likewise its destination list. -/
theorem ref_dst_again (x1 : (⟨S2x600000, .i32⟩ : BufTy).Contents (Elt F)) :
    Cert.ReferenceIdeal.ReadP.val_main_v52 (F := F) x1 = Cert.ReferenceIdeal.ReadP.val_main_v8 (F := F) x1 := rfl

/-- Likewise its column of edge weights: the same operations on the same lists. -/
theorem ref_weight_again (x1 : (⟨S2x600000, .i32⟩ : BufTy).Contents (Elt F)) :
    Cert.ReferenceIdeal.ReadP.val_main_v84 (F := F) x1 = Cert.ReferenceIdeal.ReadP.val_main_v40 (F := F) x1 := rfl

theorem W7_v64 (c : Dev nD)
    (h49 : W6 m ρ c (Proc.devRef .tc main_v49) = Cert.ReferenceIdeal.ReadP.val_main_v76 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) :
    W7 m ρ c (Proc.devRef .tc main_v64) = Cert.ReferenceIdeal.ReadP.val_main_v92 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  show StableHlo.after hostOps2 (W6 m ρ c) (Proc.devRef .tc main_v64) = _
  after_results_simp
  rw [h49, W6_v7, W6_v8, W6_v32, W6_arg7, ← ref_src_again, ← ref_dst_again, ← ref_weight_again]
  rfl

theorem W7_v65 (c : Dev nD) :
    W7 m ρ c (Proc.devRef .tc main_v65) = shapeCast S50000x1 (m ((c.tc : Thread nD τ).loc main_arg2)) shapeCasts_S50000_S50000x1 := by
  show StableHlo.after hostOps2 (W6 m ρ c) (Proc.devRef .tc main_v65) = _
  after_results
  rw [W6_arg2]
  rfl

end Cert.KernelIdeal.Stage

end
-- ==== Proof.TaskDefs.lean ====
/-
  The dense adjacency matrix of the task graph as the kernel's program builds it: zeros, plus each edge's weight
  added at the pair (destination, source) of its normalized indices. Stated over the reference's own edge lists
  and weights, which the kernel's program computes by the same host operations.
-/
import proofs.«420595_j78357383348249_1_alg».proof.Proof.Gen.KernelIdeal.Frame
import proofs.«420595_j78357383348249_1_alg».proof.Proof.RefRead

noncomputable section

namespace Cert.KernelIdeal.Stage

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- The task graph's dense adjacency matrix as a function of the support labels. -/
def adjK (x3 : (⟨S1024, .i32⟩ : BufTy).Contents (Elt F)) : FVec F S1032x1032 .f32 :=
  Host.scatterAdd scatter_S1032x1032_S3080x2_S3080_n_01_01_1
    (broadcastInDim S1032x1032 ![] bcast_S_S1032x1032 (constant S_ .f32 0x00000000#32))
    (concatenate S3080x2 1
      [⟨S3080x1, broadcastInDim S3080x1 ![0] bcast_S3080_S3080x1_0 (Cert.ReferenceIdeal.ReadP.val_main_v122 (F := F) x3)⟩,
       ⟨S3080x1, broadcastInDim S3080x1 ![0] bcast_S3080_S3080x1_0 (Cert.ReferenceIdeal.ReadP.val_main_v115 (F := F) x3)⟩]
      concatenates_S3080x1_S3080x1_S3080x2_d1)
    (Cert.ReferenceIdeal.ReadP.val_main_v125 (F := F) x3)

end Cert.KernelIdeal.Stage

end
-- ==== Proof.HostTask.lean ====
/-
  The host stretch before the last kernel call: the pooled graph embeddings with the class rows appended, the dense
  adjacency matrix of the task graph, and the two bias vectors laid out as one-row matrices.
-/
import proofs.«420595_j78357383348249_1_alg».proof.Proof.Gen.KernelIdeal.Frame
import proofs.«420595_j78357383348249_1_alg».proof.Proof.RefRead
import proofs.«420595_j78357383348249_1_alg».proof.Proof.ArgsAt
import proofs.«420595_j78357383348249_1_alg».proof.Proof.TaskDefs

noncomputable section

namespace Cert.KernelIdeal.Stage

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- The edge sources as the program lists them (graph nodes, then the support labels, then the self loops) reach the
    last stretch unchanged, and equal the reference's list. -/
private theorem W10_v72 (c : Dev nD) :
    W10 m ρ c (Proc.devRef .tc main_v72) = Cert.ReferenceIdeal.ReadP.val_main_v101 (F := F) (m ((c.tc : Thread nD τ).loc main_arg3)) := by
  dsimp only [W10, W9, hostOps3_1, hostOps3]
  after_results
  rw [W8_arg3]
  rfl

/-- The edge destinations likewise. -/
private theorem W10_v73 (c : Dev nD) :
    W10 m ρ c (Proc.devRef .tc main_v73) = Cert.ReferenceIdeal.ReadP.val_main_v102 (F := F) (m ((c.tc : Thread nD τ).loc main_arg3)) := by
  dsimp only [W10, W9, hostOps3_1, hostOps3]
  after_results
  rw [W8_arg3]
  rfl

/-- The inverse square roots of the degrees (zero where the degree is not positive). -/
private theorem W10_v81 (c : Dev nD) :
    W10 m ρ c (Proc.devRef .tc main_v81) = Cert.ReferenceIdeal.ReadP.val_main_v110 (F := F) (m ((c.tc : Thread nD τ).loc main_arg3)) := by
  dsimp only [W10, W9, hostOps3_1, hostOps3]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [W8_arg3]
  try simp only [StableHlo.TRef.ofBuf, StableHlo.TRef.toBuf, cast_eq]
  rfl

set_option maxHeartbeats 3000000 in
/-- The last stretch, from any contents whose two edge lists and degree factors are the reference's: the matrix it
    scatters is the adjacency matrix. -/
private theorem after3_2_v111 (V : Valuation τ sig (Elt F)) (x3 : (⟨S1024, .i32⟩ : BufTy).Contents (Elt F))
    (h72 : V (Proc.devRef .tc main_v72) = Cert.ReferenceIdeal.ReadP.val_main_v101 (F := F) x3)
    (h73 : V (Proc.devRef .tc main_v73) = Cert.ReferenceIdeal.ReadP.val_main_v102 (F := F) x3)
    (h81 : V (Proc.devRef .tc main_v81) = Cert.ReferenceIdeal.ReadP.val_main_v110 (F := F) x3) :
    StableHlo.after hostOps3_2 V (Proc.devRef .tc main_v111) = adjK (F := F) x3 := by
  dsimp only [hostOps3_2]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h72, h73, h81]
  rfl

theorem W11_v67 (c : Dev nD)
    (h66 : W8 m ρ c (Proc.devRef .tc main_v66) = Cert.ReferenceIdeal.ReadP.val_main_v95 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) :
    W11 m ρ c (Proc.devRef .tc main_v67) = Cert.ReferenceIdeal.ReadP.val_main_v96 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) := by
  dsimp only [W11, W10, W9, hostOps3_2, hostOps3_1, hostOps3]
  after_results
  rw [h66, W8_arg10]
  rfl

theorem W11_v111 (c : Dev nD) :
    W11 m ρ c (Proc.devRef .tc main_v111) = adjK (F := F) (m ((c.tc : Thread nD τ).loc main_arg3)) := by
  exact after3_2_v111 (W10 m ρ c) (m ((c.tc : Thread nD τ).loc main_arg3)) (W10_v72 m ρ c) (W10_v73 m ρ c) (W10_v81 m ρ c)

theorem W11_v112 (c : Dev nD) :
    W11 m ρ c (Proc.devRef .tc main_v112) = shapeCast S1x128 (m ((c.tc : Thread nD τ).loc main_arg9)) shapeCasts_S128_S1x128 := by
  have key : ∀ V : Valuation τ sig (Elt F), StableHlo.after hostOps3_2 V (Proc.devRef .tc main_v112)
      = shapeCast S1x128 (V (Proc.devRef .tc main_arg9)) shapeCasts_S128_S1x128 := by
    intro V
    dsimp only [hostOps3_2]
    after_results
    rfl
  exact (key (W10 m ρ c)).trans (congrArg (fun x => shapeCast S1x128 x shapeCasts_S128_S1x128) (W10_arg9 m ρ c))

theorem W11_v113 (c : Dev nD) :
    W11 m ρ c (Proc.devRef .tc main_v113) = shapeCast S1x8 (m ((c.tc : Thread nD τ).loc main_arg12)) shapeCasts_S8_S1x8 := by
  have key : ∀ V : Valuation τ sig (Elt F), StableHlo.after hostOps3_2 V (Proc.devRef .tc main_v113)
      = shapeCast S1x8 (V (Proc.devRef .tc main_arg12)) shapeCasts_S8_S1x8 := by
    intro V
    dsimp only [hostOps3_2]
    after_results
    rfl
  exact (key (W10 m ρ c)).trans (congrArg (fun x => shapeCast S1x8 x shapeCasts_S8_S1x8) (W10_arg12 m ρ c))

end Cert.KernelIdeal.Stage

end
-- ==== Proof.Linear.lean ====
/-
  The two linear layers. Each kernel call computes, block of 5000 rows by block, the product of the block with the
  128 by 128 weight matrix (the second call after clamping the block below at zero); a change of float format is the
  identity over the extended reals, and a product accumulated onto zero is the host's product. Row r of the result
  lies in block r / 5000, so the array the call leaves is the host's product of the whole array.
-/
import proofs.«420595_j78357383348249_1_alg».proof.Proof.Gen.KernelIdeal.Frame
import proofs.«420595_j78357383348249_1_alg».proof.Proof.RefRead
import proofs.«420595_j78357383348249_1_alg».proof.Proof.ArgsAt
import Idealize.ShloMosaic.Lib.Pipeline.Value
import Idealize.ShloMosaic.Lib.ValueIdx
import Idealize.ShloMosaic.PureOps.Ideal.Laws

noncomputable section

namespace Cert.KernelIdeal.Stage

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

namespace Linear

theorem hz2 : (![0, 0] : Fin 2 → Nat) = fun _ => 0 := funext fun a => by fin_cases a <;> rfl

abbrev D0 := dot_S5000x128_S128x128_S5000x128_1_0_0_1_n_n

theorem lhsB_0 (i : S5000x128.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem lhsB_1 (i : S5000x128.Idx) (q : D0.contr.Idx) : (D0.lhsIdx i q 1).val = (q ⟨0, by decide⟩).val :=
  D0.lhsIdx_val_of_single rfl i q
theorem rhsB_0 (i : S5000x128.Idx) (q : D0.contr.Idx) : (D0.rhsIdx i q 0).val = (q ⟨0, by decide⟩).val :=
  D0.rhsIdx_val_of_single rfl i q
theorem rhsB_1 (i : S5000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- A block times the weight onto zero, read at an index: the sum over the shared axis. -/
theorem blockProd_apply (x0 : FVec Ideal S5000x128 .bf16) (x1 : FVec Ideal S128x128 .bf16) (j : S5000x128.Idx) :
    matmul D0 none x0 x1 (constant S5000x128 .f32 0x00000000#32) j = ∑ k : Fin 128, x0 (ValueIdx.ix2 (j 0) k) * x1 (ValueIdx.ix2 k (j 1)) := by
  refine (Ideal.matmul_constant_zero_apply D0 none x0 x1 j).trans ?_
  rw [← Equiv.sum_comp (ValueIdx.contrEquiv1 D0 128 rfl rfl).symm]
  refine Finset.sum_congr rfl fun k _ => ?_
  have hk := ValueIdx.contrEquiv1_symm_val D0 128 rfl rfl k
  have el : D0.lhsIdx j ((ValueIdx.contrEquiv1 D0 128 rfl rfl).symm k) = ValueIdx.ix2 (j 0) k := funext fun a => Fin.ext (by
    match a with
    | ⟨0, _⟩ => exact lhsB_0 _ _
    | ⟨1, _⟩ => exact (lhsB_1 _ _).trans hk)
  have er : D0.rhsIdx j ((ValueIdx.contrEquiv1 D0 128 rfl rfl).symm k) = ValueIdx.ix2 k (j 1) := funext fun a => Fin.ext (by
    match a with
    | ⟨0, _⟩ => exact (rhsB_0 _ _).trans hk
    | ⟨1, _⟩ => exact rhsB_1 _ _)
  exact congr (congrArg HMul.hMul (congrArg x0 el)) (congrArg x1 er)

theorem pay0_apply (x0 : Vec Ideal S5000x128 .f32) (x1 : Vec Ideal S128x128 .f32) (j : S5000x128.Idx) :
    k0_pay1 (F := Ideal) x0 x1 j = ∑ k : Fin 128, x0 (ValueIdx.ix2 (j 0) k) * x1 (ValueIdx.ix2 k (j 1)) :=
  blockProd_apply _ _ j

/-- The product of a whole array of rows with the weight, index by index. -/
abbrev G0 (a : S50000x128.Idx → EReal) (w : S128x128.Idx → EReal) : S50000x128.Idx → EReal :=
  fun i => ∑ k : Fin 128, a (ValueIdx.ix2 (i 0) k) * w (ValueIdx.ix2 k (i 1))

theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem flushed0_eq (c : Dev nD) (t : Fin cfg0.N) :
    (dat0 (V3 m ρ) c).flushed 2 t = ((cfg0.win 2).blk t).view.read (Elt Ideal) (G0 (V3 m ρ c main_arg0) (V3 m ρ c main_arg4)) := by
  show (cfg0.win 2).cut (grid0.coords t) ((dat0 (V3 m ρ) c).after 2 t) = _
  rw [after0_2]
  unfold out0_2
  rw [View.canon_unit_zero hz2]
  simp only [View.ld_unit_zero (S := S5000x128) hz2, View.ld_unit_zero (S := S128x128) hz2]
  funext j
  show k0_pay1 (iblk0 (V3 m ρ) c 0 t) (iblk0 (V3 m ρ) c 1 t) j = G0 (V3 m ρ c main_arg0) (V3 m ρ c main_arg4) (((cfg0.win 2).blk t).view.emb j)
  refine (pay0_apply _ _ j).trans ?_
  refine Finset.sum_congr rfl fun k _ => ?_
  obtain ⟨e0, e1, e2, e3, e4, e5⟩ := idx_facts0 t
  have h0 : ((cfg0.win 0).blk t).view.emb (ValueIdx.ix2 (j 0) k) = ValueIdx.ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ValueIdx.ix2 k (j 1)) = ValueIdx.ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  refine congr (congrArg HMul.hMul ?_) ?_
  · show V3 m ρ c main_arg0 (((cfg0.win 0).blk t).view.emb (ValueIdx.ix2 (j 0) k)) = _
    exact congrArg (V3 m ρ c main_arg0) h0
  · show V3 m ρ c main_arg4 (((cfg0.win 1).blk t).view.emb (ValueIdx.ix2 k (j 1))) = _
    exact congrArg (V3 m ρ c main_arg4) h1

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Row r lies in the block of point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by show _ < 10; omega
  refine ⟨(⟨(i 0).val / 5000, ht⟩ : Fin cfg0.N), flush0_2 _, (mem_blk0 _ i).mpr ?_⟩
  obtain ⟨e0, e1, e2, e3, e4, e5⟩ := idx_facts0 (⟨(i 0).val / 5000, ht⟩ : Fin cfg0.N)
  have e4' : win0_2.index (⟨(i 0).val / 5000, ht⟩ : Fin cfg0.N) (0 : Fin 2) = (i 0).val / 5000 := e4
  intro a
  match a with
  | ⟨0, _⟩ =>
    show win0_2.index (⟨(i 0).val / 5000, ht⟩ : Fin cfg0.N) (0 : Fin 2) * 5000 ≤ (i 0).val ∧ (i 0).val < win0_2.index (⟨(i 0).val / 5000, ht⟩ : Fin cfg0.N) (0 : Fin 2) * 5000 + 5000
    omega
  | ⟨1, _⟩ =>
    show win0_2.index (⟨(i 0).val / 5000, ht⟩ : Fin cfg0.N) (1 : Fin 2) * 128 ≤ (i 1).val ∧ (i 1).val < win0_2.index (⟨(i 0).val / 5000, ht⟩ : Fin cfg0.N) (1 : Fin 2) * 128 + 128
    omega

/-- The array the first call leaves: the product of the whole input array with the weight. -/
theorem final0 (c : Dev nD) : (dat0 (V3 m ρ) c).arrAt 2 cfg0.N = G0 (V3 m ρ c main_arg0) (V3 m ρ c main_arg4) :=
  (dat0 (V3 m ρ) c).arrAt_eq_of_cover 2 _ (fun t _ => flushed0_eq m ρ c t) cover0

/-- The index-by-index product is the reference's product of the two arrays. -/
theorem G0_eq (x0 : (⟨S50000x128, .f32⟩ : BufTy).Contents (Elt Ideal)) (x4 : (⟨S128x128, .f32⟩ : BufTy).Contents (Elt Ideal)) :
    G0 x0 x4 = Cert.ReferenceIdeal.ReadP.val_main_v32 (F := Ideal) x0 x4 := by
  funext i
  refine ((Cert.ReferenceIdeal.ReadP.val_main_v32_apply x0 x4 i).trans ?_).symm
  refine Finset.sum_congr rfl fun k _ => ?_
  have el : Cert.ReferenceIdeal.ReadP.lidx_main_v32 i k = ValueIdx.ix2 (i 0) k := by
    funext a; match a with | ⟨0, _⟩ => rfl | ⟨1, _⟩ => rfl
  have er : Cert.ReferenceIdeal.ReadP.ridx_main_v32 i k = ValueIdx.ix2 k (i 1) := by
    funext a; match a with | ⟨0, _⟩ => rfl | ⟨1, _⟩ => rfl
  rw [el, er]
  try rfl

/-! ## The second call -/

/-- The second call's payload read at an index: the block clamped below at zero, times the weight. -/
theorem pay1_apply (x0 : Vec Ideal S5000x128 .f32) (x1 : Vec Ideal S128x128 .f32) (j : S5000x128.Idx) :
    k1_pay1 (F := Ideal) x0 x1 j = ∑ k : Fin 128, max (x0 (ValueIdx.ix2 (j 0) k)) 0 * x1 (ValueIdx.ix2 k (j 1)) := by
  unfold k1_pay1
  refine (blockProd_apply _ _ j).trans ?_
  refine Finset.sum_congr rfl fun k _ => ?_
  rw [ValueIdx.truncf_apply, ValueIdx.truncf_apply, ValueIdx.maximumf_apply, ValueIdx.broadcast_apply, shapeCast_self]
  rw [Ideal.ofBits_def, Ideal.ofBits_zero_f32]
  try rfl

/-- The product of a whole array of rows, clamped below at zero, with the weight, index by index. -/
abbrev G1 (a : S50000x128.Idx → EReal) (w : S128x128.Idx → EReal) : S50000x128.Idx → EReal :=
  fun i => ∑ k : Fin 128, max (a (ValueIdx.ix2 (i 0) k)) 0 * w (ValueIdx.ix2 k (i 1))

theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

section AnyEntry
variable (V : (c : Dev nD) → (b : Ref sig .tc) → Buf (Elt Ideal) ((c : Thread nD τ).loc b))

/-- Where a row block's element sits in the input array: the output block's row, the same column. -/
theorem emb1_0 (t : Fin cfg1.N) (j : ((cfg1.win 2).xblock (grid1.coords t)).Idx) (k : Fin 128) :
    ((cfg1.win 0).blk t).view.emb (ValueIdx.ix2 (j 0) k) = ValueIdx.ix2 ((((cfg1.win 2).blk t).view.emb j) 0) k := by
  obtain ⟨e0, e1, e2, e3, e4, e5⟩ := idx_facts1 t
  funext a; apply Fin.ext
  match a with
  | ⟨0, _⟩ => show win1_0.index t (0 : Fin 2) * 5000 + 1 * (j 0).val = win1_2.index t (0 : Fin 2) * 5000 + 1 * (j 0).val; omega
  | ⟨1, _⟩ => show win1_0.index t (1 : Fin 2) * 128 + 1 * k.val = k.val; omega

/-- The weight's one block is the whole weight. -/
theorem emb1_1 (t : Fin cfg1.N) (j : ((cfg1.win 2).xblock (grid1.coords t)).Idx) (k : Fin 128) :
    ((cfg1.win 1).blk t).view.emb (ValueIdx.ix2 k (j 1)) = ValueIdx.ix2 k ((((cfg1.win 2).blk t).view.emb j) 1) := by
  obtain ⟨e0, e1, e2, e3, e4, e5⟩ := idx_facts1 t
  funext a; apply Fin.ext
  match a with
  | ⟨0, _⟩ => show win1_1.index t (0 : Fin 2) * 128 + 1 * k.val = k.val; omega
  | ⟨1, _⟩ => show win1_1.index t (1 : Fin 2) * 128 + 1 * (j 1).val = win1_2.index t (1 : Fin 2) * 128 + 1 * (j 1).val; omega

set_option maxHeartbeats 400000 in
theorem flushed1_eq (c : Dev nD) (t : Fin cfg1.N) :
    (dat1 V c).flushed 2 t = ((cfg1.win 2).blk t).view.read (Elt Ideal) (G1 (V c main_v48) (V c main_arg6)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128x128) hz2]
  funext j
  show k1_pay1 (iblk1 V c 0 t) (iblk1 V c 1 t) j = G1 (V c main_v48) (V c main_arg6) (((cfg1.win 2).blk t).view.emb j)
  refine (pay1_apply _ _ j).trans ?_
  refine Finset.sum_congr rfl fun k _ => ?_
  refine congr (congrArg HMul.hMul (congrArg (fun z : EReal => max z 0) ?_)) ?_
  · show V c main_v48 (((cfg1.win 0).blk t).view.emb (ValueIdx.ix2 (j 0) k)) = _
    exact congrArg (V c main_v48) (emb1_0 t j k)
  · show V c main_arg6 (((cfg1.win 1).blk t).view.emb (ValueIdx.ix2 k (j 1))) = _
    exact congrArg (V c main_arg6) (emb1_1 t j k)

theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 5000 < cfg1.N := by show _ < 10; omega
  refine ⟨(⟨(i 0).val / 5000, ht⟩ : Fin cfg1.N), flush1_2 _, (mem_blk1 _ i).mpr ?_⟩
  obtain ⟨e0, e1, e2, e3, e4, e5⟩ := idx_facts1 (⟨(i 0).val / 5000, ht⟩ : Fin cfg1.N)
  have e4' : win1_2.index (⟨(i 0).val / 5000, ht⟩ : Fin cfg1.N) (0 : Fin 2) = (i 0).val / 5000 := e4
  intro a
  match a with
  | ⟨0, _⟩ =>
    show win1_2.index (⟨(i 0).val / 5000, ht⟩ : Fin cfg1.N) (0 : Fin 2) * 5000 ≤ (i 0).val ∧ (i 0).val < win1_2.index (⟨(i 0).val / 5000, ht⟩ : Fin cfg1.N) (0 : Fin 2) * 5000 + 5000
    omega
  | ⟨1, _⟩ =>
    show win1_2.index (⟨(i 0).val / 5000, ht⟩ : Fin cfg1.N) (1 : Fin 2) * 128 ≤ (i 1).val ∧ (i 1).val < win1_2.index (⟨(i 0).val / 5000, ht⟩ : Fin cfg1.N) (1 : Fin 2) * 128 + 128
    omega

/-- The array the second call leaves. -/
theorem final1 (c : Dev nD) : (dat1 V c).arrAt 2 cfg1.N = G1 (V c main_v48) (V c main_arg6) :=
  (dat1 V c).arrAt_eq_of_cover 2 _ (fun t _ => flushed1_eq V c t) cover1

end AnyEntry

/-- The clamped product is the reference's: its clamp at zero, then its product. -/
theorem G1_eq (x0 : (⟨S50000x128, .f32⟩ : BufTy).Contents (Elt Ideal)) (x1 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    G1 (Cert.ReferenceIdeal.ReadP.val_main_v48 (F := Ideal) x0 x1 x4 x5) x6 = Cert.ReferenceIdeal.ReadP.val_main_v76 (F := Ideal) x0 x1 x4 x5 x6 := by
  funext i
  refine ((Cert.ReferenceIdeal.ReadP.val_main_v76_apply x0 x1 x4 x5 x6 i).trans ?_).symm
  refine Finset.sum_congr rfl fun k _ => ?_
  have el : Cert.ReferenceIdeal.ReadP.lidx_main_v76 i k = ValueIdx.ix2 (i 0) k := by
    funext a; match a with | ⟨0, _⟩ => rfl | ⟨1, _⟩ => rfl
  have er : Cert.ReferenceIdeal.ReadP.ridx_main_v76 i k = ValueIdx.ix2 k (i 1) := by
    funext a; match a with | ⟨0, _⟩ => rfl | ⟨1, _⟩ => rfl
  rw [Cert.ReferenceIdeal.ReadP.val_main_v49_apply, Cert.ReferenceIdeal.ReadP.val_main_call1_v0_apply, Cert.ReferenceIdeal.ReadP.val_main_call1_cst_apply, Ideal.maximumf_def, Ideal.ofBits_def, Ideal.ofBits_zero_f32, el, er]
  try rfl

end Linear

theorem W4_v33 (c : Dev nD) :
    W4 (F := Ideal) m ρ c (Proc.devRef .tc main_v33) = Cert.ReferenceIdeal.ReadP.val_main_v32 (F := Ideal) (m ((c.tc : Thread nD τ).loc main_arg0)) (m ((c.tc : Thread nD τ).loc main_arg4)) := by
  refine (W4_arr m ρ c 2).trans ?_
  refine (Linear.final0 m ρ c).trans ?_
  show Linear.G0 (W3 m ρ c (Proc.devRef .tc main_arg0)) (W3 m ρ c (Proc.devRef .tc main_arg4)) = _
  rw [W3_arg0, W3_arg4]
  exact Linear.G0_eq (m ((c.tc : Thread nD τ).loc main_arg0)) (m ((c.tc : Thread nD τ).loc main_arg4))

theorem W6_v49 (c : Dev nD)
    (h48 : W5 (F := Ideal) m ρ c (Proc.devRef .tc main_v48) = Cert.ReferenceIdeal.ReadP.val_main_v48 (F := Ideal) (m ((c.tc : Thread nD τ).loc main_arg0)) (m ((c.tc : Thread nD τ).loc main_arg1)) (m ((c.tc : Thread nD τ).loc main_arg4)) (m ((c.tc : Thread nD τ).loc main_arg5))) :
    W6 (F := Ideal) m ρ c (Proc.devRef .tc main_v49) = Cert.ReferenceIdeal.ReadP.val_main_v76 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (W6_arr m ρ c 2).trans ?_
  refine (Linear.final1 (V5 m ρ) c).trans ?_
  show Linear.G1 (W5 m ρ c (Proc.devRef .tc main_v48)) (W5 m ρ c (Proc.devRef .tc main_arg6)) = _
  rw [h48, W5_arg6]
  exact Linear.G1_eq (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))

end Cert.KernelIdeal.Stage

end
-- ==== Proof.LibRowsScatter.lean ====
/-
  A scatter-add of rows, read at an index, over the extended reals.

  What a segment sum of a MATRIX of updates `upd : [E, D]` at a column of indices `idx : [E, 1]` into an operand
  `x : [N, D]` lowers to: a `stablehlo.scatter` with an add body whose update window is the updates' second axis
  (update_window_dims `[1]`), whose operand row axis is inserted (inserted_window_dims `[0]`) and is the one axis
  the index vector addresses (scatter_dims_to_operand_dims `[0]`, index_vector_dim `1`): row `e` of the updates is
  added, whole, to row `idx[e, 0]` of the operand. Over the extended reals element `(v, c)` of the result is the
  operand's plus the sum of `upd[e, c]` over the positions `e` whose index `idx[e, 0]`, read as a signed integer
  and NOT clamped, is `v`: an update row whose signed index is no row of the operand is dropped.
-/
import Idealize.ShloMosaic.PureOps.Ideal
import Idealize.ShloMosaic.Lib.ValueIdx

noncomputable section

open scoped BigOperators

namespace Cert.LibRowsScatter

open Idealize.ShloMosaic Idealize.ShloMosaic.ValueIdx

/-! ## The coordinates of the landing index

For an update index `(e, c')`. The operand's row axis is inserted and addressed by the index vector: its window
coordinate is `0` and its window starts at the signed word `idx[e, 0]`. The operand's column axis is the image of the
updates' window axis and no index addresses it: its window starts at `0` and its window coordinate is the update's
column `c'`. Each fact is read off the record once its four lists are the stated literals. -/

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

/-- On the operand's row axis the window starts at the signed index of the update's row. -/
theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the operand's column axis, which no index addresses, the window starts at `0`. -/
theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  unfold ScatterDims.start
  exact dif_neg fun h => Nat.one_ne_zero (congrArg Fin.val (List.mem_singleton.mp h))

/-- The operand's row axis is inserted: its window coordinate is `0`. -/
theorem window_row (e : Fin E) (c' : Fin D) : s.window (ix2 e c') 0 = 0 := by
  obtain ⟨uw, iw, sd, iv, wf⟩ := s
  subst huw hiw hsd hiv
  rfl

/-- The operand's column axis carries the updates' window axis: its window coordinate is the update's column. -/
theorem window_col (e : Fin E) (c' : Fin D) : s.window (ix2 e c') 1 = c'.val := by
  obtain ⟨uw, iw, sd, iv, wf⟩ := s
  subst huw hiw hsd hiv
  rfl

/-! ## Where an update lands -/

/-- WHERE AN UPDATE LANDS: update index `(e, c')` lands on `(v, c)` exactly when the signed index of row `e` is `v`
    and the columns agree. Left to right the landing index exists, so the row start is nonnegative and its `toNat` is
    `v`, while the column coordinate is `c'` itself; right to left both coordinates are in range (`v < N`, `c < D`)
    and the index built from them is `(v, c)`. -/
theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end Coordinates

/-! ## The sum over the landing updates -/

/-- The sum of the updates that land on `(v, c)` is the sum over the update rows `e` of `upd[e, c]` guarded by "the
    signed index of `e` is `v`": the filtered sum is a sum of guarded terms over all update indices, that is the double
    sum over rows and columns; the guard is the landing condition, whose column half keeps the one column `c` of each
    row. -/
theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

/-- THE SCATTER-ADD OF ROWS READ AT `(v, c)`: for any dimension-number record of the row segment-sum form, the
    operand's element plus the sum over the update rows `e` whose signed index is `v` of the update's element
    `(e, c)`. -/
theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowsScatter

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.Pool.lean ====
/-
  The pooling call. Over 25 blocks of 2000 nodes it accumulates, into a 1024 by 128 buffer zeroed at the first block,
  the product of the transposed one-hot matrix of the block's graph ids with the block's rows: entry (g, d) gains the
  sum of h[n, d] over the block's nodes n whose id is g. After the last block the buffer holds, at (g, d), the sum of
  h[n, d] over all nodes n with id g: the reference's scatter-add of the rows of h at the ids into zeros, which drops
  an id that is no row of the result exactly as the one-hot comparison matches no column.
-/
import proofs.«420595_j78357383348249_1_alg».proof.Proof.Gen.KernelIdeal.Frame
import proofs.«420595_j78357383348249_1_alg».proof.Proof.RefRead
import proofs.«420595_j78357383348249_1_alg».proof.Proof.ArgsAt
import proofs.«420595_j78357383348249_1_alg».proof.Proof.HostLayers
import proofs.«420595_j78357383348249_1_alg».proof.Proof.LibRowsScatter
import proofs.«420595_j78357383348249_1_alg».proof.Proof.LibKeepdims
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Stage

open Idealize.ShloMosaic Idealize.ShloMosaic.TcCoe Idealize.SL.Sem Cert.KernelIdeal Cert.KernelIdeal.Gen
open Idealize.ShloMosaic.ValueIdx

/-! ## What one block leaves in the accumulator -/

section Pieces
variable {F : FTy → Type} [FloatOps F]

theorem pool_hz : (![0, 0] : Fin 2 → Nat) = fun _ => 0 := funext fun a => by fin_cases a <;> rfl

/-- A block other than the first: the accumulator, holding `xo`, is overwritten once, by `xo` plus the product of the
    transposed one-hot matrix of the block's ids `x1` with the block's rows `x0`. -/
theorem pool_out_B (c : Dev nD) (i : grid2.Coords) (a1 : Memref sig .tc .vmem S2000x128 .f32) (h1 : a1.IsWhole)
    (a2 : Memref sig .tc .vmem S2000x1 .i32) (h2 : a2.IsWhole) (a3 : Memref sig .tc .vmem S1024x128 .f32) (h3 : a3.IsWhole)
    (hc : ¬cond2_0 i) (x0 : Vec F S2000x128 .f32) (x1 : Vec F S2000x1 .i32) (xo : Vec F S1024x128 .f32) :
    out2_B_2 c i a1 h1 a2 h2 a3 h3 hc x0 x1 xo = k2_pay2 x1 x0 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero pool_hz]
  simp only [View.readAt_eq_ld, h1.read_unread, h2.read_unread, h3.read_unread,
    View.ld_unit_zero (S := S2000x1) pool_hz, View.ld_unit_zero (S := S2000x128) pool_hz,
    View.ld_unit_zero (S := S1024x128) pool_hz]

/-- The first block: the accumulator is first overwritten by zeros, read back, and overwritten by those zeros plus
    the block's product. -/
theorem pool_out_A (c : Dev nD) (i : grid2.Coords) (a1 : Memref sig .tc .vmem S2000x128 .f32) (h1 : a1.IsWhole)
    (a2 : Memref sig .tc .vmem S2000x1 .i32) (h2 : a2.IsWhole) (a3 : Memref sig .tc .vmem S1024x128 .f32) (h3 : a3.IsWhole)
    (hc : cond2_0 i) (x0 : Vec F S2000x128 .f32) (x1 : Vec F S2000x1 .i32) :
    out2_A_2 c i a1 h1 a2 h2 a3 h3 hc x0 x1 = k2_pay2 x1 x0 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S1024x128) pool_hz, View.readCov_unit_zero (S := S1024x128) _ pool_hz]
  simp only [View.readAt_eq_ld, h1.read_unread, h2.read_unread,
    View.ld_unit_zero (S := S2000x1) pool_hz, View.ld_unit_zero (S := S2000x128) pool_hz,
    View.ld_unit_zero (S := S1024x128) pool_hz]
end Pieces

/-! ## The one-hot entry

The 32-bit word of a column number g below 1024 is g as a signed integer, and signed reading is injective: an id word
equals that word exactly when the id, read signed, is g. The comparison's bit, widened and converted, is then the
number 1 or 0. -/

theorem pool_toInt_ofNat (g : Fin 1024) : (BitVec.ofNat 32 g.val).toInt = (g.val : ℤ) := by
  have hg := g.isLt
  unfold BitVec.toInt
  rw [BitVec.toNat_ofNat, Nat.mod_eq_of_lt (by omega)]
  split <;> omega

theorem pool_onehot_word (x : BitVec 32) (g : Fin 1024) :
    ((((IntOp.cmpi .eq x (BitVec.ofNat 32 g.val)).setWidth 32).toInt : ℝ) : EReal)
      = if x.toInt = (g.val : ℤ) then 1 else 0 := by
  by_cases h : x = BitVec.ofNat 32 g.val
  · subst h
    rw [if_pos (pool_toInt_ofNat g)]
    have : IntOp.cmpi .eq (BitVec.ofNat 32 g.val) (BitVec.ofNat 32 g.val) = 1#1 := by
      unfold IntOp.cmpi; simp
    rw [this]
    have : ((1#1 : BitVec 1).setWidth 32).toInt = 1 := by decide
    rw [this]; simp
  · have hne : ¬ x.toInt = (g.val : ℤ) := fun e => h (BitVec.eq_of_toInt_eq (e.trans (pool_toInt_ofNat g).symm))
    rw [if_neg hne]
    have hb : (x == BitVec.ofNat 32 g.val) = false := beq_eq_false_iff_ne.mpr h
    have : IntOp.cmpi .eq x (BitVec.ofNat 32 g.val) = 0#1 := by
      unfold IntOp.cmpi
      show BitVec.ofBool (x == BitVec.ofNat 32 g.val) = 0#1
      rw [hb]; rfl
    rw [this]
    have : ((0#1 : BitVec 1).setWidth 32).toInt = 0 := by decide
    rw [this]; simp

/-! ## The block's product at an entry

The product contracts the node axis of both operands: entry (g, d) is the sum over the block's 2000 nodes n of the
left operand at (n, g) times the right operand at (n, d). -/

theorem pool_lhs_0 (i : S1024x128.Idx) (q : dot_S2000x1024_S2000x128_S1024x128_0_0_1_1_n_n.contr.Idx) :
    (dot_S2000x1024_S2000x128_S1024x128_0_0_1_1_n_n.lhsIdx i q 0).val = (q ⟨0, by decide⟩).val :=
  dot_S2000x1024_S2000x128_S1024x128_0_0_1_1_n_n.lhsIdx_val_of_single rfl i q
theorem pool_lhs_1 (i : S1024x128.Idx) (q : dot_S2000x1024_S2000x128_S1024x128_0_0_1_1_n_n.contr.Idx) :
    (dot_S2000x1024_S2000x128_S1024x128_0_0_1_1_n_n.lhsIdx i q 1).val = (i 0).val := by
  unfold DotDims.lhsIdx
  rw [dif_neg (show ¬(1 : Fin S2000x1024.rank) ∈ dot_S2000x1024_S2000x128_S1024x128_0_0_1_1_n_n.lhsBatch by decide), dif_pos (show (1 : Fin S2000x1024.rank) ∈ dot_S2000x1024_S2000x128_S1024x128_0_0_1_1_n_n.lhsNonContracting by decide)]
  rfl
theorem pool_rhs_0 (i : S1024x128.Idx) (q : dot_S2000x1024_S2000x128_S1024x128_0_0_1_1_n_n.contr.Idx) :
    (dot_S2000x1024_S2000x128_S1024x128_0_0_1_1_n_n.rhsIdx i q 0).val = (q ⟨0, by decide⟩).val :=
  dot_S2000x1024_S2000x128_S1024x128_0_0_1_1_n_n.rhsIdx_val_of_single rfl i q
theorem pool_rhs_1 (i : S1024x128.Idx) (q : dot_S2000x1024_S2000x128_S1024x128_0_0_1_1_n_n.contr.Idx) :
    (dot_S2000x1024_S2000x128_S1024x128_0_0_1_1_n_n.rhsIdx i q 1).val = (i 1).val := by
  unfold DotDims.rhsIdx
  rw [dif_neg (show ¬(1 : Fin S2000x128.rank) ∈ dot_S2000x1024_S2000x128_S1024x128_0_0_1_1_n_n.rhsBatch by decide), dif_pos (show (1 : Fin S2000x128.rank) ∈ dot_S2000x1024_S2000x128_S1024x128_0_0_1_1_n_n.rhsNonContracting by decide)]
  rfl

theorem pool_matmul_apply (L : FVec Ideal S2000x1024 .bf16) (R : FVec Ideal S2000x128 .bf16) (g : Fin 1024) (d : Fin 128) :
    FloatOps.matmul dot_S2000x1024_S2000x128_S1024x128_0_0_1_1_n_n none L R (constant S1024x128 .f32 0x00000000#32) (ix2 g d)
      = ∑ n : Fin 2000, L (ix2 n g) * R (ix2 n d) := by
  rw [Ideal.matmul_constant_zero_apply, ← Equiv.sum_comp (ValueIdx.contrEquiv1 dot_S2000x1024_S2000x128_S1024x128_0_0_1_1_n_n 2000 rfl rfl).symm]
  refine Finset.sum_congr rfl fun k _ => ?_
  have hk := ValueIdx.contrEquiv1_symm_val dot_S2000x1024_S2000x128_S1024x128_0_0_1_1_n_n 2000 rfl rfl k
  have el : dot_S2000x1024_S2000x128_S1024x128_0_0_1_1_n_n.lhsIdx (ix2 g d) ((ValueIdx.contrEquiv1 dot_S2000x1024_S2000x128_S1024x128_0_0_1_1_n_n 2000 rfl rfl).symm k) = ix2 k g := funext fun a => Fin.ext (by
    match a with
    | ⟨0, _⟩ => exact (pool_lhs_0 _ _).trans hk
    | ⟨1, _⟩ => exact pool_lhs_1 _ _)
  have er : dot_S2000x1024_S2000x128_S1024x128_0_0_1_1_n_n.rhsIdx (ix2 g d) ((ValueIdx.contrEquiv1 dot_S2000x1024_S2000x128_S1024x128_0_0_1_1_n_n 2000 rfl rfl).symm k) = ix2 k d := funext fun a => Fin.ext (by
    match a with
    | ⟨0, _⟩ => exact (pool_rhs_0 _ _).trans hk
    | ⟨1, _⟩ => exact pool_rhs_1 _ _)
  rw [el, er]

/-- The left operand at (n, g): the id of node n, spread along the row, against the column number g. -/
theorem pool_onehot_apply (v3 : IVec S2000x1 32) (n : Fin 2000) (g : Fin 1024) :
    (truncf .bf16 (sitofp .f32 (extui 32 (cmpi .eq (broadcastTo S2000x1024 (shapeCast S2000x1 v3 shapeCasts_S2000x1_S2000x1) broadcasts_S2000x1_S2000x1024)
        (iota .tc S2000x1024 32 [1] iota_S2000x1024_d1_w32)) natLt_1_32)) bitsLt_bf16_f32 : FVec Ideal S2000x1024 .bf16) (ix2 n g)
      = if (v3 (ix2 n (0 : Fin 1))).toInt = (g.val : ℤ) then 1 else 0 := by
  show ((((IntOp.cmpi .eq (broadcastTo S2000x1024 (shapeCast S2000x1 v3 shapeCasts_S2000x1_S2000x1) broadcasts_S2000x1_S2000x1024 (ix2 n g))
        (iota .tc S2000x1024 32 [1] iota_S2000x1024_d1_w32 (ix2 n g))).setWidth 32).toInt : ℝ) : EReal) = _
  rw [iota_single_apply, shapeCast_self,
    broadcastTo_apply v3 broadcasts_S2000x1_S2000x1024 (ix2 n g) (ix2 n (0 : Fin 1)) (fun ax => by
      match ax with
      | ⟨0, _⟩ => show n.val = if (2000 : Nat) = 1 then 0 else n.val; rw [if_neg (by decide)]
      | ⟨1, _⟩ => rfl)]
  exact pool_onehot_word _ g

/-- What a block adds: entry (g, d) of the accumulator gains the sum of the block's rows at d over the block's nodes
    whose id is g (a factor 1 keeps the row's entry, a factor 0 gives 0, whatever extended real the entry is). -/
theorem pool_pay2_apply (v3 : IVec S2000x1 32) (v11 : FVec Ideal S2000x128 .f32) (v15 : FVec Ideal S1024x128 .f32)
    (g : Fin 1024) (d : Fin 128) :
    k2_pay2 (F := Ideal) v3 v11 v15 (ix2 g d)
      = v15 (ix2 g d) + ∑ n : Fin 2000, if (v3 (ix2 n (0 : Fin 1))).toInt = (g.val : ℤ) then v11 (ix2 n d) else 0 := by
  unfold k2_pay2
  dsimp only
  refine (addf_apply _ _ _).trans ?_
  refine congrArg₂ (· + ·) (congrFun (shapeCast_self _ _) _) ?_
  refine (pool_matmul_apply _ _ g d).trans ?_
  refine Finset.sum_congr rfl fun n _ => ?_
  refine (congrArg₂ (· * ·) (pool_onehot_apply v3 n g) (congrFun (shapeCast_self v11 shapeCasts_S2000x128_S2000x128) (ix2 n d))).trans ?_
  split
  · exact one_mul _
  · exact zero_mul _

theorem pool_pay1_apply (i : S1024x128.Idx) : k2_pay1 (F := Ideal) i = 0 := by
  show Ideal.ofBits .f32 0x00000000#32 = 0
  exact Ideal.ofBits_zero_f32

/-! ## The accumulator after each block, for any contents the call is entered at -/

section Run
open scoped BigOperators
variable (V : (c : Dev nD) → (b : Ref sig .tc) → Buf (Elt Ideal) ((c : Thread nD τ).loc b))

/-- The rows array h and the column of ids the call reads, and their blocks at a point. -/
abbrev poolRows (c : Dev nD) : FVec Ideal S50000x128 .f32 := V c main_v64
abbrev poolIds (c : Dev nD) : IVec S50000x1 32 := V c main_v65
abbrev poolRowsBlk (c : Dev nD) (t : Fin cfg2.N) : FVec Ideal S2000x128 .f32 := iblk2 V c 0 t
abbrev poolIdsBlk (c : Dev nD) (t : Fin cfg2.N) : IVec S2000x1 32 := iblk2 V c 1 t

theorem pool_idx0 : ∀ t : Fin cfg2.N, win2_0.index t 0 = t.val ∧ win2_0.index t 1 = 0 :=
  (by decide +kernel : ∀ t : Fin grid2.N, win2_0.index t 0 = t.val ∧ win2_0.index t 1 = 0)
theorem pool_idx1 : ∀ t : Fin cfg2.N, win2_1.index t 0 = t.val ∧ win2_1.index t 1 = 0 :=
  (by decide +kernel : ∀ t : Fin grid2.N, win2_1.index t 0 = t.val ∧ win2_1.index t 1 = 0)

set_option maxHeartbeats 400000 in
/-- Row r of block t is row 2000 t + r of the array. -/
theorem pool_blk_rows (c : Dev nD) (t : Fin cfg2.N) (r : Fin 2000) (d : Fin 128) (h : 2000 * t.val + r.val < 50000) :
    poolRowsBlk V c t (ix2 r d) = poolRows V c (ix2 ⟨2000 * t.val + r.val, h⟩ d) := by
  unfold poolRowsBlk iblk2
  rw [View.read_apply]
  show V c main_v64 _ = V c main_v64 _
  congr 1
  funext a
  apply Fin.ext
  match a with
  | ⟨0, _⟩ => show win2_0.index t 0 * 2000 + 1 * r.val = 2000 * t.val + r.val; rw [(pool_idx0 t).1]; omega
  | ⟨1, _⟩ => show win2_0.index t 1 * 128 + 1 * d.val = d.val; rw [(pool_idx0 t).2]; omega

set_option maxHeartbeats 400000 in
theorem pool_blk_ids (c : Dev nD) (t : Fin cfg2.N) (r : Fin 2000) (h : 2000 * t.val + r.val < 50000) :
    poolIdsBlk V c t (ix2 r (0 : Fin 1)) = poolIds V c (ix2 ⟨2000 * t.val + r.val, h⟩ (0 : Fin 1)) := by
  unfold poolIdsBlk iblk2
  rw [View.read_apply]
  show V c main_v65 _ = V c main_v65 _
  congr 1
  funext a
  apply Fin.ext
  match a with
  | ⟨0, _⟩ => show win2_1.index t 0 * 2000 + 1 * r.val = 2000 * t.val + r.val; rw [(pool_idx1 t).1]; omega
  | ⟨1, _⟩ => show win2_1.index t 1 * 1 + 1 * 0 = 0; rw [(pool_idx1 t).2]

/-- Node j's contribution to entry (g, d): row j of h at d when node j's id is g, else nothing. -/
def poolTerm (c : Dev nD) (g : Fin 1024) (d : Fin 128) (j : ℕ) : EReal :=
  if h : j < 50000 then
    (if (poolIds V c (ix2 ⟨j, h⟩ (0 : Fin 1))).toInt = (g.val : ℤ) then poolRows V c (ix2 ⟨j, h⟩ d) else 0)
  else 0

set_option maxHeartbeats 400000 in
/-- What block t adds to entry (g, d) is the contributions of the nodes 2000 t, …, 2000 t + 1999. -/
theorem pool_block_sum (c : Dev nD) (t : Fin cfg2.N) (g : Fin 1024) (d : Fin 128) :
    (∑ n : Fin 2000, if (poolIdsBlk V c t (ix2 n (0 : Fin 1))).toInt = (g.val : ℤ) then poolRowsBlk V c t (ix2 n d) else 0)
      = ∑ x ∈ Finset.range 2000, poolTerm V c g d (2000 * t.val + x) := by
  have hN : t.val < 25 := lt_of_lt_of_eq t.isLt (show cfg2.N = 25 from N_2)
  rw [← Fin.sum_univ_eq_sum_range (fun x => poolTerm V c g d (2000 * t.val + x)) 2000]
  refine Finset.sum_congr rfl fun n _ => ?_
  have h : 2000 * t.val + n.val < 50000 := by have := n.isLt; omega
  unfold poolTerm
  rw [dif_pos h, pool_blk_rows V c t n d h, pool_blk_ids V c t n h]

set_option maxHeartbeats 400000 in
/-- After block n, entry (g, d) of the accumulator is the sum of the contributions of the first 2000 (n + 1) nodes:
    the first block starts from zero, every later block adds its nodes to what the block before left. -/
theorem pool_outsAt (c : Dev nD) : ∀ (n : ℕ) (h : n < cfg2.N) (g : Fin 1024) (d : Fin 128),
    (outsAt2 V c n h : FVec Ideal S1024x128 .f32) (ix2 g d)
      = ∑ j ∈ Finset.range (2000 * (n + 1)), poolTerm V c g d j
  | 0, h, g, d => by
    refine (congrFun (outsAt2_A V c ⟨0, h⟩ rfl) (ix2 g d)).trans ?_
    refine (congrFun (pool_out_A (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) ((hcond2_0 ⟨0, h⟩).mpr rfl) (poolRowsBlk V c ⟨0, h⟩) (poolIdsBlk V c ⟨0, h⟩)) (ix2 g d)).trans ?_
    refine (pool_pay2_apply (poolIdsBlk V c ⟨0, h⟩) (poolRowsBlk V c ⟨0, h⟩) (k2_pay1 (F := Ideal)) g d).trans ?_
    rw [pool_pay1_apply, zero_add, pool_block_sum V c ⟨0, h⟩ g d]
    simp only [Nat.mul_zero, Nat.zero_add, Nat.mul_one]
  | n + 1, h, g, d => by
    have hN : n + 1 < 25 := lt_of_lt_of_eq h (show cfg2.N = 25 from N_2)
    have hB : ¬(⟨n + 1, h⟩ : Fin cfg2.N).val % 25 = 0 := by dsimp only; omega
    refine (congrFun (outsAt2_B V c ⟨n + 1, h⟩ hB) (ix2 g d)).trans ?_
    refine (congrFun (pool_out_B (F := Ideal) c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (fun hh => hB ((hcond2_0 ⟨n + 1, h⟩).mp hh)) (poolRowsBlk V c ⟨n + 1, h⟩) (poolIdsBlk V c ⟨n + 1, h⟩)
      (outsAt2 V c n (Nat.lt_of_succ_lt h))) (ix2 g d)).trans ?_
    refine (pool_pay2_apply (poolIdsBlk V c ⟨n + 1, h⟩) (poolRowsBlk V c ⟨n + 1, h⟩) (outsAt2 V c n (Nat.lt_of_succ_lt h)) g d).trans ?_
    rw [pool_block_sum V c ⟨n + 1, h⟩ g d, pool_outsAt c n (Nat.lt_of_succ_lt h) g d,
      show 2000 * (n + 1 + 1) = 2000 * (n + 1) + 2000 by ring, Finset.sum_range_add]

/-! ## The result array: written once, after the last block, whole -/

theorem pool_idx2 : ∀ t : Fin cfg2.N, win2_2.index t 0 = 0 ∧ win2_2.index t 1 = 0 :=
  (by decide +kernel : ∀ t : Fin grid2.N, win2_2.index t 0 = 0 ∧ win2_2.index t 1 = 0)

abbrev poolLast : Fin cfg2.N := ⟨24, by rw [show cfg2.N = 25 from N_2]; decide⟩

set_option maxHeartbeats 400000 in
theorem pool_flushed (c : Dev nD) (G : Buf (Elt Ideal) ((c : Thread nD τ).loc main_v66))
    (hG : ∀ (g : Fin 1024) (d : Fin 128), (G : FVec Ideal S1024x128 .f32) (ix2 g d) = ∑ j ∈ Finset.range 50000, poolTerm V c g d j)
    (t : Fin cfg2.N) (hf : (cfg2.win 2).flush t = true) :
    (dat2 V c).flushed 2 t = ((cfg2.win 2).blk t).view.read (Elt Ideal) G := by
  have hN : cfg2.N = 25 := N_2
  have h24 : t.val = 24 := by have := (flush2_2 t).mp hf; have := t.isLt; omega
  show (cfg2.win 2).cut (grid2.coords t) ((dat2 V c).after 2 t) = _
  rw [after2_2]
  have e : (outsAt2 V c t.val t.isLt : FVec Ideal S1024x128 .f32) = G := funext fun i => by
    rw [eq_ix2 i]
    refine (pool_outsAt V c t.val t.isLt (i 0) (i 1)).trans ?_
    rw [h24]
    exact (hG (i 0) (i 1)).symm
  rw [e]
  have hz' : (fun a => win2_2.index t a * main_v66.ty.shape.size a) = fun _ => 0 := funext fun a => by
    match a with
    | ⟨0, _⟩ => show win2_2.index t 0 * _ = 0; rw [(pool_idx2 t).1, Nat.zero_mul]
    | ⟨1, _⟩ => show win2_2.index t 1 * _ = 0; rw [(pool_idx2 t).2, Nat.zero_mul]
  exact (Memref.read_access_unit_zero (Elt Ideal) main_v66 hz' (fun a => by rw [congrFun hz' a]; simp) G).symm

set_option maxHeartbeats 400000 in
/-- The array the call leaves is any `G` that is, entry by entry, the sum of all 50000 nodes' contributions. -/
theorem pool_final (c : Dev nD) (G : Buf (Elt Ideal) ((c : Thread nD τ).loc main_v66))
    (hG : ∀ (g : Fin 1024) (d : Fin 128), (G : FVec Ideal S1024x128 .f32) (ix2 g d) = ∑ j ∈ Finset.range 50000, poolTerm V c g d j) :
    (dat2 V c).arrAt 2 cfg2.N = G :=
  (dat2 V c).arrAt_eq_of_cover 2 G (pool_flushed V c G hG) fun i =>
    ⟨poolLast, (flush2_2 poolLast).mpr rfl, by
      show i ∈ ((View.whole main_v66).slice (win2_2.rect poolLast)).set
      rw [View.set_slice_whole, Rect.mem_set_unit]
      intro a
      have h0 : (i 0 : Nat) < 1024 := (i 0).isLt
      have h1 : (i 1 : Nat) < 128 := (i 1).isLt
      match a with
      | ⟨0, _⟩ => show win2_2.index poolLast 0 * win2_2.size 0 ≤ (i 0 : Nat) ∧ (i 0 : Nat) < win2_2.index poolLast 0 * win2_2.size 0 + win2_2.xsize (grid2.coords poolLast) 0
                  rw [show win2_2.index poolLast 0 * win2_2.size 0 = 0 from by decide +kernel, show win2_2.xsize (grid2.coords poolLast) 0 = 1024 from by decide +kernel]; omega
      | ⟨1, _⟩ => show win2_2.index poolLast 1 * win2_2.size 1 ≤ (i 1 : Nat) ∧ (i 1 : Nat) < win2_2.index poolLast 1 * win2_2.size 1 + win2_2.xsize (grid2.coords poolLast) 1
                  rw [show win2_2.index poolLast 1 * win2_2.size 1 = 0 from by decide +kernel, show win2_2.xsize (grid2.coords poolLast) 1 = 128 from by decide +kernel]; omega⟩

set_option maxHeartbeats 400000 in
/-- With the ids column the reshape of a vector `x2` and the rows array `R`: the call leaves any `G` whose entry
    (g, d) is the sum of R[e, d] over the nodes e with x2[e] = g. -/
theorem pool_value (c : Dev nD) (x2 : IVec S50000 32) (R : FVec Ideal S50000x128 .f32)
    (G : FVec Ideal S1024x128 .f32)
    (hids : poolIds V c = shapeCast S50000x1 x2 shapeCasts_S50000_S50000x1)
    (hrows : poolRows V c = R)
    (hG : ∀ (g : Fin 1024) (d : Fin 128), G (ix2 g d)
      = ∑ e : Fin 50000, if (x2 (ix1 e)).toInt = (g.val : ℤ) then R (ix2 e d) else 0) :
    (dat2 V c).arrAt 2 cfg2.N = G := by
  refine pool_final V c G fun g d => ?_
  refine (hG g d).trans ?_
  rw [← Fin.sum_univ_eq_sum_range (fun j => poolTerm V c g d j) 50000]
  refine Finset.sum_congr rfl fun e _ => ?_
  unfold poolTerm
  rw [dif_pos e.isLt, hids, hrows, Cert.Lib.Keepdims.shapeCast_a_a1_apply]

end Run

/-! ## The reference: a scatter-add of the rows at the ids into zeros -/

section Ref

set_option maxHeartbeats 400000 in
/-- Entry (g, d) of the reference's result: the zero operand's entry plus the sum of the rows' entries (e, d) over
    the nodes e whose id, read signed, is g; the ids column at (e, 0) is the ids vector at e. -/
theorem pool_ref_apply (x0 : (⟨Cert.ReferenceIdeal.S50000x128, .f32⟩ : BufTy).Contents (Elt Ideal))
    (x1 : (⟨Cert.ReferenceIdeal.S2x600000, .i32⟩ : BufTy).Contents (Elt Ideal))
    (x2 : (⟨Cert.ReferenceIdeal.S50000, .i32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal)) (g : Fin 1024) (d : Fin 128) :
    Cert.ReferenceIdeal.ReadP.val_main_v95 (F := Ideal) x0 x1 x2 x4 x5 x6 x7 (ix2 g d)
      = ∑ e : Fin 50000, if (x2 (ix1 e)).toInt = (g.val : ℤ)
          then Cert.ReferenceIdeal.ReadP.val_main_v92 (F := Ideal) x0 x1 x4 x5 x6 x7 (ix2 e d) else 0 := by
  unfold Cert.ReferenceIdeal.ReadP.val_main_v95
  refine (Cert.LibRowsScatter.rowsScatterAdd_apply Cert.ReferenceIdeal.scatter_S1024x128_S50000x1_S50000x128_1_0_0_1 rfl rfl rfl rfl
    (Cert.ReferenceIdeal.ReadP.val_main_v93 (F := Ideal)) (Cert.ReferenceIdeal.ReadP.val_main_v94 (F := Ideal) x2)
    (Cert.ReferenceIdeal.ReadP.val_main_v92 (F := Ideal) x0 x1 x4 x5 x6 x7) g d).trans ?_
  rw [Cert.ReferenceIdeal.ReadP.val_main_v93_apply, Cert.ReferenceIdeal.ReadP.val_main_cst_20_apply]
  show Ideal.ofBits .f32 0x00000000#32 + _ = _
  rw [Ideal.ofBits_zero_f32, zero_add]
  refine Finset.sum_congr rfl fun e _ => ?_
  rw [Cert.ReferenceIdeal.ReadP.val_main_v94_apply]
  have hi : Cert.ReferenceIdeal.ReadP.idx_main_v94 (ix2 e (0 : Fin 1)) = ix1 e := funext fun a => by
    match a with
    | ⟨0, _⟩ => rfl
  rw [hi]

end Ref

/-! ## The pooled array -/

variable (m : (ℓ : Loc nD τ sig) → Buf (Elt Ideal) ℓ) (ρ : Dev nD → PrngReg)

theorem W8_v66 (c : Dev nD)
    (h64 : W7 (F := Ideal) m ρ c (Proc.devRef .tc main_v64) = Cert.ReferenceIdeal.ReadP.val_main_v92 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :
    W8 (F := Ideal) m ρ c (Proc.devRef .tc main_v66) = Cert.ReferenceIdeal.ReadP.val_main_v95 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  have hW : W8 (F := Ideal) m ρ c (Proc.devRef .tc main_v66) = (dat2 (V7 (F := Ideal) m ρ) c).arrAt 2 cfg2.N :=
    W8_arr (F := Ideal) m ρ c 2
  have hids : poolIds (V7 (F := Ideal) m ρ) c
      = shapeCast S50000x1 (m ((c.tc : Thread nD τ).loc main_arg2)) shapeCasts_S50000_S50000x1 :=
    W7_v65 (F := Ideal) m ρ c
  have hrows : poolRows (V7 (F := Ideal) m ρ) c
      = Cert.ReferenceIdeal.ReadP.val_main_v92 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) :=
    h64
  refine hW.trans ?_
  exact pool_value (V7 (F := Ideal) m ρ) c (m ((c.tc : Thread nD τ).loc main_arg2)) _ _ hids hrows
    (fun g d => pool_ref_apply _ _ _ _ _ _ _ g d)

end Cert.KernelIdeal.Stage

end
-- ==== Proof.Task3.lean ====
/-
  The last kernel call has one grid point and every window's block is its whole array, so the result array is the
  body's one stored value computed from the six operand arrays as the call finds them.
-/
import proofs.«420595_j78357383348249_1_alg».proof.Proof.Gen.KernelIdeal.Frame
import Idealize.ShloMosaic.Lib.Pipeline.Value

noncomputable section

namespace Cert.KernelIdeal.Stage

open Idealize.ShloMosaic Idealize.ShloMosaic.TcCoe Idealize.SL.Sem Cert.KernelIdeal Cert.KernelIdeal.Gen

variable {F : FTy → Type} [FloatOps F]

/-- The zero offsets of a whole-array rectangle. -/
private theorem task3_hz : (![0, 0] : Fin 2 → Nat) = fun _ => 0 := funext fun a => by fin_cases a <;> rfl

/-- The index maps are constant zero, decided at the grid's one point. -/
private theorem task3_idx : ∀ t : Fin cfg3.N, win3_0.index t = ![0,0] ∧ win3_1.index t = ![0,0] ∧ win3_2.index t = ![0,0]
    ∧ win3_3.index t = ![0,0] ∧ win3_4.index t = ![0,0] ∧ win3_5.index t = ![0,0] ∧ win3_6.index t = ![0,0] :=
  (by decide +kernel : ∀ t : Fin grid3.N, _)

/-- Window 0's one block is its whole array: an element of the block sits at its own index. -/
private theorem task3_emb_0 (t : Fin cfg3.N) (j : ((cfg3.win 0).xblock (cfg3.grid.coords t)).Idx) :
    ((cfg3.win 0).blk t).view.emb j = j := by
  have h := (task3_idx t).1
  funext a; apply Fin.ext
  match a with
  | ⟨0, _⟩ =>
    show win3_0.index t (0 : Fin 2) * 1032 + 1 * (j 0).val = (j 0).val
    rw [h]; show 0 * 1032 + 1 * (j 0).val = (j 0).val; omega
  | ⟨1, _⟩ =>
    show win3_0.index t (1 : Fin 2) * 128 + 1 * (j 1).val = (j 1).val
    rw [h]; show 0 * 128 + 1 * (j 1).val = (j 1).val; omega

/-- Window 1's one block is its whole array: an element of the block sits at its own index. -/
private theorem task3_emb_1 (t : Fin cfg3.N) (j : ((cfg3.win 1).xblock (cfg3.grid.coords t)).Idx) :
    ((cfg3.win 1).blk t).view.emb j = j := by
  have h := (task3_idx t).2.1
  funext a; apply Fin.ext
  match a with
  | ⟨0, _⟩ =>
    show win3_1.index t (0 : Fin 2) * 1032 + 1 * (j 0).val = (j 0).val
    rw [h]; show 0 * 1032 + 1 * (j 0).val = (j 0).val; omega
  | ⟨1, _⟩ =>
    show win3_1.index t (1 : Fin 2) * 1032 + 1 * (j 1).val = (j 1).val
    rw [h]; show 0 * 1032 + 1 * (j 1).val = (j 1).val; omega

/-- Window 2's one block is its whole array: an element of the block sits at its own index. -/
private theorem task3_emb_2 (t : Fin cfg3.N) (j : ((cfg3.win 2).xblock (cfg3.grid.coords t)).Idx) :
    ((cfg3.win 2).blk t).view.emb j = j := by
  have h := (task3_idx t).2.2.1
  funext a; apply Fin.ext
  match a with
  | ⟨0, _⟩ =>
    show win3_2.index t (0 : Fin 2) * 128 + 1 * (j 0).val = (j 0).val
    rw [h]; show 0 * 128 + 1 * (j 0).val = (j 0).val; omega
  | ⟨1, _⟩ =>
    show win3_2.index t (1 : Fin 2) * 128 + 1 * (j 1).val = (j 1).val
    rw [h]; show 0 * 128 + 1 * (j 1).val = (j 1).val; omega

/-- Window 3's one block is its whole array: an element of the block sits at its own index. -/
private theorem task3_emb_3 (t : Fin cfg3.N) (j : ((cfg3.win 3).xblock (cfg3.grid.coords t)).Idx) :
    ((cfg3.win 3).blk t).view.emb j = j := by
  have h := (task3_idx t).2.2.2.1
  funext a; apply Fin.ext
  match a with
  | ⟨0, _⟩ =>
    show win3_3.index t (0 : Fin 2) * 1 + 1 * (j 0).val = (j 0).val
    rw [h]; show 0 * 1 + 1 * (j 0).val = (j 0).val; omega
  | ⟨1, _⟩ =>
    show win3_3.index t (1 : Fin 2) * 128 + 1 * (j 1).val = (j 1).val
    rw [h]; show 0 * 128 + 1 * (j 1).val = (j 1).val; omega

/-- Window 4's one block is its whole array: an element of the block sits at its own index. -/
private theorem task3_emb_4 (t : Fin cfg3.N) (j : ((cfg3.win 4).xblock (cfg3.grid.coords t)).Idx) :
    ((cfg3.win 4).blk t).view.emb j = j := by
  have h := (task3_idx t).2.2.2.2.1
  funext a; apply Fin.ext
  match a with
  | ⟨0, _⟩ =>
    show win3_4.index t (0 : Fin 2) * 128 + 1 * (j 0).val = (j 0).val
    rw [h]; show 0 * 128 + 1 * (j 0).val = (j 0).val; omega
  | ⟨1, _⟩ =>
    show win3_4.index t (1 : Fin 2) * 8 + 1 * (j 1).val = (j 1).val
    rw [h]; show 0 * 8 + 1 * (j 1).val = (j 1).val; omega

/-- Window 5's one block is its whole array: an element of the block sits at its own index. -/
private theorem task3_emb_5 (t : Fin cfg3.N) (j : ((cfg3.win 5).xblock (cfg3.grid.coords t)).Idx) :
    ((cfg3.win 5).blk t).view.emb j = j := by
  have h := (task3_idx t).2.2.2.2.2.1
  funext a; apply Fin.ext
  match a with
  | ⟨0, _⟩ =>
    show win3_5.index t (0 : Fin 2) * 1 + 1 * (j 0).val = (j 0).val
    rw [h]; show 0 * 1 + 1 * (j 0).val = (j 0).val; omega
  | ⟨1, _⟩ =>
    show win3_5.index t (1 : Fin 2) * 8 + 1 * (j 1).val = (j 1).val
    rw [h]; show 0 * 8 + 1 * (j 1).val = (j 1).val; omega

/-- Window 6's one block is its whole array: an element of the block sits at its own index. -/
private theorem task3_emb_6 (t : Fin cfg3.N) (j : ((cfg3.win 6).xblock (cfg3.grid.coords t)).Idx) :
    ((cfg3.win 6).blk t).view.emb j = j := by
  have h := (task3_idx t).2.2.2.2.2.2
  funext a; apply Fin.ext
  match a with
  | ⟨0, _⟩ =>
    show win3_6.index t (0 : Fin 2) * 1024 + 1 * (j 0).val = (j 0).val
    rw [h]; show 0 * 1024 + 1 * (j 0).val = (j 0).val; omega
  | ⟨1, _⟩ =>
    show win3_6.index t (1 : Fin 2) * 8 + 1 * (j 1).val = (j 1).val
    rw [h]; show 0 * 8 + 1 * (j 1).val = (j 1).val; omega

section
variable (V : (c : Dev nD) → (b : Ref sig .tc) → Buf (Elt F) ((c : Thread nD τ).loc b))

/-- So the block read off array 0 is the array. -/
private theorem task3_iblk_0 (c : Dev nD) (t : Fin cfg3.N) : iblk3 V c 0 t = V c (Pipeline.arrRef spec3 0) := by
  funext j
  unfold iblk3
  rw [View.read_apply]
  show V c (Pipeline.arrRef spec3 0) (((cfg3.win 0).blk t).view.emb j) = V c (Pipeline.arrRef spec3 0) j
  rw [task3_emb_0]

/-- So the block read off array 1 is the array. -/
private theorem task3_iblk_1 (c : Dev nD) (t : Fin cfg3.N) : iblk3 V c 1 t = V c (Pipeline.arrRef spec3 1) := by
  funext j
  unfold iblk3
  rw [View.read_apply]
  show V c (Pipeline.arrRef spec3 1) (((cfg3.win 1).blk t).view.emb j) = V c (Pipeline.arrRef spec3 1) j
  rw [task3_emb_1]

/-- So the block read off array 2 is the array. -/
private theorem task3_iblk_2 (c : Dev nD) (t : Fin cfg3.N) : iblk3 V c 2 t = V c (Pipeline.arrRef spec3 2) := by
  funext j
  unfold iblk3
  rw [View.read_apply]
  show V c (Pipeline.arrRef spec3 2) (((cfg3.win 2).blk t).view.emb j) = V c (Pipeline.arrRef spec3 2) j
  rw [task3_emb_2]

/-- So the block read off array 3 is the array. -/
private theorem task3_iblk_3 (c : Dev nD) (t : Fin cfg3.N) : iblk3 V c 3 t = V c (Pipeline.arrRef spec3 3) := by
  funext j
  unfold iblk3
  rw [View.read_apply]
  show V c (Pipeline.arrRef spec3 3) (((cfg3.win 3).blk t).view.emb j) = V c (Pipeline.arrRef spec3 3) j
  rw [task3_emb_3]

/-- So the block read off array 4 is the array. -/
private theorem task3_iblk_4 (c : Dev nD) (t : Fin cfg3.N) : iblk3 V c 4 t = V c (Pipeline.arrRef spec3 4) := by
  funext j
  unfold iblk3
  rw [View.read_apply]
  show V c (Pipeline.arrRef spec3 4) (((cfg3.win 4).blk t).view.emb j) = V c (Pipeline.arrRef spec3 4) j
  rw [task3_emb_4]

/-- So the block read off array 5 is the array. -/
private theorem task3_iblk_5 (c : Dev nD) (t : Fin cfg3.N) : iblk3 V c 5 t = V c (Pipeline.arrRef spec3 5) := by
  funext j
  unfold iblk3
  rw [View.read_apply]
  show V c (Pipeline.arrRef spec3 5) (((cfg3.win 5).blk t).view.emb j) = V c (Pipeline.arrRef spec3 5) j
  rw [task3_emb_5]

end

variable (m : (ℓ : Loc nD τ sig) → Buf (Elt F) ℓ) (ρ : Dev nD → PrngReg)

/-- The result array after the call: the one point writes back its whole block, which is the stored value of the six
    operand arrays read whole, and that block covers every index. -/
theorem W12_v114 (c : Dev nD) :
    W12 m ρ c (Proc.devRef .tc main_v114)
      = k3_pay1 (F := F) (W11 m ρ c (Proc.devRef .tc main_v67)) (W11 m ρ c (Proc.devRef .tc main_arg8))
          (W11 m ρ c (Proc.devRef .tc main_v111)) (W11 m ρ c (Proc.devRef .tc main_v112))
          (W11 m ρ c (Proc.devRef .tc main_arg11)) (W11 m ρ c (Proc.devRef .tc main_v113)) := by
  refine (W12_arr m ρ c 6).trans ?_
  refine (dat3 (V11 m ρ) c).arrAt_eq_of_cover 6 _ (fun t _ => ?_) (fun i => ?_)
  · show (cfg3.win 6).cut (grid3.coords t) ((dat3 (V11 m ρ) c).after 6 t) = _
    rw [after3_6]
    unfold out3_6
    rw [View.canon_unit_zero task3_hz]
    simp only [View.ld_unit_zero (S := S1032x128) task3_hz, View.ld_unit_zero (S := S1032x1032) task3_hz,
      View.ld_unit_zero (S := S128x128) task3_hz, View.ld_unit_zero (S := S1x128) task3_hz,
      View.ld_unit_zero (S := S128x8) task3_hz, View.ld_unit_zero (S := S1x8) task3_hz]
    rw [task3_iblk_0, task3_iblk_1, task3_iblk_2, task3_iblk_3, task3_iblk_4, task3_iblk_5]
    funext j
    rw [View.read_apply]
    show k3_pay1 (F := F) (W11 m ρ c (Proc.devRef .tc main_v67)) (W11 m ρ c (Proc.devRef .tc main_arg8))
          (W11 m ρ c (Proc.devRef .tc main_v111)) (W11 m ρ c (Proc.devRef .tc main_v112))
          (W11 m ρ c (Proc.devRef .tc main_arg11)) (W11 m ρ c (Proc.devRef .tc main_v113)) ((win3 6).xinj (grid3.coords t) j)
      = k3_pay1 (F := F) (W11 m ρ c (Proc.devRef .tc main_v67)) (W11 m ρ c (Proc.devRef .tc main_arg8))
          (W11 m ρ c (Proc.devRef .tc main_v111)) (W11 m ρ c (Proc.devRef .tc main_v112))
          (W11 m ρ c (Proc.devRef .tc main_arg11)) (W11 m ρ c (Proc.devRef .tc main_v113)) (((cfg3.win 6).blk t).view.emb j)
    rw [task3_emb_6]
  · refine ⟨t3_0, flush3_6 _, ?_⟩
    have h := ((cfg3.win 6).blk t3_0).view.emb_mem_set i
    rw [task3_emb_6] at h
    exact h

end Cert.KernelIdeal.Stage

end
-- ==== Proof.LibPairScatter.lean ====
/-
  A scatter-add of scalars at pairs of indices, read at an index, over the extended reals.

  What accumulating a VECTOR of updates upd : [E] into a matrix x : [N, M] at positions given by a two-column
  table of indices idx : [E, 2] lowers to: a stablehlo.scatter with an add body that has no update window axis
  (update_window_dims []), whose two operand axes are both inserted (inserted_window_dims [0, 1]) and both
  addressed by the index vector (scatter_dims_to_operand_dims [0, 1], index_vector_dim 1): update e is added to
  the element (idx[e, 0], idx[e, 1]) of the operand. Over the extended reals element (v, c) of the result is the
  operand's plus the sum of upd[e] over the positions e whose two indices, read as signed integers and NOT
  clamped, are v and c: an update one of whose signed indices is no coordinate of the operand is dropped.
-/
import Idealize.ShloMosaic.PureOps.Ideal
import Idealize.ShloMosaic.Lib.ValueIdx
import Idealize.ShloMosaic.Lib.ValueIdxRank1

noncomputable section

open scoped BigOperators

namespace Cert.LibPairScatter

open Idealize.ShloMosaic Idealize.ShloMosaic.ValueIdx

/-! ## The coordinates of the landing index

For an update index (e). Both operand axes are inserted, so both window coordinates are 0; both are addressed by
the index vector, axis 0 by its component 0 and axis 1 by its component 1, so the windows start at the signed words
idx[e, 0] and idx[e, 1]. Each fact is read off the record once its four lists are the stated literals. -/

section Coordinates

variable {N M E w : Nat}
  (s : ScatterDims (⟨2, ![N, M]⟩ : Shape) (⟨2, ![E, 2]⟩ : Shape) (⟨1, ![E]⟩ : Shape))
  (huw : s.updateWindowDims = []) (hiw : s.insertedWindowDims = [0, 1])
  (hsd : s.scatterDimsToOperandDims = [0, 1]) (hiv : s.indexVectorDim = 1)

include huw hiw hsd hiv

/-- On the operand's first axis the window starts at the signed first index of the update. -/
theorem start_fst (idx : IVec (⟨2, ![E, 2]⟩ : Shape) w) (e : Fin E) :
    s.start (ix1 e) idx 0 = (idx (ix2 e (0 : Fin 2))).toInt := by
  obtain ⟨uw, iw, sd, iv, wf⟩ := s
  subst huw hiw hsd hiv
  unfold ScatterDims.start
  rw [dif_pos (show (0 : Fin 2) ∈ ([0, 1] : List (Fin 2)) by decide)]
  refine congrArg (fun i => (idx i).toInt) ?_
  funext b
  refine Fin.ext ?_
  match b with
  | ⟨0, _⟩ => rfl
  | ⟨1, _⟩ => rfl

/-- On the operand's second axis the window starts at the signed second index of the update. -/
theorem start_snd (idx : IVec (⟨2, ![E, 2]⟩ : Shape) w) (e : Fin E) :
    s.start (ix1 e) idx 1 = (idx (ix2 e (1 : Fin 2))).toInt := by
  obtain ⟨uw, iw, sd, iv, wf⟩ := s
  subst huw hiw hsd hiv
  unfold ScatterDims.start
  rw [dif_pos (show (1 : Fin 2) ∈ ([0, 1] : List (Fin 2)) by decide)]
  refine congrArg (fun i => (idx i).toInt) ?_
  funext b
  refine Fin.ext ?_
  match b with
  | ⟨0, _⟩ => rfl
  | ⟨1, _⟩ => rfl

/-- Both operand axes are inserted: every window coordinate is 0. -/
theorem window_zero (e : Fin E) (a : Fin 2) : s.window (ix1 e) a = 0 := by
  obtain ⟨uw, iw, sd, iv, wf⟩ := s
  subst huw hiw hsd hiv
  match a with
  | ⟨0, _⟩ => rfl
  | ⟨1, _⟩ => rfl

/-! ## Where an update lands -/

/-- WHERE AN UPDATE LANDS: update e lands on (v, c) exactly when its two signed indices are v and c. Left to right
    the landing index exists, so both starts are nonnegative and their toNat are v and c; right to left both
    coordinates are in range (v < N, c < M) and the index built from them is (v, c). -/
theorem resultIdx?_eq_some_iff (idx : IVec (⟨2, ![E, 2]⟩ : Shape) w) (e : Fin E) (v : Fin N) (c : Fin M) :
    s.resultIdx? (ix1 e) idx = some (ix2 v c)
      ↔ (idx (ix2 e (0 : Fin 2))).toInt = (v.val : ℤ) ∧ (idx (ix2 e (1 : Fin 2))).toInt = (c.val : ℤ) := by
  have h0 := start_fst s huw hiw hsd hiv idx e
  have h1 := start_snd s huw hiw hsd hiv idx e
  have w0 := window_zero s huw hiw hsd hiv e 0
  have w1 := window_zero s huw hiw hsd hiv e 1
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      have r1 := (hr 1).1
      simp only [h0, h1, w0, w1] at e0 e1 r0 r1
      change _ = v.val at e0
      change _ = c.val at e1
      exact ⟨by omega, by omega⟩
    · exact absurd h (by simp)
  · rintro ⟨hv, hc⟩
    have hr : ∀ a, 0 ≤ s.start (ix1 e) idx a + s.window (ix1 e) a ∧
        s.start (ix1 e) idx a + s.window (ix1 e) a < (⟨2, ![N, M]⟩ : Shape).size a := by
      intro a
      match a with
      | ⟨0, _⟩ =>
        show 0 ≤ s.start (ix1 e) idx 0 + s.window (ix1 e) 0 ∧
          s.start (ix1 e) idx 0 + s.window (ix1 e) 0 < (N : ℤ)
        rw [h0, w0, hv]; have := v.isLt; omega
      | ⟨1, _⟩ =>
        show 0 ≤ s.start (ix1 e) idx 1 + s.window (ix1 e) 1 ∧
          s.start (ix1 e) idx 1 + s.window (ix1 e) 1 < (M : ℤ)
        rw [h1, w1, hc]; have := c.isLt; omega
    rw [dif_pos hr]
    refine congrArg some ?_
    funext a
    refine Fin.ext ?_
    match a with
    | ⟨0, _⟩ =>
      show (s.start (ix1 e) idx 0 + s.window (ix1 e) 0).toNat = v.val
      rw [h0, w0, hv]; omega
    | ⟨1, _⟩ =>
      show (s.start (ix1 e) idx 1 + s.window (ix1 e) 1).toNat = c.val
      rw [h1, w1, hc]; omega

end Coordinates

/-! ## The sum over the landing updates -/

/-- The sum of the updates that land on (v, c) is the sum over all positions e of upd[e] guarded by "the two signed
    indices of e are v and c": the filtered sum is a sum of guarded terms over all update indices, which are the
    positions themselves; the guard is the landing condition. -/
theorem sum_landing {N M E w : Nat}
    (s : ScatterDims (⟨2, ![N, M]⟩ : Shape) (⟨2, ![E, 2]⟩ : Shape) (⟨1, ![E]⟩ : Shape))
    (huw : s.updateWindowDims = []) (hiw : s.insertedWindowDims = [0, 1])
    (hsd : s.scatterDimsToOperandDims = [0, 1]) (hiv : s.indexVectorDim = 1)
    (idx : IVec (⟨2, ![E, 2]⟩ : Shape) w) (upd : (⟨1, ![E]⟩ : Shape).Idx → EReal) (v : Fin N) (c : Fin M) :
    (∑ j ∈ Finset.univ.filter (fun j => s.resultIdx? j idx = some (ix2 v c)), upd j)
      = ∑ e : Fin E, if (idx (ix2 e (0 : Fin 2))).toInt = (v.val : ℤ) ∧ (idx (ix2 e (1 : Fin 2))).toInt = (c.val : ℤ)
          then upd (ix1 e) else 0 := by
  rw [Finset.sum_filter, ← Equiv.sum_comp (idxEquiv1 (n := E)).symm]
  refine Finset.sum_congr rfl fun e _ => ?_
  exact if_congr (resultIdx?_eq_some_iff s huw hiw hsd hiv idx e v c) rfl rfl

/-- THE SCATTER-ADD OF SCALARS AT INDEX PAIRS READ AT (v, c): for any dimension-number record of this form, the
    operand's element plus the sum over the positions e whose two signed indices are v and c of the update upd[e]. -/
theorem pairScatterAdd_apply {φ : FTy} {N M E w : Nat}
    (s : ScatterDims (⟨2, ![N, M]⟩ : Shape) (⟨2, ![E, 2]⟩ : Shape) (⟨1, ![E]⟩ : Shape))
    (huw : s.updateWindowDims = []) (hiw : s.insertedWindowDims = [0, 1])
    (hsd : s.scatterDimsToOperandDims = [0, 1]) (hiv : s.indexVectorDim = 1)
    (x : FVec Ideal (⟨2, ![N, M]⟩ : Shape) φ) (idx : IVec (⟨2, ![E, 2]⟩ : Shape) w)
    (upd : FVec Ideal (⟨1, ![E]⟩ : Shape) φ) (v : Fin N) (c : Fin M) :
    Host.scatterAdd s x idx upd (ix2 v c)
      = x (ix2 v c) + ∑ e : Fin E,
          if (idx (ix2 e (0 : Fin 2))).toInt = (v.val : ℤ) ∧ (idx (ix2 e (1 : Fin 2))).toInt = (c.val : ℤ)
            then upd (ix1 e) else 0 := by
  exact congrArg (x (ix2 v c) + ·) (sum_landing s huw hiw hsd hiv idx upd v c)

end Cert.LibPairScatter

end
-- ==== Proof.LibGatherRows.lean ====
/-
  A gather of rows, read at an index.

  What `h[idx]` of a matrix `h : [N, D]` at a column of row numbers `idx : [E, 1]` lowers to: a `stablehlo.gather`
  whose one offset axis is the result's second (offset_dims `[1]`), whose operand row axis is collapsed and is the one
  axis a start index addresses (collapsed_slice_dims `[0]`, start_index_map `[0]`, index_vector_dim `1`), with slices of
  one whole row (slice_sizes `[1, D]`). Result element `(e, q)` is the operand at row `idx[e, 0]`, read as a signed
  integer and clamped into `[0, N − 1]`, and column `q`.
-/
import Idealize.ShloMosaic.PureOps.Ideal
import Idealize.ShloMosaic.Lib.ValueIdx

noncomputable section

namespace Cert.LibGatherRows

open Idealize.ShloMosaic Idealize.ShloMosaic.ValueIdx

/-- The row a start index names: the signed word clamped into `[0, N − 1]`. -/
def clampRow {w : Nat} (N : Nat) (hN : 0 < N) (b : BitVec w) : Fin N := ⟨min b.toInt.toNat (N - 1), by omega⟩

/-! ## The coordinates of the operand index

For a result index `(e, q)`. The operand's row axis is collapsed and is the one axis the start index addresses: its
slice has size one, so its start is the signed word `idx[e, 0]` clamped into `[0, N − 1]`, and it carries no offset
coordinate. The operand's column axis is the one kept axis and no start index addresses it: its start is `0` and its
offset coordinate is the result's coordinate on the one offset axis, the column `q`. No axis is a batching axis. Each
fact is read off the record once its lists are the stated literals. -/

section Coordinates

variable {N E D w : Nat}
  (d : GatherDims (⟨2, ![N, D]⟩ : Shape) (⟨2, ![E, 1]⟩ : Shape) (⟨2, ![E, D]⟩ : Shape))
  (hoff : d.offsetDims = [1]) (hcoll : d.collapsedSliceDims = [0]) (hob : d.operandBatchingDims = [])
  (hsim : d.startIndexMap = [0]) (hivd : d.indexVectorDim = 1)

include hoff hcoll hob hsim hivd

/-- The start-indices index result index `(e, q)` reads: the batch coordinate `e` on axis 0 (the result's one batch
    axis is its first) and the one component, `0`, on the index vector's axis. -/
theorem siIdx_row (e : Fin E) (q : Fin D) (c : Fin d.startIndexMap.length) :
    d.siIdx (ix2 e q) c = ix2 e (0 : Fin 1) := by
  obtain ⟨od, cd, ob, sb, sm, iv, ss, wf⟩ := d
  subst hoff hcoll hob hsim hivd
  funext b
  refine Fin.ext ?_
  match b with
  | ⟨0, _⟩ => rfl
  | ⟨1, _⟩ =>
    have hc : c.val < 1 := c.isLt
    show c.val = 0
    omega

/-- On the operand's row axis the slice starts at the signed start index clamped into `[0, N − 1]`. -/
theorem start_row (idx : IVec (⟨2, ![E, 1]⟩ : Shape) w) (e : Fin E) (q : Fin D) :
    d.start (ix2 e q) idx 0 = min (idx (ix2 e (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_row d hoff hcoll hob hsim hivd e q, hsl]
  rfl

/-- On the operand's column axis, which no start index addresses, the slice starts at `0`. -/
theorem start_col (idx : IVec (⟨2, ![E, 1]⟩ : Shape) w) (e : Fin E) (q : Fin D) :
    d.start (ix2 e q) idx 1 = 0 := by
  unfold GatherDims.start
  exact dif_neg fun h => Nat.one_ne_zero (congrArg Fin.val (List.mem_singleton.mp (hsim ▸ h)))

/-- No operand axis is a batching axis: the batching coordinate is `0`. -/
theorem batchCoord_zero (e : Fin E) (q : Fin D) (a : Fin 2) : d.batchCoord (ix2 e q) a = 0 :=
  d.batchCoord_eq_zero _ a (by rw [hob]; exact List.not_mem_nil)

/-- The operand's row axis is collapsed: its offset coordinate is `0`. -/
theorem offCoord_row (e : Fin E) (q : Fin D) : d.offCoord (ix2 e q) 0 = 0 :=
  d.offCoord_eq_zero _ 0 fun h => ((d.mem_sKept 0).mp h).1 (by rw [hcoll]; exact List.mem_singleton.mpr rfl)

/-- The operand's column axis is its one kept axis, read by the result's one offset axis: its offset coordinate is
    the result's column. -/
theorem offCoord_col (e : Fin E) (q : Fin D) : d.offCoord (ix2 e q) 1 = q.val := by
  obtain ⟨od, cd, ob, sb, sm, iv, ss, wf⟩ := d
  subst hoff hcoll hob hsim hivd
  rfl

end Coordinates

/-- THE GATHER OF ROWS READ AT `(e, q)`: the operand at the clamped row `idx[e, 0]` names and at column `q`. -/
theorem gatherRows_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q) = x (ix2 (clampRow N hN (idx (ix2 e (0 : Fin 1)))) q) := by
  unfold Host.gather
  refine congrArg x ?_
  funext a
  refine Fin.ext ?_
  match a with
  | ⟨0, _⟩ =>
    show d.start (ix2 e q) idx 0 + d.batchCoord (ix2 e q) 0 + d.offCoord (ix2 e q) 0
      = min (idx (ix2 e (0 : Fin 1))).toInt.toNat (N - 1)
    rw [start_row d hoff hcoll hob hsim hivd idx e q, batchCoord_zero d hoff hcoll hob hsim hivd e q 0,
      offCoord_row d hoff hcoll hob hsim hivd e q]
    rfl
  | ⟨1, _⟩ =>
    show d.start (ix2 e q) idx 1 + d.batchCoord (ix2 e q) 1 + d.offCoord (ix2 e q) 1 = q.val
    rw [start_col d hoff hcoll hob hsim hivd idx e q, batchCoord_zero d hoff hcoll hob hsim hivd e q 1,
      offCoord_col d hoff hcoll hob hsim hivd e q]
    omega

end Cert.LibGatherRows

end
-- ==== Proof.TaskAdj.lean ====
/-
  The task graph's aggregation. The kernel multiplies the dense adjacency matrix, built by adding each edge's weight at
  the pair (destination, source), with the hidden matrix H; the reference gathers the rows of H along the source list,
  scales row e by the weight of edge e and scatter-adds along the destination list. With every label in range both
  index lists name rows of H, the negative-index wrap and the clamp are the identity, and entry (i, q) of either side
  is the sum over the edges e with destination i of weight(e) * H[source(e), q]: the weights are products of inverse
  square roots or zero, hence nonnegative, which is what lets a sum of weights distribute over the product with H[j, q]
  on the extended reals.
-/
import proofs.«420595_j78357383348249_1_alg».proof.Proof.Gen.KernelIdeal.Frame
import proofs.«420595_j78357383348249_1_alg».proof.Proof.RefRead
import proofs.«420595_j78357383348249_1_alg».proof.Proof.TaskDefs
import proofs.«420595_j78357383348249_1_alg».proof.Proof.LibPairScatter
import proofs.«420595_j78357383348249_1_alg».proof.Proof.LibRowsScatter
import proofs.«420595_j78357383348249_1_alg».proof.Proof.LibGatherRows
import Idealize.ShloMosaic.Lib.Pipeline.Value
import Idealize.ShloMosaic.Lib.ValueIdx
import Idealize.ShloMosaic.Lib.DynamicIndex
import Idealize.ShloMosaic.PureOps.Ideal.Laws
import Mathlib.Data.EReal.Operations
import Mathlib.Algebra.BigOperators.Fin
import Mathlib.Algebra.BigOperators.Ring.Finset
import Mathlib.Algebra.Order.BigOperators.Group.Finset

noncomputable section

namespace Cert.KernelIdeal.Stage

open Idealize.ShloMosaic Idealize.ShloMosaic.TcCoe Idealize.SL.Sem Cert.KernelIdeal Cert.KernelIdeal.Gen

open Idealize.ShloMosaic.ValueIdx

open scoped BigOperators

open Cert.ReferenceIdeal.ReadP

namespace TaskAdj

/-! ## Sums over the extended reals -/

/-- A finite sum of nonnegative extended reals times a factor is the sum of the products. -/
theorem sum_mul_of_nonneg {ι : Type} (t : Finset ι) (f : ι → EReal) (hf : ∀ e, 0 ≤ f e) (c : EReal) :
    (∑ e ∈ t, f e) * c = ∑ e ∈ t, f e * c := by
  classical
  induction t using Finset.induction_on with
  | empty => simp
  | insert a t ha ih =>
    rw [Finset.sum_insert ha, Finset.sum_insert ha,
      EReal.right_distrib_of_nonneg (hf a) (Finset.sum_nonneg fun e _ => hf e), ih]

/-- The dense product against one column h of the hidden matrix: summing over the source row j the accumulated
    weight at (i, j) times h j is summing, over the edges with destination i, the weight times h at the edge's
    source. The weights are nonnegative, so each accumulated sum distributes over its factor; then the two sums
    are exchanged and, for one edge, only the row that is its source contributes. -/
theorem adj_sum {E N : Nat} (dI sI : Fin E → ℤ) (sF : Fin E → Fin N) (hs : ∀ e, ((sF e).val : ℤ) = sI e)
    (w : Fin E → EReal) (hw : ∀ e, 0 ≤ w e) (h : Fin N → EReal) (i : ℤ) :
    (∑ j : Fin N, (0 + ∑ e : Fin E, if dI e = i ∧ sI e = (j.val : ℤ) then w e else 0) * h j)
      = 0 + ∑ e : Fin E, if dI e = i then h (sF e) * w e else 0 := by
  simp only [zero_add]
  have h1 : ∀ j : Fin N, (∑ e : Fin E, if dI e = i ∧ sI e = (j.val : ℤ) then w e else 0) * h j
      = ∑ e : Fin E, (if dI e = i ∧ sI e = (j.val : ℤ) then w e else 0) * h j := fun j =>
    sum_mul_of_nonneg _ _ (fun e => by split_ifs <;> [exact hw e; exact le_rfl]) _
  rw [Finset.sum_congr rfl fun j _ => h1 j, Finset.sum_comm]
  refine Finset.sum_congr rfl fun e _ => ?_
  by_cases hd : dI e = i
  · rw [if_pos hd, Finset.sum_eq_single (sF e)]
    · rw [if_pos ⟨hd, (hs e).symm⟩]
      exact EReal.mul_comm _ _
    · intro j _ hj
      rw [if_neg, zero_mul]
      rintro ⟨_, hsj⟩
      exact hj (Fin.ext (by have := hs e; omega))
    · intro hn; exact absurd (Finset.mem_univ _) hn
  · rw [if_neg hd]
    refine Finset.sum_eq_zero fun j _ => ?_
    rw [if_neg (fun hh => hd hh.1), zero_mul]

/-! ## Layout operations read at an index -/

/-- A property every entry of two vectors has, every entry of the two laid end to end has. -/
theorem concat1_forall {α : Type} {n₁ n₂ n : Nat} (x₁ : (⟨1, ![n₁]⟩ : Shape).Idx → α) (x₂ : (⟨1, ![n₂]⟩ : Shape).Idx → α)
    (h : Shape.Concatenates [(⟨1, ![n₁]⟩ : Shape), (⟨1, ![n₂]⟩ : Shape)] (⟨1, ![n]⟩ : Shape) 0) (hn : n = n₁ + n₂)
    (P : α → Prop) (h₁ : ∀ i, P (x₁ i)) (h₂ : ∀ i, P (x₂ i)) (j : (⟨1, ![n]⟩ : Shape).Idx) :
    P (concatenate (⟨1, ![n]⟩ : Shape) 0 [⟨(⟨1, ![n₁]⟩ : Shape), x₁⟩, ⟨(⟨1, ![n₂]⟩ : Shape), x₂⟩] h j) := by
  have hj : (j 0).val < n := (j 0).isLt
  by_cases hlt : (j 0).val < n₁
  · rw [concatenate_pair_apply_left 0 x₁ x₂ h j rfl (ix1 ⟨(j 0).val, hlt⟩) (fun b => by
      match b with
      | ⟨0, _⟩ => rfl)]
    exact h₁ _
  · rw [concatenate_pair_apply_right 0 x₁ x₂ h j rfl rfl (ix1 ⟨(j 0).val - n₁, by omega⟩)
      (fun b hb => by
        match b with
        | ⟨0, _⟩ => exact absurd rfl hb)
      (by show (j 0).val - n₁ + n₁ = (j 0).val; omega)]
    exact h₂ _

/-- A vector broadcast to a one-column matrix reads, at row e, the vector's entry e. -/
theorem bcast_col_apply {α : Type} {E : Nat} (hE : E ≠ 1)
    (h : (⟨1, ![E]⟩ : Shape).BroadcastsInDim (⟨2, ![E, 1]⟩ : Shape) ![0]) (x : (⟨1, ![E]⟩ : Shape).Idx → α)
    (e : Fin E) (c : Fin 1) :
    broadcastInDim (⟨2, ![E, 1]⟩ : Shape) ![0] h x (ix2 e c) = x (ix1 e) :=
  broadcastInDim_apply _ h x (ix2 e c) (ix1 e) (fun a => match a with
    | ⟨0, _⟩ => by show e.val = if E = 1 then 0 else e.val; rw [if_neg hE])

/-- A one-column matrix broadcast along its unit axis reads, at (e, q), the column's entry e. -/
theorem bcast_row_apply {α : Type} {E D : Nat} (hE : E ≠ 1)
    (h : (⟨2, ![E, 1]⟩ : Shape).BroadcastsInDim (⟨2, ![E, D]⟩ : Shape) ![0, 1]) (x : (⟨2, ![E, 1]⟩ : Shape).Idx → α)
    (e : Fin E) (q : Fin D) :
    broadcastInDim (⟨2, ![E, D]⟩ : Shape) ![0, 1] h x (ix2 e q) = x (ix2 e (0 : Fin 1)) :=
  broadcastInDim_apply _ h x (ix2 e q) (ix2 e (0 : Fin 1)) (fun a => match a with
    | ⟨0, _⟩ => by show e.val = if E = 1 then 0 else e.val; rw [if_neg hE]
    | ⟨1, _⟩ => by show 0 = if (1 : Nat) = 1 then 0 else q.val; rw [if_pos rfl])

/-- The zero constant broadcast to any shape reads zero. -/
theorem bcast_zero_apply {t : Shape} (h : (⟨0, ![]⟩ : Shape).BroadcastsInDim t ![]) (j : t.Idx) :
    broadcastInDim t ![] h (constant (F := Ideal) (⟨0, ![]⟩ : Shape) .f32 0x00000000#32) j = (0 : EReal) := by
  rw [broadcastInDim_apply _ h _ j ix0 (fun a => a.elim0)]
  exact Ideal.ofBits_zero_f32

/-- Two one-column matrices laid side by side: column 0 is the first. -/
theorem concat_cols_left {α : Type} {E : Nat} (a b : (⟨2, ![E, 1]⟩ : Shape).Idx → α)
    (h : Shape.Concatenates [(⟨2, ![E, 1]⟩ : Shape), (⟨2, ![E, 1]⟩ : Shape)] (⟨2, ![E, 2]⟩ : Shape) 1) (e : Fin E) :
    concatenate (⟨2, ![E, 2]⟩ : Shape) 1 [⟨(⟨2, ![E, 1]⟩ : Shape), a⟩, ⟨(⟨2, ![E, 1]⟩ : Shape), b⟩] h (ix2 e (0 : Fin 2))
      = a (ix2 e (0 : Fin 1)) :=
  concatenate_pair_apply_left 1 a b h (ix2 e (0 : Fin 2)) rfl (ix2 e (0 : Fin 1)) (fun c => match c with
    | ⟨0, _⟩ => rfl
    | ⟨1, _⟩ => rfl)

/-- Two one-column matrices laid side by side: column 1 is the second. -/
theorem concat_cols_right {α : Type} {E : Nat} (a b : (⟨2, ![E, 1]⟩ : Shape).Idx → α)
    (h : Shape.Concatenates [(⟨2, ![E, 1]⟩ : Shape), (⟨2, ![E, 1]⟩ : Shape)] (⟨2, ![E, 2]⟩ : Shape) 1) (e : Fin E) :
    concatenate (⟨2, ![E, 2]⟩ : Shape) 1 [⟨(⟨2, ![E, 1]⟩ : Shape), a⟩, ⟨(⟨2, ![E, 1]⟩ : Shape), b⟩] h (ix2 e (1 : Fin 2))
      = b (ix2 e (0 : Fin 1)) :=
  concatenate_pair_apply_right 1 a b h (ix2 e (1 : Fin 2)) rfl rfl (ix2 e (0 : Fin 1))
    (fun c hc => match c with
      | ⟨0, _⟩ => rfl
      | ⟨1, _⟩ => absurd rfl hc)
    rfl

/-! ## Index words and weights -/

/-- The negative-index wrap leaves a nonnegative index alone. -/
theorem sel_wrap (d a : BitVec 32) (h : 0 ≤ d.toInt) : Scalar.select (IntOp.cmpi .slt d 0#32) a d = d := by
  have hlt : d.slt 0#32 = false := by
    simp only [BitVec.slt, BitVec.toInt_zero, decide_eq_false_iff_not, Int.not_lt]
    exact h
  show (if BitVec.ofBool (d.slt 0#32) = 1 then _ else _) = _
  rw [hlt]
  rfl

/-- The inverse square root of a positive extended real is nonnegative. -/
theorem rsqrt_nonneg_of_pos (x : EReal) (hx : 0 < x) : 0 ≤ Ideal.rsqrt x := by
  induction x using EReal.rec with
  | bot => exact absurd hx (by simp)
  | top => rw [Ideal.rsqrt_top]
  | coe r =>
    have hr : 0 < r := by exact_mod_cast hx
    rw [Ideal.rsqrt_coe, if_neg (not_lt.2 hr.le), if_neg hr.ne']
    exact_mod_cast (inv_nonneg.2 (Real.sqrt_nonneg r))

/-- The guarded inverse square root, zero where the degree is not positive, is nonnegative. -/
theorem dinv_nonneg (x : EReal) :
    0 ≤ Scalar.select (Ideal.cmp .ogt x 0) (Ideal.rsqrt x) (0 : EReal) := by
  by_cases hx : 0 < x
  · have : Ideal.cmp .ogt x 0 = 1#1 := by simp [Ideal.cmp, hx]
    rw [this, select_one]
    exact rsqrt_nonneg_of_pos x hx
  · have : Ideal.cmp .ogt x 0 = 0#1 := by simp [Ideal.cmp, hx]
    rw [this, select_zero]

/-- An index word that names a row of the task graph's node table. -/
def InR (b : BitVec 32) : Prop := 0 ≤ b.toInt ∧ b.toInt < 1032

/-- The counting vector of at most 1032 entries names rows of the node table. -/
theorem iota_inR {n : Nat} (hn : n ≤ 1032) (i : (⟨1, ![n]⟩ : Shape).Idx) :
    InR (iotaInDim (⟨1, ![n]⟩ : Shape) 32 0 i) := by
  have h : (i 0).val < n := (i 0).isLt
  show InR (BitVec.ofNat 32 (i 0).val)
  unfold InR
  rw [toInt_ofNat_of_lt (by omega)]
  omega

theorem adj_lhs_0 (i : S1032x128.Idx) (q : dot_S1032x1032_S1032x128_S1032x128_1_0_0_1_n_n.contr.Idx) :
    (dot_S1032x1032_S1032x128_S1032x128_1_0_0_1_n_n.lhsIdx i q 0).val = (i 0).val := by
  unfold DotDims.lhsIdx
  rw [dif_neg (show ¬(0 : Fin S1032x1032.rank) ∈ dot_S1032x1032_S1032x128_S1032x128_1_0_0_1_n_n.lhsBatch by decide),
    dif_pos (show (0 : Fin S1032x1032.rank) ∈ dot_S1032x1032_S1032x128_S1032x128_1_0_0_1_n_n.lhsNonContracting by decide)]
  rfl

theorem adj_lhs_1 (i : S1032x128.Idx) (q : dot_S1032x1032_S1032x128_S1032x128_1_0_0_1_n_n.contr.Idx) :
    (dot_S1032x1032_S1032x128_S1032x128_1_0_0_1_n_n.lhsIdx i q 1).val = (q ⟨0, by decide⟩).val :=
  dot_S1032x1032_S1032x128_S1032x128_1_0_0_1_n_n.lhsIdx_val_of_single rfl i q

theorem adj_rhs_0 (i : S1032x128.Idx) (q : dot_S1032x1032_S1032x128_S1032x128_1_0_0_1_n_n.contr.Idx) :
    (dot_S1032x1032_S1032x128_S1032x128_1_0_0_1_n_n.rhsIdx i q 0).val = (q ⟨0, by decide⟩).val :=
  dot_S1032x1032_S1032x128_S1032x128_1_0_0_1_n_n.rhsIdx_val_of_single rfl i q

theorem adj_rhs_1 (i : S1032x128.Idx) (q : dot_S1032x1032_S1032x128_S1032x128_1_0_0_1_n_n.contr.Idx) :
    (dot_S1032x1032_S1032x128_S1032x128_1_0_0_1_n_n.rhsIdx i q 1).val = (i 1).val := by
  unfold DotDims.rhsIdx
  rw [dif_neg (show ¬(1 : Fin S1032x128.rank) ∈ dot_S1032x1032_S1032x128_S1032x128_1_0_0_1_n_n.rhsBatch by decide),
    dif_pos (show (1 : Fin S1032x128.rank) ∈ dot_S1032x1032_S1032x128_S1032x128_1_0_0_1_n_n.rhsNonContracting by decide)]
  rfl

/-- The dense product read at (i, q): the sum over the contracted row index. -/
theorem dot_read (A : FVec Ideal S1032x1032 .f32) (H : FVec Ideal S1032x128 .f32) (i : Fin 1032) (q : Fin 128) :
    Host.dotGeneral (F := Ideal) dot_S1032x1032_S1032x128_S1032x128_1_0_0_1_n_n none A H (ix2 i q)
      = ∑ j : Fin 1032, A (ix2 i j) * H (ix2 j q) := by
  simp only [Host.dotGeneral]
  rw [Ideal.dotGeneral_apply,
    ← Equiv.sum_comp (contrEquiv1 dot_S1032x1032_S1032x128_S1032x128_1_0_0_1_n_n 1032 rfl rfl).symm]
  refine Finset.sum_congr rfl fun k _ => ?_
  have hk := contrEquiv1_symm_val dot_S1032x1032_S1032x128_S1032x128_1_0_0_1_n_n 1032 rfl rfl k
  have el : dot_S1032x1032_S1032x128_S1032x128_1_0_0_1_n_n.lhsIdx (ix2 i q)
      ((contrEquiv1 dot_S1032x1032_S1032x128_S1032x128_1_0_0_1_n_n 1032 rfl rfl).symm k) = ix2 i k :=
    funext fun a => Fin.ext (by
      match a with
      | ⟨0, _⟩ => exact adj_lhs_0 _ _
      | ⟨1, _⟩ => exact (adj_lhs_1 _ _).trans hk)
  have er : dot_S1032x1032_S1032x128_S1032x128_1_0_0_1_n_n.rhsIdx (ix2 i q)
      ((contrEquiv1 dot_S1032x1032_S1032x128_S1032x128_1_0_0_1_n_n 1032 rfl rfl).symm k) = ix2 k q :=
    funext fun a => Fin.ext (by
      match a with
      | ⟨0, _⟩ => exact (adj_rhs_0 _ _).trans hk
      | ⟨1, _⟩ => exact adj_rhs_1 _ _)
  rw [el, er]

/-! ## The edge lists and the weights of this program -/

section Ranges

variable (x3 : IVec S1024 32) (hx : ∀ i, InR (x3 i))

include hx

theorem v98_inR (j : S2048.Idx) : InR (val_main_v98 (F := Ideal) x3 j) := by
  unfold val_main_v98
  exact concat1_forall _ _ _ rfl InR (iota_inR (n := 1024) (by decide)) hx j

theorem v99_inR (j : S2048.Idx) : InR (val_main_v99 (F := Ideal) x3 j) := by
  unfold val_main_v99
  exact concat1_forall _ _ _ rfl InR hx (iota_inR (n := 1024) (by decide)) j

/-- Every source index names a row of the node table. -/
theorem v101_inR (j : S3080.Idx) : InR (val_main_v101 (F := Ideal) x3 j) := by
  unfold val_main_v101
  exact concat1_forall _ _ _ rfl InR (v98_inR x3 hx) (iota_inR (n := 1032) (by decide)) j

/-- Every destination index names a row of the node table. -/
theorem v102_inR (j : S3080.Idx) : InR (val_main_v102 (F := Ideal) x3 j) := by
  unfold val_main_v102
  exact concat1_forall _ _ _ rfl InR (v99_inR x3 hx) (iota_inR (n := 1032) (by decide)) j

/-- The wrapped source list is the source list. -/
theorem v115_eq (j : S3080.Idx) : val_main_v115 (F := Ideal) x3 j = val_main_v101 (F := Ideal) x3 j := by
  rw [val_main_v115_apply, val_main_v112_apply, val_main_v111_apply, val_main_c_25_apply]
  exact sel_wrap _ _ (v101_inR x3 hx j).1

/-- The wrapped destination list is the destination list. -/
theorem v122_eq (j : S3080.Idx) : val_main_v122 (F := Ideal) x3 j = val_main_v102 (F := Ideal) x3 j := by
  rw [val_main_v122_apply, val_main_v119_apply, val_main_v118_apply, val_main_c_27_apply]
  exact sel_wrap _ _ (v102_inR x3 hx j).1

/-- The source list wrapped a second time, for the gather, is the source list. -/
theorem v131_eq (j : S3080.Idx) : val_main_v131 (F := Ideal) x3 j = val_main_v101 (F := Ideal) x3 j := by
  rw [val_main_v131_apply, val_main_v128_apply, val_main_v127_apply, val_main_c_29_apply]
  exact sel_wrap _ _ (v101_inR x3 hx j).1

end Ranges

/-- The guarded inverse square root of the degrees is nonnegative. -/
theorem v110_nonneg (x3 : IVec S1024 32) (k : S1032.Idx) : (0 : EReal) ≤ val_main_v110 (F := Ideal) x3 k := by
  rw [val_main_v110_apply, val_main_v108_apply, val_main_v109_apply, val_main_call3_v1_apply, val_main_call3_v0_apply,
    val_main_cst_24_apply, val_main_v107_apply, val_main_cst_23_apply]
  show (0 : EReal) ≤ Scalar.select (Ideal.cmp .ogt (val_main_v106 (F := Ideal) x3 k) (Ideal.ofBits .f32 0x00000000#32))
    (Ideal.rsqrt (val_main_v106 (F := Ideal) x3 k)) (Ideal.ofBits .f32 0x00000000#32)
  rw [Ideal.ofBits_zero_f32]
  exact dinv_nonneg _

theorem v117_nonneg (x3 : IVec S1024 32) (i : S3080.Idx) : (0 : EReal) ≤ val_main_v117 (F := Ideal) x3 i := by
  unfold val_main_v117 Host.gather
  exact v110_nonneg x3 _

theorem v124_nonneg (x3 : IVec S1024 32) (i : S3080.Idx) : (0 : EReal) ≤ val_main_v124 (F := Ideal) x3 i := by
  unfold val_main_v124 Host.gather
  exact v110_nonneg x3 _

/-- An edge's weight, the product of the two guarded inverse square roots, is nonnegative. -/
theorem v125_nonneg (x3 : IVec S1024 32) (i : S3080.Idx) : (0 : EReal) ≤ val_main_v125 (F := Ideal) x3 i := by
  rw [val_main_v125_apply]
  exact EReal.mul_nonneg (v117_nonneg x3 i) (v124_nonneg x3 i)

/-! ## The two sides read at an index -/

/-- The dense adjacency matrix at (i, j): the sum of the weights of the edges from j to i. -/
theorem adjK_read (x3 : IVec S1024 32) (hx : ∀ i, InR (x3 i)) (i j : Fin 1032) :
    adjK (F := Ideal) x3 (ix2 i j)
      = 0 + ∑ e : Fin 3080,
          if (val_main_v102 (F := Ideal) x3 (ix1 e)).toInt = (i.val : ℤ)
              ∧ (val_main_v101 (F := Ideal) x3 (ix1 e)).toInt = (j.val : ℤ)
            then val_main_v125 (F := Ideal) x3 (ix1 e) else 0 := by
  unfold adjK
  refine (Cert.LibPairScatter.pairScatterAdd_apply _ rfl rfl rfl rfl _ _ _ i j).trans ?_
  rw [bcast_zero_apply]
  refine congrArg (0 + ·) (Finset.sum_congr rfl fun e _ => ?_)
  rw [concat_cols_left, concat_cols_right, bcast_col_apply (by decide), bcast_col_apply (by decide),
    v122_eq x3 hx, v115_eq x3 hx]

/-- The reference's aggregation at (i, q): the sum over the edges with destination i of the source's row of H
    at column q times the edge's weight. -/
theorem ref_read (x3 : IVec S1024 32) (hx : ∀ i, InR (x3 i)) (H : FVec Ideal S1032x128 .f32) (i : Fin 1032) (q : Fin 128) :
    Host.scatterAdd Cert.ReferenceIdeal.scatter_S1032x128_S3080x1_S3080x128_1_0_0_1
        (val_main_v137 (F := Ideal)) (val_main_v138 (F := Ideal) x3)
        (mulf (Host.gather Cert.ReferenceIdeal.gather_S1032x128_S3080x1_S3080x128_1_0_n_n_0_1_1128 H (val_main_v132 (F := Ideal) x3))
          (val_main_v135 (F := Ideal) x3)) (ix2 i q)
      = 0 + ∑ e : Fin 3080,
          if (val_main_v102 (F := Ideal) x3 (ix1 e)).toInt = (i.val : ℤ)
            then H (ix2 (Cert.LibGatherRows.clampRow 1032 (by decide) (val_main_v101 (F := Ideal) x3 (ix1 e))) q)
              * val_main_v125 (F := Ideal) x3 (ix1 e)
            else 0 := by
  refine (Cert.LibRowsScatter.rowsScatterAdd_apply _ rfl rfl rfl rfl _ _ _ i q).trans ?_
  have hz : val_main_v137 (F := Ideal) (ix2 i q) = (0 : EReal) := by
    unfold val_main_v137 val_main_cst_31
    exact bcast_zero_apply _ _
  rw [hz]
  refine congrArg (0 + ·) (Finset.sum_congr rfl fun e _ => ?_)
  have hd : val_main_v138 (F := Ideal) x3 (ix2 e (0 : Fin 1)) = val_main_v102 (F := Ideal) x3 (ix1 e) := by
    unfold val_main_v138
    exact bcast_col_apply (by decide) _ _ e 0
  have hsrc : val_main_v132 (F := Ideal) x3 (ix2 e (0 : Fin 1)) = val_main_v101 (F := Ideal) x3 (ix1 e) := by
    unfold val_main_v132
    rw [bcast_col_apply (by decide), v131_eq x3 hx]
  have hwt : val_main_v135 (F := Ideal) x3 (ix2 e q) = val_main_v125 (F := Ideal) x3 (ix1 e) := by
    unfold val_main_v135 val_main_v134
    rw [bcast_row_apply (by decide), bcast_col_apply (by decide)]
  rw [hd]
  refine if_congr Iff.rfl ?_ rfl
  show Host.gather _ H _ (ix2 e q) * val_main_v135 (F := Ideal) x3 (ix2 e q) = _
  rw [Cert.LibGatherRows.gatherRows_apply (by decide) _ rfl rfl rfl rfl rfl, hsrc, hwt]

/-! ## The aggregation -/

end TaskAdj

theorem adj_dot (x3 : IVec S1024 32)
    (hlab : ∀ i : Fin 1024, 0 ≤ (x3 (ix1 i)).toInt ∧ (x3 (ix1 i)).toInt < 1032)
    (H : FVec Ideal S1032x128 .f32) :
    Host.dotGeneral (F := Ideal) dot_S1032x1032_S1032x128_S1032x128_1_0_0_1_n_n none (adjK (F := Ideal) x3) H
      = Host.scatterAdd Cert.ReferenceIdeal.scatter_S1032x128_S3080x1_S3080x128_1_0_0_1
          (Cert.ReferenceIdeal.ReadP.val_main_v137 (F := Ideal)) (Cert.ReferenceIdeal.ReadP.val_main_v138 (F := Ideal) x3)
          (mulf (Host.gather Cert.ReferenceIdeal.gather_S1032x128_S3080x1_S3080x128_1_0_n_n_0_1_1128 H (Cert.ReferenceIdeal.ReadP.val_main_v132 (F := Ideal) x3))
            (Cert.ReferenceIdeal.ReadP.val_main_v135 (F := Ideal) x3)) := by
  have hx : ∀ i : S1024.Idx, TaskAdj.InR (x3 i) := fun i => by
    rw [eq_ix1 i]
    exact hlab (i 0)
  funext p
  obtain ⟨i, q, rfl⟩ : ∃ i q, p = ix2 i q := ⟨p 0, p 1, eq_ix2 p⟩
  refine (TaskAdj.dot_read _ H i q).trans ?_
  refine (Finset.sum_congr rfl fun j _ => congrArg (· * H (ix2 j q)) (TaskAdj.adjK_read x3 hx i j)).trans ?_
  refine Eq.trans ?_ (TaskAdj.ref_read x3 hx H i q).symm
  exact TaskAdj.adj_sum (E := 3080) (N := 1032)
    (fun e => (Cert.ReferenceIdeal.ReadP.val_main_v102 (F := Ideal) x3 (ix1 e)).toInt)
    (fun e => (Cert.ReferenceIdeal.ReadP.val_main_v101 (F := Ideal) x3 (ix1 e)).toInt)
    (fun e => Cert.LibGatherRows.clampRow 1032 (by decide) (Cert.ReferenceIdeal.ReadP.val_main_v101 (F := Ideal) x3 (ix1 e)))
    (fun e => by
      have h := TaskAdj.v101_inR x3 hx (ix1 e)
      unfold TaskAdj.InR at h
      show ((min (Cert.ReferenceIdeal.ReadP.val_main_v101 (F := Ideal) x3 (ix1 e)).toInt.toNat (1032 - 1) : ℕ) : ℤ) = _
      omega)
    (fun e => Cert.ReferenceIdeal.ReadP.val_main_v125 (F := Ideal) x3 (ix1 e))
    (fun e => TaskAdj.v125_nonneg x3 (ix1 e))
    (fun j => H (ix2 j q)) (i.val : ℤ)

end Cert.KernelIdeal.Stage

end
-- ==== Proof.TaskOps.lean ====
/-
  Laws between a kernel's operations and the host's over the extended reals, each an equation between whole arrays:
  a product accumulated onto zero after a change of float format is the host's product; a vector laid out as one row
  and broadcast down the rows is the host's two broadcasts; the first 1024 rows of a 1032-row matrix are the gather of
  its rows at 0, 1, ..., 1023 (no index is negative, so the wrap selects the index itself, and none exceeds the clamp);
  and the kernel's log-softmax along rows of eight is the host's.
-/
import proofs.«420595_j78357383348249_1_alg».proof.Proof.Gen.KernelIdeal.Frame
import proofs.«420595_j78357383348249_1_alg».proof.Proof.RefRead
import proofs.«420595_j78357383348249_1_alg».proof.Proof.LibGatherRows
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws
import Mathlib.Data.Finset.Fold

noncomputable section

namespace Cert.KernelIdeal.Stage

open Idealize.ShloMosaic Idealize.ShloMosaic.TcCoe Idealize.SL.Sem Cert.KernelIdeal Cert.KernelIdeal.Gen

open Idealize.ShloMosaic.ValueIdx

/-- A product accumulated onto zero, its operands passed through a change of float format, is the host's product. -/
theorem matmul_zero_eq_dot {sl sr so : Shape} (d : DotDims sl sr so) (l : FVec Ideal sl .f32) (r : FVec Ideal sr .f32) :
    matmul (F := Ideal) d none (truncf .bf16 l) (truncf .bf16 r) (constant so .f32 0x00000000#32)
      = Host.dotGeneral (F := Ideal) d none l r := by
  -- at an index both are the sum over the contraction index of the operands' products: the change of format is the
  -- identity and the accumulator is zero
  funext j
  simp only [matmul, Host.dotGeneral]
  rw [Ideal.matmul_constant_zero_apply, Ideal.dotGeneral_apply]
  rfl

/-- A vector laid out as one row and broadcast down `a` rows reads, at `(p, q)`, the vector at `q`; so do the host's
    two broadcasts. -/
private theorem rowBroadcast_eq {a b : ℕ} (v : FVec Ideal ⟨1, ![b]⟩ .f32)
    (h1 : (⟨1, ![b]⟩ : Shape).ShapeCasts ⟨2, ![1, b]⟩) (h2 : (⟨2, ![1, b]⟩ : Shape).ShapeCasts ⟨2, ![1, b]⟩)
    (h3 : (⟨2, ![1, b]⟩ : Shape).Broadcasts ⟨2, ![a, b]⟩)
    (g1 : (⟨1, ![b]⟩ : Shape).BroadcastsInDim ⟨2, ![1, b]⟩ ![1])
    (g2 : (⟨2, ![1, b]⟩ : Shape).BroadcastsInDim ⟨2, ![a, b]⟩ ![0, 1]) :
    broadcastTo ⟨2, ![a, b]⟩ (shapeCast ⟨2, ![1, b]⟩ (shapeCast ⟨2, ![1, b]⟩ v h1) h2) h3
      = broadcastInDim ⟨2, ![a, b]⟩ ![0, 1] g2 (broadcastInDim ⟨2, ![1, b]⟩ ![1] g1 v) := by
  rw [shapeCast_self]
  have key : ∀ (p : Fin a) (q : Fin b),
      broadcastTo ⟨2, ![a, b]⟩ (shapeCast ⟨2, ![1, b]⟩ v h1) h3 (ix2 p q)
        = broadcastInDim ⟨2, ![a, b]⟩ ![0, 1] g2 (broadcastInDim ⟨2, ![1, b]⟩ ![1] g1 v) (ix2 p q) := by
    intro p q
    rw [broadcastTo_1b_ab_apply, shapeCast_a_1a_apply]
    refine Eq.symm ((broadcastInDim_apply _ g2 _ (ix2 p q) (ix2 (0 : Fin 1) q) fun ax => ?_).trans
      (broadcastInDim_apply _ g1 v (ix2 (0 : Fin 1) q) (ix1 q) fun ax => ?_))
    · match ax with
      | ⟨0, _⟩ => rfl
      | ⟨1, _⟩ =>
        show q.val = if b = 1 then 0 else q.val
        split
        · have := q.isLt; omega
        · rfl
    · match ax with
      | ⟨0, _⟩ =>
        show q.val = if b = 1 then 0 else q.val
        split
        · have := q.isLt; omega
        · rfl
  funext i
  rw [eq_ix2 i]
  exact key (i 0) (i 1)

/-- The 128-vector as one row broadcast over 1032 rows: the kernel's layout is the host's. -/
theorem bias128 (b : FVec Ideal S128 .f32) :
    broadcastTo S1032x128 (shapeCast S1x128 (shapeCast S1x128 b shapeCasts_S128_S1x128) shapeCasts_S1x128_S1x128)
        broadcasts_S1x128_S1032x128
      = broadcastInDim Cert.ReferenceIdeal.S1032x128 ![0, 1] Cert.ReferenceIdeal.Gen.bcast_S1x128_S1032x128_0_1
          (broadcastInDim Cert.ReferenceIdeal.S1x128 ![1] Cert.ReferenceIdeal.Gen.bcast_S128_S1x128_1 b) :=
  rowBroadcast_eq b _ _ _ _ _

/-- The 8-vector as one row broadcast over 1024 rows: the kernel's layout is the host's. -/
theorem bias8 (b : FVec Ideal S8 .f32) :
    broadcastTo S1024x8 (shapeCast S1x8 (shapeCast S1x8 b shapeCasts_S8_S1x8) shapeCasts_S1x8_S1x8)
        broadcasts_S1x8_S1024x8
      = broadcastInDim Cert.ReferenceIdeal.S1024x8 ![0, 1] Cert.ReferenceIdeal.Gen.bcast_S1x8_S1024x8_0_1
          (broadcastInDim Cert.ReferenceIdeal.S1x8 ![1] Cert.ReferenceIdeal.Gen.bcast_S8_S1x8_1 b) :=
  rowBroadcast_eq b _ _ _ _ _

/-- A row number below 1024 is not negative as a signed word: the wrap selects the number itself. -/
private theorem wrapIdx (r : ℕ) (hr : r < 1024) :
    Scalar.select (IntOp.cmpi .slt (BitVec.ofNat 32 r) 0#32) (IntOp.addi (BitVec.ofNat 32 r) 1032#32) (BitVec.ofNat 32 r)
      = BitVec.ofNat 32 r := by
  unfold Scalar.select
  rw [if_neg]
  intro h
  have := (StableHlo.Predicate.slt_ofNat_iff r 0 (by omega) (by norm_num)).mp h
  omega

/-- … and read as a signed integer it is itself, below the clamp 1031. -/
private theorem clamp_small (r : ℕ) (hr : r < 1024) : min (BitVec.ofNat 32 r).toInt.toNat (1032 - 1) = r := by
  rw [StableHlo.Predicate.toInt_ofNat_small r (by omega)]
  omega

/-- The reference's start indices: row `p` of the column reads the word `p`. -/
private theorem startIdx_apply (p : Fin 1024) :
    Cert.ReferenceIdeal.ReadP.val_main_v148 (F := Ideal) (ix2 p (0 : Fin 1)) = BitVec.ofNat 32 p.val := by
  rw [Cert.ReferenceIdeal.ReadP.val_main_v148_apply, Cert.ReferenceIdeal.ReadP.val_main_v147_apply,
    Cert.ReferenceIdeal.ReadP.val_main_v144_apply, Cert.ReferenceIdeal.ReadP.val_main_v146_apply,
    Cert.ReferenceIdeal.ReadP.val_main_v145_apply, Cert.ReferenceIdeal.ReadP.val_main_v143_apply,
    Cert.ReferenceIdeal.ReadP.val_main_c_32_apply, Cert.ReferenceIdeal.ReadP.val_main_c_33_apply,
    Cert.ReferenceIdeal.ReadP.val_main_v97_apply]
  exact wrapIdx p.val p.isLt

/-- The first 1024 rows of a 1032-row matrix are its rows gathered at 0, 1, ..., 1023. -/
theorem slice_eq_gather (Y : FVec Ideal S1032x128 .f32) :
    extractStridedSlice S1024x128 ![0, 0] Y slices_S1032x128_o0_0_S1024x128
      = Host.gather Cert.ReferenceIdeal.gather_S1032x128_S1024x1_S1024x128_1_0_n_n_0_1_1128 Y (Cert.ReferenceIdeal.ReadP.val_main_v148 (F := Ideal)) := by
  have key : ∀ (p : Fin 1024) (q : Fin 128),
      extractStridedSlice S1024x128 ![0, 0] Y slices_S1032x128_o0_0_S1024x128 (ix2 p q)
        = Host.gather Cert.ReferenceIdeal.gather_S1032x128_S1024x1_S1024x128_1_0_n_n_0_1_1128 Y
            (Cert.ReferenceIdeal.ReadP.val_main_v148 (F := Ideal)) (ix2 p q) := by
    intro p q
    rw [Cert.LibGatherRows.gatherRows_apply (by decide) _ rfl rfl rfl rfl rfl, startIdx_apply]
    refine extractStridedSlice_apply _ Y _ (ix2 p q) _ fun ax => ?_
    match ax with
    | ⟨0, _⟩ =>
      show min (BitVec.ofNat 32 p.val).toInt.toNat (1032 - 1) = 0 + p.val
      rw [clamp_small p.val p.isLt, Nat.zero_add]
    | ⟨1, _⟩ =>
      show q.val = 0 + q.val
      rw [Nat.zero_add]
  funext i
  rw [eq_ix2 i]
  exact key (i 0) (i 1)

/-- The kernel's log-softmax over rows of eight, as a function of the logits. -/
def lsmK (z : FVec Ideal S1024x8 .f32) : FVec Ideal S1024x8 .f32 :=
  let mx := broadcastTo S1024x8 (shapeCast S1024x1 (multiReduction .maximumf [1] S1024 z 0xFF800000#32 reduces_S1024x8_S1024 (.inl rfl) rfl) shapeCasts_S1024_S1024x1) broadcasts_S1024x1_S1024x8
  let sh := subf z mx
  subf sh (broadcastTo S1024x8 (log (shapeCast S1024x1 (multiReduction .add [1] S1024 (exp sh) 0x00000000#32 reduces_S1024x8_S1024 (.inl rfl) rfl) shapeCasts_S1024_S1024x1)) broadcasts_S1024x1_S1024x8)

section Keepdims
variable {α : Type}

/-- A column `[a, 1]` broadcast along rows of `b` reads, at `(p, q)`, the column at `p`. -/
private theorem bcastTo_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, 0)`, the vector at `p`. -/
private theorem shapeCast_col {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- The host's broadcast of a column `[a, 1]` along rows of `b`, at `(p, q)`: the column at `p`. -/
private theorem bcastInDim_col {a b : ℕ} (v : (⟨2, ![a, 1]⟩ : Shape).Idx → α)
    (g : (⟨2, ![a, 1]⟩ : Shape).BroadcastsInDim ⟨2, ![a, b]⟩ ![0, 1]) (p : Fin a) (q : Fin b) :
    broadcastInDim ⟨2, ![a, b]⟩ ![0, 1] g v (ix2 p q) = v (ix2 p (0 : Fin 1)) := by
  refine broadcastInDim_apply _ g v (ix2 p q) (ix2 p (0 : Fin 1)) fun ax => ?_
  match ax with
  | ⟨0, _⟩ =>
    show p.val = if a = 1 then 0 else p.val
    split
    · have := p.isLt; omega
    · rfl
  | ⟨1, _⟩ => rfl

/-- The host's broadcast of a vector `[a]` to a column `[a, 1]`, at `(p, 0)`: the vector at `p`. -/
private theorem bcastInDim_col1 {a : ℕ} (x : (⟨1, ![a]⟩ : Shape).Idx → α)
    (g : (⟨1, ![a]⟩ : Shape).BroadcastsInDim ⟨2, ![a, 1]⟩ ![0]) (p : Fin a) :
    broadcastInDim ⟨2, ![a, 1]⟩ ![0] g x (ix2 p (0 : Fin 1)) = x (ix1 p) := by
  refine broadcastInDim_apply _ g x (ix2 p (0 : Fin 1)) (ix1 p) fun ax => ?_
  match ax with
  | ⟨0, _⟩ =>
    show p.val = if a = 1 then 0 else p.val
    split
    · have := p.isLt; omega
    · rfl

end Keepdims

/-- The row maximum laid along the rows: the kernel's fold from `-∞` is the host's fold from `-∞` joined with `-∞`. -/
private theorem rowMax_eq (z : FVec Ideal S1024x8 .f32) :
    broadcastTo S1024x8 (shapeCast S1024x1 (multiReduction .maximumf [1] S1024 z 0xFF800000#32 reduces_S1024x8_S1024 (.inl rfl) rfl) shapeCasts_S1024_S1024x1) broadcasts_S1024x1_S1024x8
      = broadcastInDim Cert.ReferenceIdeal.S1024x8 ![0, 1] Cert.ReferenceIdeal.Gen.bcast_S1024x1_S1024x8_0_1
          (broadcastInDim Cert.ReferenceIdeal.S1024x1 ![0] Cert.ReferenceIdeal.Gen.bcast_S1024_S1024x1_0
            (maximumf (broadcastInDim Cert.ReferenceIdeal.S1024 ![] Cert.ReferenceIdeal.Gen.bcast_S_S1024 (constant Cert.ReferenceIdeal.S_ .f32 0xFF800000#32))
              (Host.reduce FloatOps.maximumf z (constant Cert.ReferenceIdeal.S_ .f32 0xFF800000#32) Cert.ReferenceIdeal.Gen.reducesTo_S1024x8_S1024_d1 Cert.ReferenceIdeal.Gen.h_S_))) := by
  have key : ∀ (p : Fin 1024) (q : Fin 8),
      broadcastTo S1024x8 (shapeCast S1024x1 (multiReduction .maximumf [1] S1024 z 0xFF800000#32 reduces_S1024x8_S1024 (.inl rfl) rfl) shapeCasts_S1024_S1024x1) broadcasts_S1024x1_S1024x8 (ix2 p q)
      = broadcastInDim Cert.ReferenceIdeal.S1024x8 ![0, 1] Cert.ReferenceIdeal.Gen.bcast_S1024x1_S1024x8_0_1
          (broadcastInDim Cert.ReferenceIdeal.S1024x1 ![0] Cert.ReferenceIdeal.Gen.bcast_S1024_S1024x1_0
            (maximumf (broadcastInDim Cert.ReferenceIdeal.S1024 ![] Cert.ReferenceIdeal.Gen.bcast_S_S1024 (constant Cert.ReferenceIdeal.S_ .f32 0xFF800000#32))
              (Host.reduce FloatOps.maximumf z (constant Cert.ReferenceIdeal.S_ .f32 0xFF800000#32) Cert.ReferenceIdeal.Gen.reducesTo_S1024x8_S1024_d1 Cert.ReferenceIdeal.Gen.h_S_))) (ix2 p q) := by
    intro p q
    rw [bcastTo_col, shapeCast_col, bcastInDim_col, bcastInDim_col1]
    refine (Ideal.multiReduction_maximumf_single z _ reduces_S1024x8_S1024 _ _ (ix1 p)).trans ?_
    show _ = max (FloatOps.ofBits (F := Ideal) .f32 0xFF800000#32)
      (Host.reduce FloatOps.maximumf z (constant Cert.ReferenceIdeal.S_ .f32 0xFF800000#32) Cert.ReferenceIdeal.Gen.reducesTo_S1024x8_S1024_d1 Cert.ReferenceIdeal.Gen.h_S_ (ix1 p))
    rw [Host.reduce_eq_fold_single FloatOps.maximumf z _ Cert.ReferenceIdeal.Gen.reducesTo_S1024x8_S1024_d1 reduces_S1024x8_S1024 Cert.ReferenceIdeal.Gen.h_S_]
    exact (max_eq_right ((Finset.le_fold_max _).mpr (Or.inl le_rfl))).symm
  funext i
  rw [eq_ix2 i]
  exact key (i 0) (i 1)

/-- The logarithm of the row sum of exponentials laid along the rows: the kernel's sum is the host's sum from zero. -/
private theorem rowLogSum_eq (e : FVec Ideal S1024x8 .f32) :
    broadcastTo S1024x8 (log (shapeCast S1024x1 (multiReduction .add [1] S1024 (exp e) 0x00000000#32 reduces_S1024x8_S1024 (.inl rfl) rfl) shapeCasts_S1024_S1024x1)) broadcasts_S1024x1_S1024x8
      = broadcastInDim Cert.ReferenceIdeal.S1024x8 ![0, 1] Cert.ReferenceIdeal.Gen.bcast_S1024x1_S1024x8_0_1
          (Host.log (broadcastInDim Cert.ReferenceIdeal.S1024x1 ![0] Cert.ReferenceIdeal.Gen.bcast_S1024_S1024x1_0
            (Host.reduceAdd (Host.exp e) (constant Cert.ReferenceIdeal.S_ .f32 0x00000000#32) Cert.ReferenceIdeal.Gen.reducesTo_S1024x8_S1024_d1 Cert.ReferenceIdeal.Gen.h_S_))) := by
  have key : ∀ (p : Fin 1024) (q : Fin 8),
      broadcastTo S1024x8 (log (shapeCast S1024x1 (multiReduction .add [1] S1024 (exp e) 0x00000000#32 reduces_S1024x8_S1024 (.inl rfl) rfl) shapeCasts_S1024_S1024x1)) broadcasts_S1024x1_S1024x8 (ix2 p q)
      = broadcastInDim Cert.ReferenceIdeal.S1024x8 ![0, 1] Cert.ReferenceIdeal.Gen.bcast_S1024x1_S1024x8_0_1
          (Host.log (broadcastInDim Cert.ReferenceIdeal.S1024x1 ![0] Cert.ReferenceIdeal.Gen.bcast_S1024_S1024x1_0
            (Host.reduceAdd (Host.exp e) (constant Cert.ReferenceIdeal.S_ .f32 0x00000000#32) Cert.ReferenceIdeal.Gen.reducesTo_S1024x8_S1024_d1 Cert.ReferenceIdeal.Gen.h_S_))) (ix2 p q) := by
    intro p q
    rw [bcastTo_col, bcastInDim_col]
    show Ideal.log (shapeCast S1024x1 (multiReduction .add [1] S1024 (exp e) 0x00000000#32 reduces_S1024x8_S1024 (.inl rfl) rfl) shapeCasts_S1024_S1024x1 (ix2 p (0 : Fin 1)))
      = Ideal.log (broadcastInDim Cert.ReferenceIdeal.S1024x1 ![0] Cert.ReferenceIdeal.Gen.bcast_S1024_S1024x1_0
            (Host.reduceAdd (Host.exp e) (constant Cert.ReferenceIdeal.S_ .f32 0x00000000#32) Cert.ReferenceIdeal.Gen.reducesTo_S1024x8_S1024_d1 Cert.ReferenceIdeal.Gen.h_S_) (ix2 p (0 : Fin 1)))
    rw [shapeCast_col, bcastInDim_col1]
    refine congrArg Ideal.log ((Ideal.multiReduction_add_single (exp e) _ reduces_S1024x8_S1024 _ _ (ix1 p)).trans ?_)
    simp only [Host.reduceAdd, Ideal.hostReduceAdd_def]
    rw [Ideal.hostReduceAdd_single Cert.ReferenceIdeal.Gen.reducesTo_S1024x8_S1024_d1 reduces_S1024x8_S1024]
    show _ = Ideal.ofBits .f32 0x00000000#32 + _
    rw [Ideal.ofBits_zero_f32, zero_add]
    rfl
  funext i
  rw [eq_ix2 i]
  exact key (i 0) (i 1)
/-- The host's log-softmax over rows of eight, as a function of the logits: the row maximum from `-∞` joined with a
    `-∞` vector, the shift, the logarithm of the row sum of exponentials from zero, the second shift. -/
def lsmH (z : FVec Ideal Cert.ReferenceIdeal.S1024x8 .f32) : FVec Ideal Cert.ReferenceIdeal.S1024x8 .f32 :=
  subf
    (subf z
      (broadcastInDim Cert.ReferenceIdeal.S1024x8 ![0, 1] Cert.ReferenceIdeal.Gen.bcast_S1024x1_S1024x8_0_1
        (broadcastInDim Cert.ReferenceIdeal.S1024x1 ![0] Cert.ReferenceIdeal.Gen.bcast_S1024_S1024x1_0
          (maximumf (broadcastInDim Cert.ReferenceIdeal.S1024 ![] Cert.ReferenceIdeal.Gen.bcast_S_S1024 (constant Cert.ReferenceIdeal.S_ .f32 0xFF800000#32))
            (Host.reduce FloatOps.maximumf z (constant Cert.ReferenceIdeal.S_ .f32 0xFF800000#32) Cert.ReferenceIdeal.Gen.reducesTo_S1024x8_S1024_d1 Cert.ReferenceIdeal.Gen.h_S_)))))
    (broadcastInDim Cert.ReferenceIdeal.S1024x8 ![0, 1] Cert.ReferenceIdeal.Gen.bcast_S1024x1_S1024x8_0_1
      (Host.log (broadcastInDim Cert.ReferenceIdeal.S1024x1 ![0] Cert.ReferenceIdeal.Gen.bcast_S1024_S1024x1_0
        (Host.reduceAdd
          (Host.exp (subf z
            (broadcastInDim Cert.ReferenceIdeal.S1024x8 ![0, 1] Cert.ReferenceIdeal.Gen.bcast_S1024x1_S1024x8_0_1
              (broadcastInDim Cert.ReferenceIdeal.S1024x1 ![0] Cert.ReferenceIdeal.Gen.bcast_S1024_S1024x1_0
                (maximumf (broadcastInDim Cert.ReferenceIdeal.S1024 ![] Cert.ReferenceIdeal.Gen.bcast_S_S1024 (constant Cert.ReferenceIdeal.S_ .f32 0xFF800000#32))
                  (Host.reduce FloatOps.maximumf z (constant Cert.ReferenceIdeal.S_ .f32 0xFF800000#32) Cert.ReferenceIdeal.Gen.reducesTo_S1024x8_S1024_d1 Cert.ReferenceIdeal.Gen.h_S_))))))
          (constant Cert.ReferenceIdeal.S_ .f32 0x00000000#32) Cert.ReferenceIdeal.Gen.reducesTo_S1024x8_S1024_d1 Cert.ReferenceIdeal.Gen.h_S_))))

/-- The kernel's log-softmax is the host's, on any logits. -/
theorem lsmK_eq_lsmH (z : FVec Ideal S1024x8 .f32) : lsmK z = lsmH z := by
  dsimp only [lsmK, lsmH]
  rw [rowMax_eq z, rowLogSum_eq]

/-- The kernel's log-softmax of the reference's logits is the reference's result. -/
theorem lsm_eq (x0 : FVec Ideal S50000x128 .f32) (x1 : IVec S2x600000 32) (x2 : IVec S50000 32) (x3 : IVec S1024 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (x10 : FVec Ideal S8x128 .f32) (x11 : FVec Ideal S128x8 .f32)
    (x12 : FVec Ideal S8 .f32) :
    lsmK (Cert.ReferenceIdeal.ReadP.val_main_v153 (F := Ideal) x0 x1 x2 x3 x4 x5 x6 x7 x8 x9 x10 x11 x12)
      = Cert.ReferenceIdeal.ReadP.val_main_v154 (F := Ideal) x0 x1 x2 x3 x4 x5 x6 x7 x8 x9 x10 x11 x12 :=
  -- the reference's result is, operation by operation, the host's log-softmax of its logits
  (lsmK_eq_lsmH _).trans rfl

end Cert.KernelIdeal.Stage

end
-- ==== Proof.TaskBridge.lean ====
/-
  The last kernel call against the reference's tail. Over the extended reals the kernel's three products onto zero are
  the host's products, its adjacency product is the reference's gather, scale and scatter-add (labels in range), its
  one-row bias broadcasts are the reference's, its slice of the first 1024 rows is the reference's gather at 0..1023,
  and its log-softmax (row maximum from minus infinity, shift, exponentials summed, logarithm, subtract) is the
  reference's.
-/
import proofs.«420595_j78357383348249_1_alg».proof.Proof.Gen.KernelIdeal.Frame
import proofs.«420595_j78357383348249_1_alg».proof.Proof.RefRead
import proofs.«420595_j78357383348249_1_alg».proof.Proof.TaskDefs
import proofs.«420595_j78357383348249_1_alg».proof.Proof.TaskAdj
import proofs.«420595_j78357383348249_1_alg».proof.Proof.TaskOps

noncomputable section

namespace Cert.KernelIdeal.Stage

open Idealize.ShloMosaic Idealize.ShloMosaic.TcCoe Idealize.SL.Sem Cert.KernelIdeal Cert.KernelIdeal.Gen

open Idealize.ShloMosaic.ValueIdx

/-- The last kernel call's payload, as the log-softmax of its logits: the three products onto zero, the two one-row
    biases and the slice, with every intermediate value substituted. -/
theorem k3_pay1_eq (v0 : FVec Ideal S1032x128 .f32) (v3 : FVec Ideal S128x128 .f32) (v7 : FVec Ideal S1032x1032 .f32)
    (v11 : FVec Ideal S1x128 .f32) (v17 : FVec Ideal S128x8 .f32) (v20 : FVec Ideal S1x8 .f32) :
    k3_pay1 (F := Ideal) v0 v3 v7 v11 v17 v20
      = lsmK
          (addf
            (matmul dot_S1024x128_S128x8_S1024x8_1_0_0_1_n_n none
              (truncf .bf16
                (extractStridedSlice S1024x128 ![0, 0]
                  (addf
                    (matmul dot_S1032x1032_S1032x128_S1032x128_1_0_0_1_n_n none
                      (truncf .bf16 (shapeCast S1032x1032 v7 shapeCasts_S1032x1032_S1032x1032))
                      (truncf .bf16
                        (matmul dot_S1032x128_S128x128_S1032x128_1_0_0_1_n_n none
                          (truncf .bf16 (shapeCast S1032x128 v0 shapeCasts_S1032x128_S1032x128)) (truncf .bf16 v3)
                          (constant S1032x128 .f32 0x00000000#32)))
                      (constant S1032x128 .f32 0x00000000#32))
                    (broadcastTo S1032x128 (shapeCast S1x128 v11 shapeCasts_S1x128_S1x128) broadcasts_S1x128_S1032x128))
                  slices_S1032x128_o0_0_S1024x128))
              (truncf .bf16 v17) (constant S1024x8 .f32 0x00000000#32))
            (broadcastTo S1024x8 (shapeCast S1x8 v20 shapeCasts_S1x8_S1x8) broadcasts_S1x8_S1024x8)) := by
  unfold k3_pay1 lsmK
  rfl

theorem task_bridge (x0 : FVec Ideal S50000x128 .f32) (x1 : IVec S2x600000 32) (x2 : IVec S50000 32) (x3 : IVec S1024 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (x10 : FVec Ideal S8x128 .f32) (x11 : FVec Ideal S128x8 .f32)
    (x12 : FVec Ideal S8 .f32)
    (hlab : ∀ i : Fin 1024, 0 ≤ (x3 (ix1 i)).toInt ∧ (x3 (ix1 i)).toInt < 1032) :
    k3_pay1 (F := Ideal) (Cert.ReferenceIdeal.ReadP.val_main_v96 (F := Ideal) x0 x1 x2 x4 x5 x6 x7 x10) x8 (adjK (F := Ideal) x3)
        (shapeCast S1x128 x9 shapeCasts_S128_S1x128) x11 (shapeCast S1x8 x12 shapeCasts_S8_S1x8)
      = Cert.ReferenceIdeal.ReadP.val_main_v154 (F := Ideal) x0 x1 x2 x3 x4 x5 x6 x7 x8 x9 x10 x11 x12 := by
  -- the hidden matrix times the first weight matrix
  have e1 : matmul (F := Ideal) dot_S1032x128_S128x128_S1032x128_1_0_0_1_n_n none
        (truncf .bf16 (shapeCast (s := S1032x128) (α := Ideal .f32) S1032x128 (Cert.ReferenceIdeal.ReadP.val_main_v96 (F := Ideal) x0 x1 x2 x4 x5 x6 x7 x10)
          shapeCasts_S1032x128_S1032x128))
        (truncf .bf16 x8) (constant S1032x128 .f32 0x00000000#32)
      = Cert.ReferenceIdeal.ReadP.val_main_v126 (F := Ideal) x0 x1 x2 x4 x5 x6 x7 x8 x10 := by
    rw [shapeCast_self, matmul_zero_eq_dot]
    unfold Cert.ReferenceIdeal.ReadP.val_main_v126
    rfl
  -- the adjacency matrix times that product: the gather, scale and scatter-add
  have e2 : matmul (F := Ideal) dot_S1032x1032_S1032x128_S1032x128_1_0_0_1_n_n none
        (truncf .bf16 (shapeCast S1032x1032 (adjK (F := Ideal) x3) shapeCasts_S1032x1032_S1032x1032))
        (truncf (s := S1032x128) (φ := .f32) .bf16 (Cert.ReferenceIdeal.ReadP.val_main_v126 (F := Ideal) x0 x1 x2 x4 x5 x6 x7 x8 x10))
        (constant S1032x128 .f32 0x00000000#32)
      = Cert.ReferenceIdeal.ReadP.val_main_v139 (F := Ideal) x0 x1 x2 x3 x4 x5 x6 x7 x8 x10 := by
    rw [shapeCast_self, matmul_zero_eq_dot, adj_dot x3 hlab]
    unfold Cert.ReferenceIdeal.ReadP.val_main_v139 Cert.ReferenceIdeal.ReadP.val_main_v136 Cert.ReferenceIdeal.ReadP.val_main_v133
    rfl
  -- the first bias
  have e3 : broadcastTo S1032x128
        (shapeCast S1x128 (shapeCast S1x128 x9 shapeCasts_S128_S1x128) shapeCasts_S1x128_S1x128)
        broadcasts_S1x128_S1032x128
      = Cert.ReferenceIdeal.ReadP.val_main_v141 (F := Ideal) x9 := by
    rw [bias128]
    unfold Cert.ReferenceIdeal.ReadP.val_main_v141 Cert.ReferenceIdeal.ReadP.val_main_v140
    rfl
  have e4 : addf (F := Ideal) (s := S1032x128) (φ := .f32) (Cert.ReferenceIdeal.ReadP.val_main_v139 (F := Ideal) x0 x1 x2 x3 x4 x5 x6 x7 x8 x10) (Cert.ReferenceIdeal.ReadP.val_main_v141 (F := Ideal) x9)
      = Cert.ReferenceIdeal.ReadP.val_main_v142 (F := Ideal) x0 x1 x2 x3 x4 x5 x6 x7 x8 x9 x10 := by
    unfold Cert.ReferenceIdeal.ReadP.val_main_v142
    rfl
  -- the first 1024 rows
  have e5 : extractStridedSlice (s := S1032x128) (α := Ideal .f32) S1024x128 ![0, 0] (Cert.ReferenceIdeal.ReadP.val_main_v142 (F := Ideal) x0 x1 x2 x3 x4 x5 x6 x7 x8 x9 x10)
        slices_S1032x128_o0_0_S1024x128
      = Cert.ReferenceIdeal.ReadP.val_main_v149 (F := Ideal) x0 x1 x2 x3 x4 x5 x6 x7 x8 x9 x10 := by
    rw [slice_eq_gather]
    unfold Cert.ReferenceIdeal.ReadP.val_main_v149
    rfl
  -- the product with the last weight matrix
  have e6 : matmul (F := Ideal) dot_S1024x128_S128x8_S1024x8_1_0_0_1_n_n none
        (truncf (s := S1024x128) (φ := .f32) .bf16 (Cert.ReferenceIdeal.ReadP.val_main_v149 (F := Ideal) x0 x1 x2 x3 x4 x5 x6 x7 x8 x9 x10)) (truncf .bf16 x11)
        (constant S1024x8 .f32 0x00000000#32)
      = Cert.ReferenceIdeal.ReadP.val_main_v150 (F := Ideal) x0 x1 x2 x3 x4 x5 x6 x7 x8 x9 x10 x11 := by
    rw [matmul_zero_eq_dot]
    unfold Cert.ReferenceIdeal.ReadP.val_main_v150
    rfl
  -- the second bias
  have e7 : broadcastTo S1024x8
        (shapeCast S1x8 (shapeCast S1x8 x12 shapeCasts_S8_S1x8) shapeCasts_S1x8_S1x8)
        broadcasts_S1x8_S1024x8
      = Cert.ReferenceIdeal.ReadP.val_main_v152 (F := Ideal) x12 := by
    rw [bias8]
    unfold Cert.ReferenceIdeal.ReadP.val_main_v152 Cert.ReferenceIdeal.ReadP.val_main_v151
    rfl
  have e8 : addf (F := Ideal) (s := S1024x8) (φ := .f32) (Cert.ReferenceIdeal.ReadP.val_main_v150 (F := Ideal) x0 x1 x2 x3 x4 x5 x6 x7 x8 x9 x10 x11) (Cert.ReferenceIdeal.ReadP.val_main_v152 (F := Ideal) x12)
      = Cert.ReferenceIdeal.ReadP.val_main_v153 (F := Ideal) x0 x1 x2 x3 x4 x5 x6 x7 x8 x9 x10 x11 x12 := by
    unfold Cert.ReferenceIdeal.ReadP.val_main_v153
    rfl
  rw [k3_pay1_eq, e1, e2, e3, e4, e5, e6, e7, e8]
  exact lsm_eq x0 x1 x2 x3 x4 x5 x6 x7 x8 x9 x10 x11 x12

end Cert.KernelIdeal.Stage

end
-- ==== Proof.KValue.lean ====
/-
  The kernel program's result over the extended reals. Boundary by boundary the program's buffers hold the reference's
  stages: the first linear layer's product, the first layer's aggregate, the second product (after the clamp at zero),
  the second aggregate, the pooled embeddings, their concatenation with the class rows; the last kernel call, on these
  and the dense adjacency matrix, computes the reference's log-softmax, the support labels being in range.
-/
import proofs.«420595_j78357383348249_1_alg».proof.Proof.Gen.KernelIdeal.Frame
import proofs.«420595_j78357383348249_1_alg».proof.Proof.RefRead
import proofs.«420595_j78357383348249_1_alg».proof.Proof.ArgsAt
import proofs.«420595_j78357383348249_1_alg».proof.Proof.HostEdges
import proofs.«420595_j78357383348249_1_alg».proof.Proof.HostLayers
import proofs.«420595_j78357383348249_1_alg».proof.Proof.HostTask
import proofs.«420595_j78357383348249_1_alg».proof.Proof.Linear
import proofs.«420595_j78357383348249_1_alg».proof.Proof.Pool
import proofs.«420595_j78357383348249_1_alg».proof.Proof.Task3
import proofs.«420595_j78357383348249_1_alg».proof.Proof.TaskDefs
import proofs.«420595_j78357383348249_1_alg».proof.Proof.TaskBridge

noncomputable section

namespace Cert.KernelIdeal.Stage

open Idealize.ShloMosaic Idealize.ShloMosaic.TcCoe Idealize.SL.Sem Cert.KernelIdeal Cert.KernelIdeal.Gen

open Idealize.ShloMosaic.ValueIdx

variable (m : (ℓ : Loc nD τ sig) → Buf (Elt Ideal) ℓ) (ρ : Dev nD → PrngReg)

/-- With the support labels in range, the last boundary's contents at the result buffer are the reference's result
    as a function of the argument arrays. -/
theorem kernel_value (c : Dev nD)
    (hlab : ∀ i : Fin 1024, 0 ≤ ((m ((c.tc : Thread nD τ).loc main_arg3) : IVec S1024 32) (ix1 i)).toInt
      ∧ ((m ((c.tc : Thread nD τ).loc main_arg3) : IVec S1024 32) (ix1 i)).toInt < 1032) :
    W12 (F := Ideal) m ρ c (Proc.devRef .tc main_v114)
      = Cert.ReferenceIdeal.ReadP.val_main_v154 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have h33 := W4_v33 m ρ c
  have h48 := W5_v48 m ρ c h33
  have h49 := W6_v49 m ρ c h48
  have h64 := W7_v64 m ρ c h49
  have h66 := W8_v66 m ρ c h64
  rw [W12_v114 m ρ c, W11_v67 m ρ c h66, W11_arg8 m ρ c, W11_v111 m ρ c, W11_v112 m ρ c, W11_arg11 m ρ c,
    W11_v113 m ρ c]
  exact task_bridge _ _ _ _ _ _ _ _ _ _ _ _ _ hlab

end Cert.KernelIdeal.Stage

end
-- ==== Proof.PreLabels.lean ====
/-
  The precondition's last conjunct read at an element: every support label is, as a signed integer, at least 0 and
  below 1032, the number of rows of the task graph.
-/
import proofs.«420595_j78357383348249_1_alg».proof.Defs
import proofs.«420595_j78357383348249_1_alg».proof.Proof.Gen.Pre_finite_inputs
import Idealize.ShloMosaic.Lib.ReduceAll
import Idealize.ShloMosaic.Lib.StableHlo.Predicate
import Idealize.ShloMosaic.Lib.ValueIdx

noncomputable section

namespace Cert.PreLabels

open Idealize.ShloMosaic Idealize.ShloMosaic.TcCoe Idealize.SL.Sem Idealize.ShloMosaic.ValueIdx

/-- The tail of the precondition (its last seven operations). If it is 1 then the mask it was handed is 1 at every
    label, and every label is below 1032 signed: the tail is a conjunction whose second half is the all-reduction of
    "mask ∧ label < 1032" over the 1024 labels, so each of the 1024 conjuncts holds, and a signed compare that gives 1
    says its operands' signed values are in that order. -/
theorem tail_elem [Cert.Pre_finite_inputs.Facts] {F : FTy → Type} [FloatOps F]
    (lab : IVec Cert.Pre_finite_inputs.S1024 32) (acc : IVec Cert.Pre_finite_inputs.S_ 1)
    (mask : IVec Cert.Pre_finite_inputs.S1024 1)
    (h : Cert.Pre_finite_inputs.fn_part3 (F := F) lab acc mask ix0 = 1#1) (i : Fin 1024) :
    mask (ix1 i) = 1#1 ∧ (lab (ix1 i)).toInt < 1032 := by
  -- the shape of rank 0 has exactly one index: a reduction over every axis lands there
  haveI : Subsingleton Cert.Pre_finite_inputs.S_.Idx := ⟨fun a b => funext fun d => d.elim0⟩
  dsimp only [Cert.Pre_finite_inputs.fn_part3] at h
  have hall := (IntOp.andi_eq_one.1 h).2
  have hi := Host.reduce_andi_all _ _ _ _ _ hall (ix1 i)
  obtain ⟨hm, hlt⟩ := IntOp.andi_eq_one.1 hi
  refine ⟨hm, ?_⟩
  -- the broadcast of the scalar constant reads 1032 at every label
  have hlt' : (lab (ix1 i)).toInt < (1032#32 : BitVec 32).toInt := IntOp.cmpi_slt.1 hlt
  have h1032 : (1032#32 : BitVec 32).toInt = 1032 := by decide
  rw [h1032] at hlt'
  exact hlt'

/-- Under the precondition every support label lies in [0, 1032) as a signed integer. -/
theorem labels_in_range [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 1024) :
    0 ≤ ((m ((c.tc : Thread Cert.KernelIdeal.nD Cert.KernelIdeal.τ).loc Cert.KernelIdeal.main_arg3) :
            IVec Cert.KernelIdeal.S1024 32) (ix1 i)).toInt
      ∧ ((m ((c.tc : Thread Cert.KernelIdeal.nD Cert.KernelIdeal.τ).loc Cert.KernelIdeal.main_arg3) :
            IVec Cert.KernelIdeal.S1024 32) (ix1 i)).toInt < 1032 := by
  -- the precondition on core c, read at the one index of its rank-0 result
  have e := congrFun (hpre c) ix0
  -- the printed chain ends in its tail applied to the labels, the conjunction so far, and the mask "label ≥ 0"
  obtain ⟨hge, hlt⟩ := tail_elem (F := Ideal) _ _ _ e i
  refine ⟨?_, hlt⟩
  have hge' : (0#32 : BitVec 32).toInt ≤
      ((m ((c.tc : Thread Cert.KernelIdeal.nD Cert.KernelIdeal.τ).loc Cert.KernelIdeal.main_arg3) :
            IVec Cert.KernelIdeal.S1024 32) (ix1 i)).toInt := IntOp.cmpi_sge.1 hge
  have h0 : (0#32 : BitVec 32).toInt = 0 := by decide
  rw [h0] at hge'
  exact hge'

end Cert.PreLabels

end
-- ==== Proof.lean ====
/-
  The certificate of the graph network's kernel program against its jnp reference, over the extended reals, for
  finite float inputs and support labels in [0, 1032).

  The program is a two-layer graph convolution on 50000 nodes (each layer: a 128 by 128 linear map in a kernel call,
  then on the host a gather along the edge sources, a scaling by the symmetric degree weights and a scatter-add along
  the edge destinations, plus a bias), a sum pooling of the nodes into 1024 graphs in a kernel call (a one-hot product
  accumulated over blocks of nodes), and a last kernel call on the 1032-node task graph: a linear map, the aggregation
  as a product with the dense adjacency matrix, a bias, a second linear map on the first 1024 rows, a bias and a
  log-softmax over eight classes. The reference does every aggregation by gather, scale and scatter-add and every
  linear map by a host product. Over the extended reals a change of float format is the identity and every product
  and sum is exact, so: a kernel product accumulated onto zero is the host product; the accumulated one-hot product is
  the scatter-add of the rows at the graph ids (an id outside [0, 1024) matches no column and lands on no row alike);
  and the product with the adjacency matrix is the gather, scale and scatter-add as soon as every support label names a
  row of the task graph, the weights being nonnegative so that a sum of weights distributes over the product. A label
  outside [0, 1032) is read differently by the two programs (the reference's gather clamps it or wraps it where the
  kernel's scatter drops it), which is why the statement carries the range of the labels.

  The frames are the generated ones (the reference's is its run with the result dropped); the idealization ledger is
  empty; the value claim pairs the kernel program's run, with the result buffer named, and the reference's run at one
  function of the arguments.
-/
import proofs.«420595_j78357383348249_1_alg».proof.Defs
import proofs.«420595_j78357383348249_1_alg».proof.Proof.Gen.Kernel
import proofs.«420595_j78357383348249_1_alg».proof.Proof.Gen.Kernel.Skeleton
import proofs.«420595_j78357383348249_1_alg».proof.Proof.Gen.Kernel.Launch
import proofs.«420595_j78357383348249_1_alg».proof.Proof.Gen.Kernel.Points
import proofs.«420595_j78357383348249_1_alg».proof.Proof.Gen.Kernel.Frame
import proofs.«420595_j78357383348249_1_alg».proof.Proof.Gen.KernelIdeal
import proofs.«420595_j78357383348249_1_alg».proof.Proof.Gen.KernelIdeal.Skeleton
import proofs.«420595_j78357383348249_1_alg».proof.Proof.Gen.KernelIdeal.Launch
import proofs.«420595_j78357383348249_1_alg».proof.Proof.Gen.KernelIdeal.Points
import proofs.«420595_j78357383348249_1_alg».proof.Proof.Gen.KernelIdeal.Frame
import proofs.«420595_j78357383348249_1_alg».proof.Proof.Gen.ReferenceIdeal
import proofs.«420595_j78357383348249_1_alg».proof.Proof.Gen.Pre_finite_inputs
import proofs.«420595_j78357383348249_1_alg».proof.Proof.RefRunC
import proofs.«420595_j78357383348249_1_alg».proof.Proof.RefRead
import proofs.«420595_j78357383348249_1_alg».proof.Proof.KRun
import proofs.«420595_j78357383348249_1_alg».proof.Proof.KValue
import proofs.«420595_j78357383348249_1_alg».proof.Proof.PreLabels
import Idealize.ShloMosaic.Adequacy
import Idealize.ShloMosaic.Init

noncomputable section

namespace Cert.Proof

open Idealize.ShloMosaic Idealize.ShloMosaic.TcCoe Idealize.SL.Sem

/-- The common result: the reference's function of the kernel program's argument arrays. -/
abbrev Value_of (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v114) :=
  Cert.ReferenceIdeal.ReadP.val_main_v154 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueC.run (F := Ideal) m ρ)

/-- The idealization ledger is empty. -/
theorem preserves : Cert.preserves_Kernel_KernelIdeal := trivial

/-- Both runs end with the result at the reference's function of the (agreeing) argument arrays. -/
theorem algebraic : Cert.algebraic_KernelIdeal_ReferenceIdeal := by
  intro m ρ m' ρ' hpre hagree
  refine ⟨fun c => Value_of m c, ?_, ?_⟩
  · refine (θ_run Cert.KernelIdeal.defs _ _).mono (fun _ h c => ⟨(h c).1.trans ?_, (h c).2⟩)
      (Cert.KernelIdeal.KRun.run (F := Ideal) m ρ)
    exact Cert.KernelIdeal.Stage.kernel_value m ρ c (fun i => Cert.PreLabels.labels_in_range m hpre c i)
  · refine (θ_run Cert.ReferenceIdeal.defs _ _).mono (fun _ h c => ⟨(h c).1.trans ?_, (h c).2⟩)
      (Cert.ReferenceIdeal.ValueC.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
